-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S30000x32 .f32 .bf16
  ∧ IdealRules.truncf_extf.Statement Cert.KernelIdeal.S32x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x32 : Shape := ⟨2, ![150000, 32]⟩
abbrev S27x60000 : Shape := ⟨2, ![27, 60000]⟩
abbrev S27x32x64 : Shape := ⟨3, ![27, 32, 64]⟩
abbrev S64 : Shape := ⟨1, ![64]⟩
abbrev S_ : Shape := ⟨0, ![]⟩

class Facts : Prop where
  bcast_S_S150000x32 : S_.BroadcastsInDim S150000x32 (![] : Fin 0 → Fin S150000x32.rank)
  reducesTo_S150000x32_S_d0_1 : S150000x32.ReducesTo [0, 1] S_
  h_S_ : 0 < S_.numel
  bcast_S_S27x32x64 : S_.BroadcastsInDim S27x32x64 (![] : Fin 0 → Fin S27x32x64.rank)
  reducesTo_S27x32x64_S_d0_1_2 : S27x32x64.ReducesTo [0, 1, 2] S_
  bcast_S_S64 : S_.BroadcastsInDim S64 (![] : Fin 0 → Fin S64.rank)
  reducesTo_S64_S_d0 : S64.ReducesTo [0] S_
  bcast_S_S27x60000 : S_.BroadcastsInDim S27x60000 (![] : Fin 0 → Fin S27x60000.rank)
  reducesTo_S27x60000_S_d0_1 : S27x60000.ReducesTo [0, 1] S_

variable [Facts]

def fn_part1 {F : FTy → Type} [FloatOps F] (main_arg1 : IVec S27x60000 32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S27x60000 32 := broadcastInDim S27x60000 ![] bcast_S_S27x60000 main_c_8
  let main_v25 : IVec S27x60000 1 := cmpi .sge main_arg1 main_v24
  let main_c_9 : IVec S_ 1 := constantI S_ 1 1#1
  let main_v26 : IVec S_ 1 := (fun x v => Host.reduce IntOp.andi x v reducesTo_S27x60000_S_d0_1 h_S_) main_v25 main_c_9
  let main_v27 : IVec S_ 1 := andi main_v23 main_v26
  let main_c_10 : IVec S_ 32 := constantI S_ 32 150000#32
  let main_v28 : IVec S27x60000 32 := broadcastInDim S27x60000 ![] bcast_S_S27x60000 main_c_10
  let main_v29 : IVec S27x60000 1 := cmpi .slt main_arg1 main_v28
  let main_c_11 : IVec S_ 1 := constantI S_ 1 1#1
  let main_v30 : IVec S_ 1 := (fun x v => Host.reduce IntOp.andi x v reducesTo_S27x60000_S_d0_1 h_S_) main_v29 main_c_11
  let main_v31 : IVec S_ 1 := andi main_v27 main_v30
  main_v31

def fn {F : FTy → Type} [FloatOps F] (main_arg0 : FVec F S150000x32 .f32) (main_arg1 : IVec S27x60000 32) (main_arg2 : IVec S27x60000 32) (main_arg3 : FVec F S27x32x64 .f32) (main_arg4 : FVec F S64 .f32) (main_arg5 : FVec F S64 .f32) (main_arg6 : FVec F S64 .f32) : IVec S_ 1 :=
  let main_v0 : FVec F S150000x32 .f32 := Host.absf main_arg0
  let main_cst : FVec F S_ .f32 := constant S_ .f32 0x7F800000#32
  let main_v1 : FVec F S150000x32 .f32 := broadcastInDim S150000x32 ![] bcast_S_S150000x32 main_cst
  let main_v2 : IVec S150000x32 1 := cmpf .olt main_v0 main_v1
  let main_c : IVec S_ 1 := constantI S_ 1 1#1
  let main_v3 : IVec S_ 1 := (fun x v => Host.reduce IntOp.andi x v reducesTo_S150000x32_S_d0_1 h_S_) main_v2 main_c
  let main_v4 : FVec F S27x32x64 .f32 := Host.absf main_arg3
  let main_cst_0 : FVec F S_ .f32 := constant S_ .f32 0x7F800000#32
  let main_v5 : FVec F S27x32x64 .f32 := broadcastInDim S27x32x64 ![] bcast_S_S27x32x64 main_cst_0
  let main_v6 : IVec S27x32x64 1 := cmpf .olt main_v4 main_v5
  let main_c_1 : IVec S_ 1 := constantI S_ 1 1#1
  let main_v7 : IVec S_ 1 := (fun x v => Host.reduce IntOp.andi x v reducesTo_S27x32x64_S_d0_1_2 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_v13 main_v16
-- ==== Kernel.lean ====
abbrev S150000x32 : Shape := ⟨2, ![150000, 32]⟩
abbrev S27x60000 : Shape := ⟨2, ![27, 60000]⟩
abbrev S27x32x64 : Shape := ⟨3, ![27, 32, 64]⟩
abbrev S64 : Shape := ⟨1, ![64]⟩
abbrev S_ : Shape := ⟨0, ![]⟩
abbrev S27x60000x1 : Shape := ⟨3, ![27, 60000, 1]⟩
abbrev S1 : Shape := ⟨1, ![1]⟩
abbrev S1x1x1 : Shape := ⟨3, ![1, 1, 1]⟩
abbrev S27x60000x32 : Shape := ⟨3, ![27, 60000, 32]⟩
abbrev S27x60000x64 : Shape := ⟨3, ![27, 60000, 64]⟩
abbrev S1x30000x32 : Shape := ⟨3, ![1, 30000, 32]⟩
abbrev S1x32x64 : Shape := ⟨3, ![1, 32, 64]⟩
abbrev S1x30000x64 : Shape := ⟨3, ![1, 30000, 64]⟩
abbrev S30000x32 : Shape := ⟨2, ![30000, 32]⟩
abbrev S32x64 : Shape := ⟨2, ![32, 64]⟩
abbrev S30000x64 : Shape := ⟨2, ![30000, 64]⟩
abbrev S1620000x64 : Shape := ⟨2, ![1620000, 64]⟩
abbrev S1620000 : Shape := ⟨1, ![1620000]⟩
abbrev S150000x64 : Shape := ⟨2, ![150000, 64]⟩
abbrev S1620000x1 : Shape := ⟨2, ![1620000, 1]⟩
abbrev S1x64 : Shape := ⟨2, ![1, 64]⟩
abbrev S6000x64 : Shape := ⟨2, ![6000, 64]⟩

abbrev nBuf : Space → Nat
  | .hbm => 46
  | .vmem => 23
  | .smem => 0
  | _ => 0

abbrev bufTy : (tb : Table) → Fin (tcTables nBuf tb) → BufTy
  | .hbm, ⟨0, _⟩ => ⟨S150000x32, .f32⟩
  | .hbm, ⟨1, _⟩ => ⟨S27x60000, .i32⟩
  | .hbm, ⟨2, _⟩ => ⟨S27x60000, .i32⟩
  | .hbm, ⟨3, _⟩ => ⟨S27x32x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .i32⟩
  | .hbm, ⟨8, _⟩ => ⟨S27x60000, .i32⟩
  | .hbm, ⟨9, _⟩ => ⟨S27x60000, .i1⟩
  | .hbm, ⟨10, _⟩ => ⟨S_, .i32⟩
  | .hbm, ⟨11, _⟩ => ⟨S27x60000, .i32⟩
  | .hbm, ⟨12, _⟩ => ⟨S27x60000, .i32⟩
  | .hbm, ⟨13, _⟩ => ⟨S27x60000, .i32⟩
  | .hbm, ⟨14, _⟩ => ⟨S27x60000x1, .i32⟩
  | .hbm, ⟨15, _⟩ => ⟨S1, .i32⟩
  | .hbm, ⟨16, _⟩ => ⟨S_, .i32⟩
  | .hbm, ⟨17, _⟩ => ⟨S27x60000x1, .i32⟩
  | .hbm, ⟨18, _⟩ => ⟨S27x60000x1, .i1⟩
  | .hbm, ⟨19, _⟩ => ⟨S1x1x1, .i32⟩
  | .hbm, ⟨20, _⟩ => ⟨S27x60000x1, .i32⟩
  | .hbm, ⟨21, _⟩ => ⟨S27x60000x1, .i1⟩
  | .hbm, ⟨22, _⟩ => ⟨S27x60000x1, .i1⟩
  | .hbm, ⟨23, _⟩ => ⟨S_, .i1⟩
  | .hbm, ⟨24, _⟩ => ⟨S27x60000, .i1⟩
  | .hbm, ⟨25, _⟩ => ⟨S27x60000x32, .f32⟩
  | .hbm, ⟨26, _⟩ => ⟨S27x60000x32, .i1⟩
  | .hbm, ⟨27, _⟩ => ⟨S_, .f32⟩
  | .hbm, ⟨28, _⟩ => ⟨S27x60000x32, .f32⟩
  | .hbm, ⟨29, _⟩ => ⟨S27x60000x32, .f32⟩
  | .hbm, ⟨30, _⟩ => ⟨S27x60000x64, .f32⟩
  | .hbm, ⟨31, _⟩ => ⟨S1620000x64, .f32⟩
  | .hbm, ⟨32, _⟩ => ⟨S1620000, .i32⟩
  | .hbm, ⟨33, _⟩ => ⟨S_, .f32⟩
  | .hbm, ⟨34, _⟩ => ⟨S150000x64, .f32⟩
  | .hbm, ⟨35, _⟩ => ⟨S1620000x1, .i32⟩
  | .hbm, ⟨36, _⟩ => ⟨S150000x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S150000x64, .f32⟩
  | .local _ .vmem, ⟨0, _⟩ => ⟨S1x30000x32, .f32⟩
  | .local _ .vmem, ⟨1, _⟩ => ⟨S1x30000x32, .f32⟩
  | .local _ .vmem, ⟨2, _⟩ => ⟨S1x32x64, .f32⟩
  | .local _ .vmem, ⟨3, _⟩ => ⟨S1x32x64, .f32⟩
  | .local _ .vmem, ⟨4, _⟩ => ⟨S1x30000x64, .f32⟩
  | .local _ .vmem, ⟨5, _⟩ => ⟨S1x30000x64, .f32⟩
  | .local _ .vmem, ⟨6, _⟩ => ⟨S6000x64, .f32⟩
  | .local _ .vmem, ⟨7, _⟩ => ⟨S6000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S6000x64, .f32⟩
  | .local _ .vmem, ⟨15, _⟩ => ⟨S6000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S6000x64, .f32⟩
  | .local _ .vmem, ⟨22, _⟩ => ⟨S6000x64, .f32⟩
  | _, _ => ⟨S150000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8_0 : Ref sig .tc := ⟨.hbm, 38, rfl⟩
abbrev main_v8_1 : Ref sig .tc := ⟨.hbm, 39, rfl⟩
abbrev main_cst_0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨2, ![27, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x30000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x30000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v45 : BitVec 1 := Scalar.cmpi .eq arg0 c24_i32
  let v46 : BitVec 32 := Scalar.extui v45
  let c0_i32_22 : BitVec 32 := 0#32
  let v47 : BitVec 1 := Scalar.cmpi .ne v46 c0_i32_22
  v47

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S6000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S27x60000 : S_.BroadcastsInDim S27x60000 (![] : Fin 0 → Fin S27x60000.rank)
  bcast_S27x60000_S27x60000x1_0_1 : S27x60000.BroadcastsInDim S27x60000x1 (![0, 1] : Fin 2 → Fin S27x60000x1.rank)
  bcast_S_S27x60000x1 : S_.BroadcastsInDim S27x60000x1 (![] : Fin 0 → Fin S27x60000x1.rank)
  bcast_S1_S1x1x1_2 : S1.BroadcastsInDim S1x1x1 (![2] : Fin 1 → Fin S1x1x1.rank)
  bcast_S1x1x1_S27x60000x1_0_1_2 : S1x1x1.BroadcastsInDim S27x60000x1 (![0, 1, 2] : Fin 3 → Fin S27x60000x1.rank)
  reducesTo_S27x60000x1_S27x60000_d2 : S27x60000x1.ReducesTo [2] S27x60000
  h_S_ : 0 < S_.numel
  bcast_S27x60000_S27x60000x32_0_1 : S27x60000.BroadcastsInDim S27x60000x32 (![0, 1] : Fin 2 → Fin S27x60000x32.rank)
  bcast_S_S27x60000x32 : S_.BroadcastsInDim S27x60000x32 (![] : Fin 0 → Fin S27x60000x32.rank)
  inb_S1x30000x32_S1x30000x32_0_0_0 : ∀ a, (![0, 0, 0] : Fin 3 → Nat) a + S1x30000x32.size a ≤ S1x30000x32.size a
  h_S1x30000x32 : 0 < S1x30000x32.numel
  shapeCasts_S1x30000x32_S30000x32 : S1x30000x32.ShapeCasts S30000x32
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  bitsLt_bf16_f32 : FTy.bits .bf16 < FTy.bits .f32
  inb_S1x30000x64_S1x30000x64_0_0_0 : ∀ a, (![0, 0, 0] : Fin 3 → Nat) a + S1x30000x64.size a ≤ S1x30000x64.size a
  h_S1x30000x64 : 0 < S1x30000x64.numel
  shapeCasts_S1x30000x64_S30000x64 : S1x30000x64.ShapeCasts S30000x64
  shapeCasts_S30000x64_S1x30000x64 : S30000x64.ShapeCasts S1x30000x64
  shapeCasts_S27x60000x64_S1620000x64 : S27x60000x64.ShapeCasts S1620000x64
  shapeCasts_S27x60000_S1620000 : S27x60000.ShapeCasts S1620000
  bcast_S_S150000x64 : S_.BroadcastsInDim S150000x64 (![] : Fin 0 → Fin S150000x64.rank)
  bcast_S1620000_S1620000x1_0 : S1620000.BroadcastsInDim S1620000x1 (![0] : Fin 1 → Fin S1620000x1.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  broadcasts_S1x64_S6000x64 : S1x64.Broadcasts S6000x64
  reduces_S6000x64_S64 : S6000x64.Reduces [0] S64
  bcast_S_S1x64 : S_.BroadcastsInDim S1x64 (![] : Fin 0 → Fin S1x64.rank)
  gather_S150000x32_S27x60000x1_S27x60000x32_2_0_n_n_0_2_132_wf : GatherDims.WF S150000x32 S27x60000x1 S27x60000x32 [2] [0] [] [0] [] 2 ![1, 32]
  dot_S30000x32_S32x64_S30000x64_1_0_0_1_n_n_wf : DotDims.WF S30000x32 S32x64 S30000x64 [1] [0] [0] [1] [] []
  scatter_S150000x64_S1620000x1_S1620000x64_1_0_0_1_wf : ScatterDims.WF S150000x64 S1620000x1 S1620000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x30000x32.size a ≤ S27x60000x32.size a
  hwx0_0 : ∀ i : grid0.Coords, EltTy.bits .f32 = 32 ∨ (Rect.block (s := S27x60000x32) S1x30000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64.size a ≤ S27x32x64.size a
  hwx0_1 : ∀ i : grid0.Coords, EltTy.bits .f32 = 32 ∨ (Rect.block (s := S27x32x64) S1x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x30000x64.size a ≤ S27x60000x64.size a
  hwx0_2 : ∀ i : grid0.Coords, EltTy.bits .f32 = 32 ∨ (Rect.block (s := S27x60000x64) S1x30000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S6000x64.size a ≤ S150000x64.size a
  hwx2_6 : ∀ i : grid2.Coords, EltTy.bits .f32 = 32 ∨ (Rect.block (s := S150000x64) S6000x64.size (cc2_transform_6 i) (hinb2_6 i)).WholeWords (EltTy.packing .f32)

variable [Facts₀]

def gather_S150000x32_S27x60000x1_S27x60000x32_2_0_n_n_0_2_132 : GatherDims S150000x32 S27x60000x1 S27x60000x32 where
  offsetDims := [2]
  collapsedSliceDims := [0]
  operandBatchingDims := []
  startIndicesBatchingDims := []
  startIndexMap := [0]
  indexVectorDim := 2
  sliceSizes := ![1, 32]
  wf := gather_S150000x32_S27x60000x1_S27x60000x32_2_0_n_n_0_2_132_wf
def dot_S30000x32_S32x64_S30000x64_1_0_0_1_n_n : DotDims S30000x32 S32x64 S30000x64 where
  lhsContracting := [1]
  rhsContracting := [0]
  lhsNonContracting := [0]
  rhsNonContracting := [1]
  lhsBatch := []
  rhsBatch := []
  wf := dot_S30000x32_S32x64_S30000x64_1_0_0_1_n_n_wf
def scatter_S150000x64_S1620000x1_S1620000x64_1_0_0_1 : ScatterDims S150000x64 S1620000x1 S1620000x64 where
  updateWindowDims := [1]
  insertedWindowDims := [0]
  scatterDimsToOperandDims := [0]
  indexVectorDim := 1
  wf := scatter_S150000x64_S1620000x1_S1620000x64_1_0_0_1_wf

abbrev win0_0 : Pipeline.Window sig grid0 :=
  Pipeline.Window.ofSpec (Memref.whole main_v0) S1x30000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x30000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v6) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8_0) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S6000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S150000x32 : Shape := ⟨2, ![150000, 32]⟩
abbrev S27x60000 : Shape := ⟨2, ![27, 60000]⟩
abbrev S27x32x64 : Shape := ⟨3, ![27, 32, 64]⟩
abbrev S64 : Shape := ⟨1, ![64]⟩
abbrev S_ : Shape := ⟨0, ![]⟩
abbrev S27x60000x1 : Shape := ⟨3, ![27, 60000, 1]⟩
abbrev S27x60000x32 : Shape := ⟨3, ![27, 60000, 32]⟩
abbrev S27x60000x64 : Shape := ⟨3, ![27, 60000, 64]⟩
abbrev S1620000x64 : Shape := ⟨2, ![1620000, 64]⟩
abbrev S1620000 : Shape := ⟨1, ![1620000]⟩
abbrev S150000x64 : Shape := ⟨2, ![150000, 64]⟩
abbrev S1620000x1 : Shape := ⟨2, ![1620000, 1]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S150000x32, .f32⟩
  | .hbm, ⟨1, _⟩ => ⟨S27x60000, .i32⟩
  | .hbm, ⟨2, _⟩ => ⟨S27x60000, .i32⟩
  | .hbm, ⟨3, _⟩ => ⟨S27x32x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S_, .i32⟩
  | .hbm, ⟨8, _⟩ => ⟨S27x60000, .i32⟩
  | .hbm, ⟨9, _⟩ => ⟨S27x60000, .i1⟩
  | .hbm, ⟨10, _⟩ => ⟨S_, .i32⟩
  | .hbm, ⟨11, _⟩ => ⟨S27x60000, .i32⟩
  | .hbm, ⟨12, _⟩ => ⟨S27x60000, .i32⟩
  | .hbm, ⟨13, _⟩ => ⟨S27x60000, .i32⟩
  | .hbm, ⟨14, _⟩ => ⟨S27x60000x1, .i32⟩
  | .hbm, ⟨15, _⟩ => ⟨S27x60000x32, .f32⟩
  | .hbm, ⟨16, _⟩ => ⟨S27x60000x64, .f32⟩
  | .hbm, ⟨17, _⟩ => ⟨S1620000x64, .f32⟩
  | .hbm, ⟨18, _⟩ => ⟨S1620000, .i32⟩
  | .hbm, ⟨19, _⟩ => ⟨S_, .f32⟩
  | .hbm, ⟨20, _⟩ => ⟨S150000x64, .f32⟩
  | .hbm, ⟨21, _⟩ => ⟨S1620000x1, .i32⟩
  | .hbm, ⟨22, _⟩ => ⟨S150000x64, .f32⟩
  | .hbm, ⟨23, _⟩ => ⟨S1x64, .f32⟩
  | .hbm, ⟨24, _⟩ => ⟨S150000x64, .f32⟩
  | .hbm, ⟨25, _⟩ => ⟨S150000x64, .f32⟩
  | .hbm, ⟨26, _⟩ => ⟨S_, .f32⟩
  | .hbm, ⟨27, _⟩ => ⟨S150000x64, .f32⟩
  | .hbm, ⟨28, _⟩ => ⟨S150000x64, .f32⟩
  | .hbm, ⟨29, _⟩ => ⟨S_, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .i32⟩
  | .hbm, ⟨35, _⟩ => ⟨S_, .f32⟩
  | .hbm, ⟨36, _⟩ => ⟨S64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S150000x64, .f32⟩
  | .hbm, ⟨42, _⟩ => ⟨S150000x64, .f32⟩
  | .hbm, ⟨43, _⟩ => ⟨S150000x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S_, .i1⟩
  | .hbm, ⟨53, _⟩ => ⟨S_, .f32⟩
  | .hbm, ⟨54, _⟩ => ⟨S_, .f32⟩
  | .hbm, ⟨55, _⟩ => ⟨S64, .f32⟩
  | .hbm, ⟨56, _⟩ => ⟨S64, .f32⟩
  | .hbm, ⟨57, _⟩ => ⟨S1x64, .f32⟩
  | .hbm, ⟨58, _⟩ => ⟨S150000x64, .f32⟩
  | .hbm, ⟨59, _⟩ => ⟨S150000x64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64, .f32⟩
  | .hbm, ⟨64, _⟩ => ⟨S1x64, .f32⟩
  | .hbm, ⟨65, _⟩ => ⟨S150000x64, .f32⟩
  | .hbm, ⟨66, _⟩ => ⟨S150000x64, .f32⟩
  | .hbm, ⟨67, _⟩ => ⟨S1x64, .f32⟩
  | .hbm, ⟨68, _⟩ => ⟨S150000x64, .f32⟩
  | .hbm, ⟨69, _⟩ => ⟨S150000x64, .f32⟩
  | .hbm, ⟨70, _⟩ => ⟨S1x64, .f32⟩
  | .hbm, ⟨71, _⟩ => ⟨S150000x64, .f32⟩
  | .hbm, ⟨72, _⟩ => ⟨S150000x64, .f32⟩
  | _, _ => ⟨S150000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_cst_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_cst_1 : Ref sig .tc := ⟨.hbm, 45, rfl⟩
abbrev main_call1_v8 : Ref sig .tc := ⟨.hbm, 46, rfl⟩
abbrev main_call1_cst_2 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_cst_3 : Ref sig .tc := ⟨.hbm, 51, rfl⟩
abbrev main_call1_v12 : Ref sig .tc := ⟨.hbm, 52, rfl⟩
abbrev main_call1_cst_4 : Ref sig .tc := ⟨.hbm, 53, rfl⟩
abbrev main_call1_call0_v0 : Ref sig .tc := ⟨.hbm, 54, rfl⟩
abbrev main_call1_call0_v1 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_cst_4 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩

abbrev nD : Nat := 1
abbrev τ : Topo := Topo.v7x

variable {F : FTy → Type} [FloatOps F]

class Facts₀ : Prop where
  bcast_S_S27x60000 : S_.BroadcastsInDim S27x60000 (![] : Fin 0 → Fin S27x60000.rank)
  bcast_S27x60000_S27x60000x1_0_1 : S27x60000.BroadcastsInDim S27x60000x1 (![0, 1] : Fin 2 → Fin S27x60000x1.rank)
  shapeCasts_S27x60000x64_S1620000x64 : S27x60000x64.ShapeCasts S1620000x64
  shapeCasts_S27x60000_S1620000 : S27x60000.ShapeCasts S1620000
  bcast_S_S150000x64 : S_.BroadcastsInDim S150000x64 (![] : Fin 0 → Fin S150000x64.rank)
  bcast_S1620000_S1620000x1_0 : S1620000.BroadcastsInDim S1620000x1 (![0] : Fin 1 → Fin S1620000x1.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  reducesTo_S150000x64_S64_d0 : S150000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S150000x32_S27x60000x1_S27x60000x32_2_0_n_n_0_2_132_wf : GatherDims.WF S150000x32 S27x60000x1 S27x60000x32 [2] [0] [] [0] [] 2 ![1, 32]
  dot_S27x60000x32_S27x32x64_S27x60000x64_2_1_1_2_0_0_wf : DotDims.WF S27x60000x32 S27x32x64 S27x60000x64 [2] [1] [1] [2] [0] [0]
  scatter_S150000x64_S1620000x1_S1620000x64_1_0_0_1_wf : ScatterDims.WF S150000x64 S1620000x1 S1620000x64 [1] [0] [0] 1

variable [Facts₀]

def gather_S150000x32_S27x60000x1_S27x60000x32_2_0_n_n_0_2_132 : GatherDims S150000x32 S27x60000x1 S27x60000x32 where
  offsetDims := [2]
  collapsedSliceDims := [0]
  operandBatchingDims := []
  startIndicesBatchingDims := []
  startIndexMap := [0]
  indexVectorDim := 2
  sliceSizes := ![1, 32]
  wf := gather_S150000x32_S27x60000x1_S27x60000x32_2_0_n_n_0_2_132_wf
def dot_S27x60000x32_S27x32x64_S27x60000x64_2_1_1_2_0_0 : DotDims S27x60000x32 S27x32x64 S27x60000x64 where
  lhsContracting := [2]
  rhsContracting := [1]
  lhsNonContracting := [1]
  rhsNonContracting := [2]
  lhsBatch := [0]
  rhsBatch := [0]
  wf := dot_S27x60000x32_S27x32x64_S27x60000x64_2_1_1_2_0_0_wf
def scatter_S150000x64_S1620000x1_S1620000x64_1_0_0_1 : ScatterDims S150000x64 S1620000x1 S1620000x64 where
  updateWindowDims := [1]
  insertedWindowDims := [0]
  scatterDimsToOperandDims := [0]
  indexVectorDim := 1
  wf := scatter_S150000x64_S1620000x1_S1620000x64_1_0_0_1_wf

class Facts : Prop extends Facts₀ where

variable [Facts]
-- ==== Proof.KDefs.lean ====
/-
  The proof data of the three kernel regions, stated at a parameter V: the TensorCore's buffer contents when a
  region is entered. For each region: the block of each window's array at a grid point, what the body leaves in
  each output's staging buffer as a function of the input blocks (the body's arithmetic is the payload terms of the
  printed kernel), and the record of those contents point by point.

  Region 0 (grid 27 x 2) multiplies a 30000 x 32 block of gathered rows by the 32 x 64 weight of its offset.
  Region 1 (grid 25) carries three 1 x 64 scratch rows between points: a running mean, a running sum of squared
  deviations and a running count, reset before the first tile and merged with each 6000-row tile; the two output
  rows are stored at the last point only. Region 2 (grid 25) normalises a 6000-row tile.
-/
import proofs.«408267_j28449863368848_3_alg».proof.Proof.Gen.Kernel.Launch
import proofs.«408267_j28449863368848_3_alg».proof.Proof.Gen.Kernel.Skeleton
import proofs.«408267_j28449863368848_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: one offset's block of gathered rows times that offset's weight -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x30000x32 := Rect.unit (s := S1x30000x32) ![0, 0, 0] S1x30000x32.size inb_S1x30000x32_S1x30000x32_0_0_0
abbrev r0_1 : Rect S1x32x64 := Rect.unit (s := S1x32x64) ![0, 0, 0] S1x32x64.size inb_S1x32x64_S1x32x64_0_0_0
abbrev r0_2 : Rect S1x30000x64 := Rect.unit (s := S1x30000x64) ![0, 0, 0] S1x30000x64.size inb_S1x30000x64_S1x30000x64_0_0_0

/-- The product block the body stores, from the block of rows and the weight. -/
def out0_2 (x0 : Vec F S1x30000x32 .f32) (x1 : Vec F S1x32x64 .f32) : Vec F S1x30000x64 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 2: the normalisation of one tile of rows -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT : Rect S6000x64 := Rect.unit (s := S6000x64) ![0, 0] S6000x64.size inb_S6000x64_S6000x64_0_0
abbrev rR : Rect S1x64 := Rect.unit (s := S1x64) ![0, 0] S1x64.size inb_S1x64_S1x64_0_0

/-- The normalised tile the body stores, from the tile of sums (x0), the bias row (x1), the mean row (x2), the
    variance row (x3), the scale row (x4) and the shift row (x5). -/
def out2_6 (x0 : Vec F S6000x64 .f32) (x1 x2 x3 x4 x5 : Vec F S1x64 .f32) : Vec F S6000x64 .f32 :=
  View.canon [⟨rT, k2_pay1 (View.ld x0 rT) (View.ld x1 rR) (View.ld x3 rR) (View.ld x2 rR) (View.ld x4 rR) (View.ld x5 rR)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-! ## Region 1: the running mean, sum of squared deviations and count, merged tile by tile -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three scratch rows the kernel carries from point to point. -/
abbrev scrMean : Memref sig .tc .vmem S1x64 .f32 := Memref.whole cc1_scratch0
abbrev scrM2 : Memref sig .tc .vmem S1x64 .f32 := Memref.whole cc1_scratch1
abbrev scrCnt : Memref sig .tc .vmem S1x64 .f32 := Memref.whole cc1_scratch2
abbrev scrRefs : List (Ref sig .tc) := [cc1_scratch0, cc1_scratch1, cc1_scratch2]

/-- One point's merge: from the carried (mean, squared deviations, count), the tile x and the bias row b, the new
    carried triple — the body's arithmetic, the scratch rows read where the body reads them. -/
def step1 (s : Vec F S1x64 .f32 × Vec F S1x64 .f32 × Vec F S1x64 .f32) (x : Vec F S6000x64 .f32) (b : Vec F S1x64 .f32) :
    Vec F S1x64 .f32 × Vec F S1x64 .f32 × Vec F S1x64 .f32 :=
  (k1_pay1 (k1_pay12 x b s.2.2 s.1 s.1), k1_pay2 (k1_pay13 x b s.2.2 s.1 s.2.1), k1_pay3 (k1_pay10 s.2.2))

/-- The carried triple after the body at position n: the first point resets the three rows to zero and merges its
    tile, every later point merges its tile into what the point before left. -/
def accAt1 (c : Dev nD) : (n : ℕ) → n < cfg1.N → Vec F S1x64 .f32 × Vec F S1x64 .f32 × Vec F S1x64 .f32
  | 0, hn => step1 (k1_pay4 (F := F), k1_pay5 (F := F), k1_pay6 (F := F)) (iblk1 V c 0 ⟨0, hn⟩) (iblk1 V c 1 ⟨0, hn⟩)
  | n + 1, hn => step1 (accAt1 c n (Nat.lt_of_succ_lt hn)) (iblk1 V c 0 ⟨n + 1, hn⟩) (iblk1 V c 1 ⟨n + 1, hn⟩)

theorem accAt1_zero (c : Dev nD) (hn : 0 < cfg1.N) :
    accAt1 V c 0 hn = step1 (k1_pay4 (F := F), k1_pay5 (F := F), k1_pay6 (F := F)) (iblk1 V c 0 ⟨0, hn⟩) (iblk1 V c 1 ⟨0, hn⟩) := rfl
theorem accAt1_succ (c : Dev nD) (n : ℕ) (hn : n + 1 < cfg1.N) :
    accAt1 V c (n + 1) hn = step1 (accAt1 V c n (Nat.lt_of_succ_lt hn)) (iblk1 V c 0 ⟨n + 1, hn⟩) (iblk1 V c 1 ⟨n + 1, hn⟩) := rfl

/-- The region invariant before position n: before the first point the class's (every scratch at anything);
    afterwards the three carried rows at what the point before left, the other scoped buffers at anything, the
    generator register at some state. -/
def PhiS1 (c : Dev nD) : (n : ℕ) → n ≤ cfg1.N → sProp 𝕄
  | 0, _ => Pipeline.ΦA spec1 c
  | n + 1, hn => iprop(owns (c : Thread nD τ) scrMean fullShare (accAt1 V c n hn).1
      ∗ owns (c : Thread nD τ) scrM2 fullShare (accAt1 V c n hn).2.1
      ∗ owns (c : Thread nD τ) scrCnt fullShare (accAt1 V c n hn).2.2
      ∗ Pipeline.scopedRestBut (Ix := Unit) (Name := ℕ) (U := UR sig nD τ) (Lvl := ℕ) (Val := Elt F) spec1 c scrRefs
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (accAt1 V c t.val t.isLt).1
    | ⟨3, _⟩ => (accAt1 V c t.val t.isLt).2.1
  Φ t := PhiS1 V c t.val (Nat.le_of_lt_succ t.isLt)
  q _ := fullShare
  owed _ := 0

/-! ## The records projected (by dsimp, never by unfolding the arrays) -/

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (accAt1 V c t.val t.isLt).1 := by dsimp only [dat1]
theorem after1_3 (c : Dev nD) (t : Fin cfg1.N) : (dat1 V c).after 3 t = (accAt1 V c t.val t.isLt).2.1 := by dsimp only [dat1]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

end Cert.Kernel.Fr

end
-- ==== Proof.KChain.lean ====
/-
  The TensorCore's buffer contents at each boundary between two items of @main, as a fold from the launch memory:
  a stretch of host operations applies them; a kernel region leaves each of its windows' arrays at what its
  write-backs fold to and every other buffer as it found it. The regions' proof data are taken at the contents their
  region is entered with.
-/
import proofs.«408267_j28449863368848_3_alg».proof.Proof.KDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffers at launch. -/
abbrev W0 (c : Dev nD) : Valuation τ sig (Elt F) := fun b => m (c, b)
/-- After the first host stretch (the bounds-checked gather): region 0's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b

/-- After the second host stretch (the scatter-add of the products, the bias as a row): region 1's entry. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

/-- After the third host stretch (the variance from the squared deviations, scale and shift as rows): region 2's entry. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- At region 2's exit: the end of @main. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b

theorem hF0 (c : Dev nD) (w : Fin cfg0.W) : (dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) := (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) := (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.Kernel.Fr

end
-- ==== Proof.KBody0.lean ====
/-
  Region 0's body obligation: one offset's 30000 x 32 block of gathered rows times that offset's 32 x 64 weight.

  The body reads its two input blocks whole, reads the output block (a value it never uses) and writes the product
  over the whole output block. Each input block sits in its staging buffer at every point, fetched there or not: the
  weight's block is fetched at the even points only, and at an odd point its block index has not moved, so the
  buffer still holds the right block. The one store covers the output block, so what the block holds afterwards is a
  function of the two input blocks alone, whatever it held before.
-/
import proofs.«408267_j28449863368848_3_alg».proof.Proof.KDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- The rows' block is in its staging buffer at every point. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0 V c s]; unfold Dat.blockOf iblk0; rw [A_eq0 V c 0]; try rfl
  rw [(dat0 V c).before_in_eq_fetched 0 rfl (fun _ => rfl) (fun _ _ _ => rfl) hkeep t d]
  unfold Dat.fetched Dat.blockOf iblk0; rw [A_eq0 V c 0]; try rfl

/-- The weight's block is in its staging buffer at every point: at an odd point nothing is fetched, and the block
    index is the one of the point before. -/
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1 V c s]; unfold Dat.blockOf iblk0; rw [A_eq0 V c 1]; try rfl
  rw [(dat0 V c).before_in_eq_fetched 1 rfl (fun _ => rfl) (fun _ _ _ => rfl) hkeep t d]
  unfold Dat.fetched Dat.blockOf iblk0; rw [A_eq0 V c 1]; try rfl

/-! ## The one store covers the output block -/

theorem cover0_2 (p0 : Vec F S1x30000x64 .f32) (y : S1x30000x64.Idx) :
    ∃ pc ∈ ([⟨r0_2, p0⟩] : List (View.Piece (Elt F) S1x30000x64 .f32)), y ∈ pc.1.set :=
  View.cover_of_tiled [⟨r0_2, p0⟩] S1x30000x64.size (by rfl) y

/-! ## The body's triple -/

set_option maxHeartbeats 1000000 in
/-- The body on whole staging memrefs, the two inputs' read at `x0` and `x1` and the output's at anything, runs to a
    state with the inputs' as they were and the output's at the product block of `x0` and `x1`. -/
theorem sound_kernel0 (c : Dev nD) (E : Set ℕ) (i : grid0.Coords)
    (arg2 : Memref sig .tc .vmem S1x30000x32 .f32) (harg2 : arg2.IsWhole)
    (arg3 : Memref sig .tc .vmem S1x32x64 .f32) (harg3 : arg3.IsWhole)
    (arg4 : Memref sig .tc .vmem S1x30000x64 .f32) (harg4 : arg4.IsWhole)
    (x0 : Vec F S1x30000x32 .f32) (x1 : Vec F S1x32x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KBody1Runs.lean ====
/-
  Region 1's body on whole row buffers, in its three control cases: at the grid's first point the three carried rows
  (running mean, running sum of squared deviations, running count) are reset to zero and merged with the tile; at a
  middle point they are merged with the tile; at the last point they are merged and the first two are copied to the
  two output rows. With them: the two conditionals' tests in closed form over the grid, and where the two output
  windows are idle.
-/
import proofs.«408267_j28449863368848_3_alg».proof.Proof.KDefs
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions, in closed form over the grid -/

/-- The first conditional's test: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's test: the point is the grid's last. -/
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## Reading a row back after the body's stores -/

theorem hz2 : (![0, 0] : Fin 2 → Nat) = fun _ => 0 := funext fun a => by fin_cases a <;> rfl

/-- A whole-row store, the last of the stores into a row buffer, leaves its payload there. -/
theorem read_store (v : View sig .tc .vmem S1x64 .f32) (f : v.ty.Contents (Elt F)) (p : Vec F S1x64 .f32)
    (L : List (View.Piece (Elt F) S1x64 .f32)) :
    v.read (Elt F) (v.writes (Elt F) f ((⟨rR, p⟩ : View.Piece (Elt F) S1x64 .f32) :: L)) = p := by
  rw [View.read_writes_eq_canon _ _ _ (fun y => ⟨_, List.mem_cons_self, View.mem_set_unit_zero hz2 inb_S1x64_S1x64_0_0 y⟩)]
  exact View.canon_cons_unit_zero hz2 _ p L

set_option maxHeartbeats 1000000 in
/-- The body at a point that is neither the first nor the last: the three carried rows merged with the tile. -/
theorem run1_B (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond1_0 i) (hc1 : ¬cond1_1 i)
    (x : Vec F S6000x64 .f32) (b s1 s2 s3 : Vec F S1x64 .f32) (K : PUnit → sProp 𝕄) :
    iprop(owns (c : Thread nD τ) arg1 fullShare x ∗ owns (c : Thread nD τ) arg2 fullShare b
        ∗ owns (c : Thread nD τ) arg5 fullShare s1 ∗ owns (c : Thread nD τ) arg6 fullShare s2 ∗ owns (c : Thread nD τ) arg7 fullShare s3
        ∗ (iprop(owns (c : Thread nD τ) arg1 fullShare x ∗ owns (c : Thread nD τ) arg2 fullShare b
            ∗ owns (c : Thread nD τ) arg5 fullShare (step1 (s1, s2, s3) x b).1
            ∗ owns (c : Thread nD τ) arg6 fullShare (step1 (s1, s2, s3) x b).2.1
            ∗ owns (c : Thread nD τ) arg7 fullShare (step1 (s1, s2, s3) x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton]; unfold cc1__stats_kernel_skel
  simp only [k1_part1_eq_skeleton]
  unfold owns
  iintro ⟨⟨%f1, %hf1, H1⟩, ⟨%f2, %hf2, H2⟩, ⟨%f5, %hf5, H5⟩, ⟨%f6, %hf6, H6⟩, ⟨%f7, %hf7, H7⟩, Hk⟩
  subst hf1 hf2 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H6]
  · iexists _; isplitr
    swap; · iexact H6
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  · iexists _; isplitr
    swap; · iexact H7
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl

set_option maxHeartbeats 1000000 in
/-- The body at the first point: the three carried rows reset to zero, then merged with the tile. -/
theorem run1_A (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : cond1_0 i) (hc1 : ¬cond1_1 i)
    (x : Vec F S6000x64 .f32) (b : Vec F S1x64 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare b
            ∗ owns (c : Thread nD τ) arg5 fullShare (step1 (k1_pay4 (F := F), k1_pay5 (F := F), k1_pay6 (F := F)) x b).1
            ∗ owns (c : Thread nD τ) arg6 fullShare (step1 (k1_pay4 (F := F), k1_pay5 (F := F), k1_pay6 (F := F)) x b).2.1
            ∗ owns (c : Thread nD τ) arg7 fullShare (step1 (k1_pay4 (F := F), k1_pay5 (F := F), k1_pay6 (F := F)) x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton]; unfold cc1__stats_kernel_skel
  simp only [k1_part1_eq_skeleton]
  unfold owns
  iintro ⟨⟨%f1, %hf1, H1⟩, ⟨%f2, %hf2, H2⟩, ⟨%d5, %f5, -, H5⟩, ⟨%d6, %f6, -, H6⟩, ⟨%d7, %f7, -, H7⟩, Hk⟩
  subst hf1 hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H6]
  · iexists _; isplitr
    swap; · iexact H6
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  · iexists _; isplitr
    swap; · iexact H7
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl

set_option maxHeartbeats 1000000 in
/-- The body at the last point: the three carried rows merged with the tile, then the mean row and the row of
    squared deviations copied to the two outputs. -/
theorem run1_C (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond1_0 i) (hc1 : cond1_1 i)
    (x : Vec F S6000x64 .f32) (b s1 s2 s3 : Vec F S1x64 .f32) (K : PUnit → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d)
        ∗ owns (c : Thread nD τ) arg5 fullShare s1 ∗ owns (c : Thread nD τ) arg6 fullShare s2 ∗ owns (c : Thread nD τ) arg7 fullShare s3
        ∗ (iprop(owns (c : Thread nD τ) arg1 fullShare x ∗ owns (c : Thread nD τ) arg2 fullShare b
            ∗ owns (c : Thread nD τ) arg3 fullShare (step1 (s1, s2, s3) x b).1
            ∗ owns (c : Thread nD τ) arg4 fullShare (step1 (s1, s2, s3) x b).2.1
            ∗ owns (c : Thread nD τ) arg5 fullShare (step1 (s1, s2, s3) x b).1
            ∗ owns (c : Thread nD τ) arg6 fullShare (step1 (s1, s2, s3) x b).2.1
            ∗ owns (c : Thread nD τ) arg7 fullShare (step1 (s1, s2, s3) x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton]; unfold cc1__stats_kernel_skel
  simp only [k1_part1_eq_skeleton]
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, ⟨%f7, %hf7, H7⟩, Hk⟩
  subst hf1 hf2 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H4]
  · iexists _; isplitr
    swap; · iexact H4
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H5]
  · iexists _; isplitr
    swap; · iexact H5
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H6]
  · iexists _; isplitr
    swap; · iexact H6
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  · iexists _; isplitr
    swap; · iexact H7
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl

/-- The same two runs over the carried triple as one value. -/
theorem run1_B' (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond1_0 i) (hc1 : ¬cond1_1 i)
    (x : Vec F S6000x64 .f32) (b : Vec F S1x64 .f32) (s : Vec F S1x64 .f32 × Vec F S1x64 .f32 × Vec F S1x64 .f32) (K : PUnit → sProp 𝕄) :
    iprop(owns (c : Thread nD τ) arg1 fullShare x ∗ owns (c : Thread nD τ) arg2 fullShare b
        ∗ owns (c : Thread nD τ) arg5 fullShare s.1 ∗ owns (c : Thread nD τ) arg6 fullShare s.2.1 ∗ owns (c : Thread nD τ) arg7 fullShare s.2.2
        ∗ (iprop(owns (c : Thread nD τ) arg1 fullShare x ∗ owns (c : Thread nD τ) arg2 fullShare b
            ∗ owns (c : Thread nD τ) arg5 fullShare (step1 s x b).1
            ∗ owns (c : Thread nD τ) arg6 fullShare (step1 s x b).2.1
            ∗ owns (c : Thread nD τ) arg7 fullShare (step1 s x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  obtain ⟨s1, s2, s3⟩ := s
  exact run1_B c E i arg1 harg1 arg2 harg2 arg3 harg3 arg4 harg4 arg5 harg5 arg6 harg6 arg7 harg7 hc0 hc1 x b s1 s2 s3 K

theorem run1_C' (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond1_0 i) (hc1 : cond1_1 i)
    (x : Vec F S6000x64 .f32) (b : Vec F S1x64 .f32) (s : Vec F S1x64 .f32 × Vec F S1x64 .f32 × Vec F S1x64 .f32) (K : PUnit → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d)
        ∗ owns (c : Thread nD τ) arg5 fullShare s.1 ∗ owns (c : Thread nD τ) arg6 fullShare s.2.1 ∗ owns (c : Thread nD τ) arg7 fullShare s.2.2
        ∗ (iprop(owns (c : Thread nD τ) arg1 fullShare x ∗ owns (c : Thread nD τ) arg2 fullShare b
            ∗ owns (c : Thread nD τ) arg3 fullShare (step1 s x b).1
            ∗ owns (c : Thread nD τ) arg4 fullShare (step1 s x b).2.1
            ∗ owns (c : Thread nD τ) arg5 fullShare (step1 s x b).1
            ∗ owns (c : Thread nD τ) arg6 fullShare (step1 s x b).2.1
            ∗ owns (c : Thread nD τ) arg7 fullShare (step1 s x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  obtain ⟨s1, s2, s3⟩ := s
  exact run1_C c E i arg1 harg1 arg2 harg2 arg3 harg3 arg4 harg4 arg5 harg5 arg6 harg6 arg7 harg7 hc0 hc1 x b s1 s2 s3 K

end Cert.Kernel.Fr

end
-- ==== Proof.KBody1.lean ====
/-
  Region 1's body obligation and the invariant's two ends. The invariant carries the three scratch rows from point
  to point at the triple the point before left; the body at a point merges its tile into them.
-/
import proofs.«408267_j28449863368848_3_alg».proof.Proof.KBody1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The invariant, point by point -/

theorem PhiS1_zero (c : Dev nD) (n : ℕ) (h : n ≤ cfg1.N) (hz : n = 0) : PhiS1 V c n h = Pipeline.ΦA spec1 c := by
  subst hz; rfl

/-- After point n: the carried rows at that point's triple. -/
theorem PhiS1_succ (c : Dev nD) (n : ℕ) (hn : n < cfg1.N) :
    PhiS1 V c (n + 1) hn = iprop(owns (c : Thread nD τ) scrMean fullShare (accAt1 V c n hn).1
      ∗ owns (c : Thread nD τ) scrM2 fullShare (accAt1 V c n hn).2.1
      ∗ owns (c : Thread nD τ) scrCnt fullShare (accAt1 V c n hn).2.2
      ∗ Pipeline.scopedRestBut (Ix := Unit) (Name := ℕ) (U := UR sig nD τ) (Lvl := ℕ) (Val := Elt F) spec1 c scrRefs
      ∗ (∃ r, prngReg c r)) := rfl

/-- Before a point that is not the first: the carried rows at what the point before left. -/
theorem PhiS1_pos (c : Dev nD) (n : ℕ) (h : n ≤ cfg1.N) (hz : n ≠ 0) :
    PhiS1 V c n h = iprop(owns (c : Thread nD τ) scrMean fullShare (accAt1 V c (n - 1) (by omega)).1
      ∗ owns (c : Thread nD τ) scrM2 fullShare (accAt1 V c (n - 1) (by omega)).2.1
      ∗ owns (c : Thread nD τ) scrCnt fullShare (accAt1 V c (n - 1) (by omega)).2.2
      ∗ Pipeline.scopedRestBut (Ix := Unit) (Name := ℕ) (U := UR sig nD τ) (Lvl := ℕ) (Val := Elt F) spec1 c scrRefs
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The carried triple after the first point. -/
theorem accAt1_first (c : Dev nD) (t : Fin cfg1.N) (h0 : t.val = 0) :
    accAt1 V c t.val t.isLt = step1 (k1_pay4 (F := F), k1_pay5 (F := F), k1_pay6 (F := F)) (iblk1 V c 0 t) (iblk1 V c 1 t) := by
  obtain ⟨n, hn⟩ := t
  cases n with
  | zero => rfl
  | succ n => exact absurd h0 (Nat.succ_ne_zero n)

/-- The carried triple after a later point, from the one before. -/
theorem accAt1_later (c : Dev nD) (t : Fin cfg1.N) (h0 : t.val ≠ 0) :
    accAt1 V c t.val t.isLt
      = step1 (accAt1 V c (t.val - 1) (Nat.lt_of_le_of_lt (Nat.sub_le _ _) t.isLt)) (iblk1 V c 0 t) (iblk1 V c 1 t) := by
  obtain ⟨n, hn⟩ := t
  cases n with
  | zero => exact absurd rfl h0
  | succ n => rfl

/-- The scoped rest split at the three carried rows, each owned whole at some contents. -/
theorem PhiA1_eq (c : Dev nD) :
    (Pipeline.ΦA spec1 c : sProp 𝕄)
      = iprop(iprop(iprop((∃ d, owns (c : Thread nD τ) scrMean fullShare d) ∗ (∃ d, owns (c : Thread nD τ) scrM2 fullShare d) ∗ (∃ d, owns (c : Thread nD τ) scrCnt fullShare d))
          ∗ Pipeline.scopedRestBut (Ix := Unit) (Name := ℕ) (U := UR sig nD τ) (Lvl := ℕ) (Val := Elt F) spec1 c scrRefs)
        ∗ (∃ r, prngReg c r)) := by
  unfold Pipeline.ΦA
  rw [Pipeline.scopedRest_split_of_list spec1 c scrRefs (by decide) (by decide)]
  simp only [scrMean, scrM2, scrCnt, owns_whole]; try rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The two input buffers hold their blocks; the closed forms say whether the point is the
    first, the last or neither; the invariant hands the body the three carried rows (at anything before the first
    point, afterwards at the triple the point before left) and takes them back at this point's triple; the two
    output rows are handed back as found except at the last point, where they hold the first two carried rows. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 25 := lt_of_lt_of_eq t.isLt (show cfg1.N = 25 from N_1)
  by_cases h1 : t.val = 24
  · have hc1 : cond1_1 (grid1.coords t) := (hcond1_1 t).mpr h1
    have hz : t.val ≠ 0 := by omega
    have hc0 : ¬cond1_0 (grid1.coords t) := fun h => hz ((hcond1_0 t).mp h)
    rw [show (dat1 V c).leavesExact 2 t = owns (c : Thread nD τ) (st1_2 t) fullShare ((dat1 V c).after 2 t) from by
      unfold Dat.leavesExact; rw [liveAt1_2 t hc1], after1_2]
    rw [show (dat1 V c).leavesExact 3 t = owns (c : Thread nD τ) (st1_3 t) fullShare ((dat1 V c).after 3 t) from by
      unfold Dat.leavesExact; rw [liveAt1_3 t hc1], after1_3]
    rw [accAt1_later V c t hz, PhiS1_castSucc V c t, PhiS1_pos V c _ _ hz]
    iintro ⟨⟨HS5, HS6, HS7, HR, Hg⟩, Ho, ⟨%d0, H0⟩, ⟨%d1, H1⟩, ⟨%d2, H2⟩, ⟨%d3, H3⟩⟩
    iapply (run1_C' c Set.univ (grid1.coords t) _ _ _ _ _ _ _ _ _ _ _ _ _ _ hc0 hc1 (iblk1 V c 0 t) (iblk1 V c 1 t) (accAt1 V c (t.val - 1) (Nat.lt_of_le_of_lt (Nat.sub_le _ _) t.isLt)) _)
    isplitl [H0]; · iexact H0
    isplitl [H1]; · iexact H1
    isplitl [H2]; · iexists _; iexact H2
    isplitl [H3]; · iexists _; iexact H3
    isplitl [HS5]; · iexact HS5
    isplitl [HS6]; · iexact HS6
    isplitl [HS7]; · iexact HS7
    iintro ⟨H0, H1, H2, H3, HS5, HS6, HS7⟩
    isplitl [HS5 HS6 HS7 HR Hg]
    · isplitl [HS5]; · iexact HS5
      isplitl [HS6]; · iexact HS6
      isplitl [HS7]; · iexact HS7
      isplitl [HR]; · iexact HR
      iexact Hg
    isplitl [Ho]; · iexact Ho
    isplitl [H0]; · iexact H0
    isplitl [H1]; · iexact H1
    isplitl [H2]; · iexact H2
    iexact H3
  · have hc1 : ¬cond1_1 (grid1.coords t) := fun h => h1 ((hcond1_1 t).mp h)
    rw [Dat.leavesExact_idle (dat1 V c) 2 t (idleAt1_2 t hc1) (noFlush1_2 t hc1)]
    rw [Dat.leavesExact_idle (dat1 V c) 3 t (idleAt1_3 t hc1) (noFlush1_3 t hc1)]
    by_cases h0 : t.val = 0
    · have hc0 : cond1_0 (grid1.coords t) := (hcond1_0 t).mpr h0
      rw [accAt1_first V c t h0, PhiS1_castSucc V c t, PhiS1_zero V c _ _ h0, PhiA1_eq]
      iintro ⟨⟨⟨⟨HS5, HS6, HS7⟩, HR⟩, Hg⟩, Ho, ⟨%d0, H0⟩, ⟨%d1, H1⟩, H2, H3⟩
      iapply (run1_A c Set.univ (grid1.coords t) _ _ _ _ _ _ _ _ _ _ _ _ _ _ hc0 hc1 (iblk1 V c 0 t) (iblk1 V c 1 t) _)
      isplitl [H0]; · iexact H0
      isplitl [H1]; · iexact H1
      isplitl [HS5]; · iexact HS5
      isplitl [HS6]; · iexact HS6
      isplitl [HS7]; · iexact HS7
      iintro ⟨H0, H1, HS5, HS6, HS7⟩
      isplitl [HS5 HS6 HS7 HR Hg]
      · isplitl [HS5]; · iexact HS5
        isplitl [HS6]; · iexact HS6
        isplitl [HS7]; · iexact HS7
        isplitl [HR]; · iexact HR
        iexact Hg
      isplitl [Ho]; · iexact Ho
      isplitl [H0]; · iexact H0
      isplitl [H1]; · iexact H1
      isplitl [H2]; · iexact H2
      iexact H3
    · have hc0 : ¬cond1_0 (grid1.coords t) := fun h => h0 ((hcond1_0 t).mp h)
      rw [accAt1_later V c t h0, PhiS1_castSucc V c t, PhiS1_pos V c _ _ h0]
      iintro ⟨⟨HS5, HS6, HS7, HR, Hg⟩, Ho, ⟨%d0, H0⟩, ⟨%d1, H1⟩, H2, H3⟩
      iapply (run1_B' c Set.univ (grid1.coords t) _ _ _ _ _ _ _ _ _ _ _ _ _ _ hc0 hc1 (iblk1 V c 0 t) (iblk1 V c 1 t) (accAt1 V c (t.val - 1) (Nat.lt_of_le_of_lt (Nat.sub_le _ _) t.isLt)) _)
      isplitl [H0]; · iexact H0
      isplitl [H1]; · iexact H1
      isplitl [HS5]; · iexact HS5
      isplitl [HS6]; · iexact HS6
      isplitl [HS7]; · iexact HS7
      iintro ⟨H0, H1, HS5, HS6, HS7⟩
      isplitl [HS5 HS6 HS7 HR Hg]
      · isplitl [HS5]; · iexact HS5
        isplitl [HS6]; · iexact HS6
        isplitl [HS7]; · iexact HS7
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the carried rows' named contents are forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 25 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS5, HS6, HS7, HR, Hg⟩
  isplitl [HS5 HS6 HS7 HR]
  · isplitl [HS5 HS6 HS7]
    · isplitl [HS5]; · iexists _; iexact HS5
      isplitl [HS6]; · iexists _; iexact HS6
      iexists _; iexact HS7
    iexact HR
  iexact Hg

end Cert.Kernel.Fr

end
-- ==== Proof.KBody2.lean ====
/-
  Region 2's body obligation: the normalisation of one 6000-row tile.

  The body reads the tile of sums and five 1 x 64 rows (bias, mean, variance, scale, shift) whole, reads the output
  tile (a value it never uses) and writes the normalised tile over the whole output tile. The tile of sums is fetched at
  every point; each of the five rows is fetched at the first point only and its block index never moves, so its staging
  buffer holds the row at every point. The one store covers the output tile, so what the tile holds afterwards is a
  function of the six input blocks alone.
-/
import proofs.«408267_j28449863368848_3_alg».proof.Proof.KDefs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- The tile of sums is fetched at every point. -/
theorem before2_0 (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := fun s => by
    rw [after2_0 V c s]; unfold Dat.blockOf iblk2; rw [A_eq2 V c 0]; try rfl
  rw [(dat2 V c).before_in_eq_fetched 0 rfl (fun _ => rfl) (fun _ _ _ => rfl) hkeep t d]
  unfold Dat.fetched Dat.blockOf iblk2; rw [A_eq2 V c 0]; try rfl

/-- The bias row is fetched once; afterwards its block index never moves. -/
theorem before2_1 (c : Dev nD) (t : Fin cfg2.N) (d) : (dat2 V c).before 1 t d = iblk2 V c 1 t := by
  have hkeep : ∀ s, (cfg2.win 1).cut (cfg2.grid.coords s) ((dat2 V c).after 1 s) = (dat2 V c).blockOf 1 s := fun s => by
    rw [after2_1 V c s]; unfold Dat.blockOf iblk2; rw [A_eq2 V c 1]; try rfl
  rw [(dat2 V c).before_in_eq_fetched 1 rfl (fun _ => rfl) (fun _ _ _ => rfl) hkeep t d]
  unfold Dat.fetched Dat.blockOf iblk2; rw [A_eq2 V c 1]; try rfl

/-- The mean row, likewise. -/
theorem before2_2 (c : Dev nD) (t : Fin cfg2.N) (d) : (dat2 V c).before 2 t d = iblk2 V c 2 t := by
  have hkeep : ∀ s, (cfg2.win 2).cut (cfg2.grid.coords s) ((dat2 V c).after 2 s) = (dat2 V c).blockOf 2 s := fun s => by
    rw [after2_2 V c s]; unfold Dat.blockOf iblk2; rw [A_eq2 V c 2]; try rfl
  rw [(dat2 V c).before_in_eq_fetched 2 rfl (fun _ => rfl) (fun _ _ _ => rfl) hkeep t d]
  unfold Dat.fetched Dat.blockOf iblk2; rw [A_eq2 V c 2]; try rfl

/-- The variance row, likewise. -/
theorem before2_3 (c : Dev nD) (t : Fin cfg2.N) (d) : (dat2 V c).before 3 t d = iblk2 V c 3 t := by
  have hkeep : ∀ s, (cfg2.win 3).cut (cfg2.grid.coords s) ((dat2 V c).after 3 s) = (dat2 V c).blockOf 3 s := fun s => by
    rw [after2_3 V c s]; unfold Dat.blockOf iblk2; rw [A_eq2 V c 3]; try rfl
  rw [(dat2 V c).before_in_eq_fetched 3 rfl (fun _ => rfl) (fun _ _ _ => rfl) hkeep t d]
  unfold Dat.fetched Dat.blockOf iblk2; rw [A_eq2 V c 3]; try rfl

/-- The scale row, likewise. -/
theorem before2_4 (c : Dev nD) (t : Fin cfg2.N) (d) : (dat2 V c).before 4 t d = iblk2 V c 4 t := by
  have hkeep : ∀ s, (cfg2.win 4).cut (cfg2.grid.coords s) ((dat2 V c).after 4 s) = (dat2 V c).blockOf 4 s := fun s => by
    rw [after2_4 V c s]; unfold Dat.blockOf iblk2; rw [A_eq2 V c 4]; try rfl
  rw [(dat2 V c).before_in_eq_fetched 4 rfl (fun _ => rfl) (fun _ _ _ => rfl) hkeep t d]
  unfold Dat.fetched Dat.blockOf iblk2; rw [A_eq2 V c 4]; try rfl

/-- The shift row, likewise. -/
theorem before2_5 (c : Dev nD) (t : Fin cfg2.N) (d) : (dat2 V c).before 5 t d = iblk2 V c 5 t := by
  have hkeep : ∀ s, (cfg2.win 5).cut (cfg2.grid.coords s) ((dat2 V c).after 5 s) = (dat2 V c).blockOf 5 s := fun s => by
    rw [after2_5 V c s]; unfold Dat.blockOf iblk2; rw [A_eq2 V c 5]; try rfl
  rw [(dat2 V c).before_in_eq_fetched 5 rfl (fun _ => rfl) (fun _ _ _ => rfl) hkeep t d]
  unfold Dat.fetched Dat.blockOf iblk2; rw [A_eq2 V c 5]; try rfl

/-! ## The one store covers the output tile -/

theorem cover2_6 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y

/-! ## The body's triple -/

set_option maxHeartbeats 1000000 in
/-- The body on whole staging memrefs, the six inputs' read at `x0 … x5` and the output's at anything, runs to a state
    with the inputs' as they were and the output's at the normalised tile of `x0 … x5`. The body reads the variance
    row (its fourth memref) before the mean row (its third). -/
theorem sound_kernel2 (c : Dev nD) (E : Set ℕ) (i : grid2.Coords)
    (arg1 : Memref sig .tc .vmem S6000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S6000x64 .f32) (harg7 : arg7.IsWhole)
    (x0 : Vec F S6000x64 .f32) (x1 x2 x3 x4 x5 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__normalize_kernel i arg1 harg1 arg2 harg2 arg3 harg3 arg4 harg4 arg5 harg5 arg6 harg6 arg7 harg7) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.LibClassARegion.lean ====
/-
  A kernel region whose invariant starts from and returns to the scoped rest and the generator register (`hΦin`,
  `hΦout`: between the first and the last point it may hold more, a scratch buffer's contents carried from point to
  point), with EXACT proof data, as a segment of a program of several regions — stated once, for any pipeline `p` of
  any family of proof data.

  Between two items of @main a core holds every unscoped buffer whole at a valuation, beside the generator register at
  some state and the core owing nothing. A region of this class is entered from the valuation `W c` its proof data read
  their arrays from (`hA`) and left at any valuation `W' c` that has each of the pipeline's arrays at what the
  write-backs leave (`hF`) and agrees with `W c` elsewhere (`hrest`): the arrays are split out of the unscoped buffers
  at entry and put back at exit, the register goes into the invariant and comes back, nothing is owed, the kernel has
  no semaphore of its own and no prefetched table.
-/
import Idealize.ShloMosaic.Lib.Pipeline.Regions
import Idealize.ShloMosaic.Lib.Pipeline.RegionsLoop
import Idealize.ShloMosaic.Lib.Pipeline.FrameSuffix

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P]

namespace ClassA

variable {U' : Type} [URA U']

local notation "𝕄₁" => MT nD τ sig Unit Val ℕ U' ℕ

variable [DecidableEq P] [∀ e, Nonempty (Val e)]
variable (pcs : P → PCfg sig Λ₀ Val) (a : (p : P) → (pcs p).Adm)
  (pdats : (p : P) → (c : Dev nD) → Dat τ Val Unit ℕ U' ℕ (pin pcs a p) c)
  (defs₀ : Defs nD τ sig Val Λ₀) (𝒱₀ : Variants)
  (L : GSem nD τ sig → Finset Unit) (lv : GSem nD τ sig → Unit → ℕ)
  (p : P)

/-- What rides beside the buffers through every item: the generator register at some state, the core owing nothing. -/
def rides (c : Dev nD) : sProp 𝕄₁ :=
  iprop((∃ r, prngReg c r) ∗ ∃ W, owes (c.tc : Thread nD τ) (0 : CellTallies nD τ sig Unit) W)

/-- The thread state between two items: every unscoped buffer at `W`, and what rides along. -/
def between (c : Dev nD) (W : Valuation τ sig Val) : sProp 𝕄₁ :=
  iprop(StableHlo.held (c.tc : Thread nD τ) (ucRefs τ sig) W ∗ rides (U' := U') c)

set_option backward.isDefEq.respectTransparency.types false in
/-- THE REGION RECORD of a class-A pipeline with exact proof data. -/
def region (kit : PLaunchFacts (nD := nD) (τ := τ) pcs p)
    (hbody : ∀ c, BodyObligation (pdats p c) defs₀ 𝒱₀ () Set.univ)
    (hq : ∀ c w, (pdats p c).q w = fullShare) (howed : ∀ c t, (pdats p c).owed t = 0)
    (hrec : ∀ c t, (pdats p c).recorded t = Set.univ)
    (hΦin : ∀ c, (ΦA (pin pcs a p).spec c : sProp 𝕄₁) ⊢ (pdats p c).Φ 0)
    (hΦout : ∀ c, (pdats p c).Φ (Fin.last (pin pcs a p).N) ⊢ (ΦA (pin pcs a p).spec c : sProp 𝕄₁))
    (hpre : ∀ c, (BI.emp : sProp 𝕄₁) ⊢ prefHeld (pcs p).pre c (fun _ => fullShare) (a p).1)
    (W W' : Dev nD → Valuation τ sig Val)
    (hA : ∀ c w, (pdats p c).A w = W c (Proc.devRef .tc (arrRef (pin pcs a p).spec w)))
    (hF : ∀ c w, (pdats p c).arrAt w (pin pcs a p).N = W' c (Proc.devRef .tc (arrRef (pin pcs a p).spec w)))
    (hrest : ∀ c (b : Ref sig .tc), b ∉ Finset.univ.image (arrRef (pin pcs a p).spec) → W' c (Proc.devRef .tc b) = W c (Proc.devRef .tc b)) :
    RegionSeg pcs a pdats () defs₀ 𝒱₀ L lv p where
  win := kit.win.to₀
  block_pos := kit.block_pos
  stage_whole := kit.stage_whole
  K := PEmpty
  osem k := k.elim
  ho := OwnSemFacts.none _
  hbody c := (hbody c).loose
  hwaits := hwaits_of_owed_zero pcs a pdats () L lv p howed
  pre c := between (U' := U') c (W c)
  post c := between (U' := U') c (W' c)
  X c := iprop(∃ r, prngReg c r)
  Y c := iprop(∃ r, prngReg c r)
  Z c := unscopedRest (Ix := Unit) (Name := ℕ) (U := U') (Lvl := ℕ) (pin pcs a p).spec c (fun b => W c b)
  hentry c := by
    have hsplit := arrays_of_unscopedBufs (p := p) pcs a pdats kit.win kit.arr_whole c
      ((pdats p c).share_full (hq c)) (fun b => W c b) (hA c)
    rw [unscopedBufs_held] at hsplit
    rw [ownSems0_none]
    unfold between rides
    iintro ⟨⟨Hub, Hp, HO⟩, -, -⟩
    ihave H := hsplit $$ Hub
    icases H with ⟨Ha, Hrest⟩
    imodintro
    isplitl [Ha]; · iexact Ha
    isplitr; · iapply (hpre c); iempintro
    isplitl [HO]
    · unfold Dat.owesAt owesWithin
      rw [howed c 0]
      icases HO with ⟨%W₁, HO⟩; iexists W₁; isplitr; · ipureintro; exact fun _ _ => Or.inl (by rw [hrec c 0]; trivial)
      iexact HO
    isplitl [Hp]; · iexact Hp
    iexact Hrest
  hin c := by
    have h : (iprop((∃ r, prngReg c r) ∗ prefHeld (pcs p).pre c (fun _ => fullShare) (a p).1 ∗ scopedRest (pin pcs a p).spec c) : sProp 𝕄₁)
        ⊢ ΦA (pin pcs a p).spec c := by
      unfold ΦA
      iintro ⟨Hp, -, Hr⟩
      isplitl [Hr]; · iexact Hr
      iexact Hp
    exact h.trans (hΦin c)
  hout c := by
    have h : (ΦA (pin pcs a p).spec c : sProp 𝕄₁)
        ⊢ iprop((∃ r, prngReg c r) ∗ ownSems0 (fun k : PEmpty => k.elim) c ∗ scopedRest (pin pcs a p).spec c) := by
      rw [ownSems0_none]; unfold ΦA
      iintro ⟨Hr, Hp⟩
      isplitl [Hp]; · iexact Hp
      isplitr; · iempintro
      iexact Hr
    exact (hΦout c).trans h
  hexit c := by
    have hjoin := unscopedBufs_of_arrays (p := p) pcs a (Ix := Unit) (Name := ℕ) (U := U') (Lvl := ℕ)
      kit.win kit.arr_whole c pdats ((pdats p c).share_full (hq c))
      (fun b => W c b) (fun b => W' c b) ((pdats p c).arrAt · (pin pcs a p).N) (hF c) (hrest c)
    rw [unscopedBufs_held] at hjoin
    unfold between rides
    iintro ⟨Ha, HO, HY, Hrest⟩
    imodintro
    isplitl [Ha Hrest]
    · iapply hjoin; isplitl [Ha] <;> iassumption
    isplitl [HY]; · iexact HY
    unfold Dat.owesAt owesWithin
    rw [howed c _]
    icases HO with ⟨%W₁, -, HO⟩; iexists W₁; iexact HO

end ClassA

end Pipeline

end Idealize.ShloMosaic

end
-- ==== Proof.KRun.lean ====
/-
  The run of @main: three stretches of host operations and three kernel regions, in order, over the launch of a
  program of several regions. Between two items a core holds every unscoped buffer whole at the valuation the fold
  through @main gives that boundary, beside the generator register at some state and the core owing nothing. A host
  stretch takes the buffers from a valuation to the one its operations leave; a region, entered from the contents its
  proof data read their arrays from, leaves its windows' arrays at what the write-backs fold to and every other
  buffer as it found it. The last valuation is read against the final state: every unscoped buffer ends at it. From
  that, the result's buffer ends at what the last region's write-backs fold to, and each argument's buffer, which no
  host operation writes and no region stores into, ends as launched.
-/
import proofs.«408267_j28449863368848_3_alg».proof.Proof.KDefs
import proofs.«408267_j28449863368848_3_alg».proof.Proof.KChain
import proofs.«408267_j28449863368848_3_alg».proof.Proof.KBody0
import proofs.«408267_j28449863368848_3_alg».proof.Proof.KBody1
import proofs.«408267_j28449863368848_3_alg».proof.Proof.KBody2
import proofs.«408267_j28449863368848_3_alg».proof.Proof.LibClassARegion
import proofs.«408267_j28449863368848_3_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer that nothing writes ends as launched -/

/-- A buffer that is no window's array of any region and that no host operation writes holds at the end what the
    launch memory holds: each region leaves it as it found it, each host stretch too. -/
theorem W6_of_untouched (c : Dev nD) (b : Ref sig .tc)
    (h2 : ∀ w, Pipeline.arrRef spec2 w ≠ b) (hw2 : b ∉ hostOps2_W)
    (h1 : ∀ w, Pipeline.arrRef spec1 w ≠ b) (hw1 : b ∉ hostOps1_W)
    (h0 : ∀ w, Pipeline.arrRef spec0 w ≠ b) (hw0 : b ∉ hostOps0_W) :
    W6 m c (Proc.devRef .tc b) = m ((c : Thread nD τ).loc b) :=
  calc W6 m c (Proc.devRef .tc b)
    _ = W5 m c (Proc.devRef .tc b) := W6_of_ne m c b h2
    _ = W4 m c (Proc.devRef .tc b) := StableHlo.after_of_writes_sub hostOps2 _ hostOps2_writes hw2
    _ = W3 m c (Proc.devRef .tc b) := W4_of_ne m c b h1
    _ = W2 m c (Proc.devRef .tc b) := StableHlo.after_of_writes_sub hostOps1 _ hostOps1_writes hw1
    _ = W1 m c (Proc.devRef .tc b) := W2_of_ne m c b h0
    _ = W0 m c (Proc.devRef .tc b) := StableHlo.after_of_writes_sub hostOps0 _ hostOps0_writes hw0
    _ = m ((c : Thread nD τ).loc b) := rfl

theorem W6_main_arg0 (c : Dev nD) : W6 m c (Proc.devRef .tc main_arg0) = m ((c : Thread nD τ).loc main_arg0) :=
  W6_of_untouched m c main_arg0 (by decide) (by decide) (by decide) (by decide) (by decide) (by decide)
theorem W6_main_arg1 (c : Dev nD) : W6 m c (Proc.devRef .tc main_arg1) = m ((c : Thread nD τ).loc main_arg1) :=
  W6_of_untouched m c main_arg1 (by decide) (by decide) (by decide) (by decide) (by decide) (by decide)
theorem W6_main_arg2 (c : Dev nD) : W6 m c (Proc.devRef .tc main_arg2) = m ((c : Thread nD τ).loc main_arg2) :=
  W6_of_untouched m c main_arg2 (by decide) (by decide) (by decide) (by decide) (by decide) (by decide)
/-- The weights are the first region's second window, an input: its array is not stored into, so the fold of the
    write-backs leaves it at the contents the region was entered with. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) :=
        (W2_arr m c 1).trans (((dat0 (V1 m) c).arrAt_in 1 rfl _).trans (A_eq0 (V1 m) c 1))
    _ = W0 m c (Proc.devRef .tc main_arg3) := StableHlo.after_of_writes_sub hostOps0 _ hostOps0_writes (by decide)
    _ = m ((c : Thread nD τ).loc main_arg3) := rfl
theorem W6_main_arg4 (c : Dev nD) : W6 m c (Proc.devRef .tc main_arg4) = m ((c : Thread nD τ).loc main_arg4) :=
  W6_of_untouched m c main_arg4 (by decide) (by decide) (by decide) (by decide) (by decide) (by decide)
theorem W6_main_arg5 (c : Dev nD) : W6 m c (Proc.devRef .tc main_arg5) = m ((c : Thread nD τ).loc main_arg5) :=
  W6_of_untouched m c main_arg5 (by decide) (by decide) (by decide) (by decide) (by decide) (by decide)
theorem W6_main_arg6 (c : Dev nD) : W6 m c (Proc.devRef .tc main_arg6) = m ((c : Thread nD τ).loc main_arg6) :=
  W6_of_untouched m c main_arg6 (by decide) (by decide) (by decide) (by decide) (by decide) (by decide)

/-- The result is the last region's output window: its buffer ends at what that region's write-backs fold to. -/
theorem W6_out (c : Dev nD) : W6 m c (Proc.devRef .tc main_v13) = (dat2 (V5 m) c).arrAt 6 cfg2.N :=
  W6_arr m c 6

/-! ## The proof data family and what rides between the items -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

abbrev 𝒱₀ : Variants := Variants.none
/-- No core owes another anything: no level is assigned. -/
abbrev L : GSem nD τ sig → Finset Unit := fun _ => ∅
abbrev lv : GSem nD τ sig → Unit → ℕ := fun _ _ => 0

/-- A stretch of host operations as a segment: over the unscoped buffers from the contents `W`, the generator
    register and the core's owing nothing riding along; it leaves them at what the operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (fun c => Pipeline.ClassA.rides c)

/-- An unscoped reference of the core is among those held between the items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No region prefetches a table: the tables held are none. -/
theorem hpre (p : Fin 3) (c : Dev nD) :
    (BI.emp : sProp 𝕄) ⊢ Pipeline.prefHeld (pcfgs (F := F) p).pre c (fun _ => fullShare) (adm p).1 := by
  unfold Pipeline.prefHeld
  rw [show (Finset.univ : Finset (Fin 0)) = ∅ from rfl, BI.bigSep_empty]

/-! ## The regions as segments -/

set_option backward.isDefEq.respectTransparency.types false in
/-- The product region: entered from the contents after the gather, left with the products in its output's array. -/
def reg0 : Pipeline.RegionSeg (pcfgs (F := F)) adm (pdats m) () defs₀ 𝒱₀ L lv 0 :=
  Pipeline.ClassA.region (pcfgs (F := F)) adm (pdats m) defs₀ 𝒱₀ L lv 0 launch0.toP
    (fun c => body_obligation0 (V1 m) c) (fun _ _ => rfl) (fun _ _ => rfl) (fun _ _ => rfl)
    (fun _ => .rfl) (fun _ => .rfl) (hpre 0)
    (W1 m) (W2 m) (fun c w => A_eq0 (V1 m) c w) (hF0 m) (hrest0 m)

set_option backward.isDefEq.respectTransparency.types false in
/-- The statistics region: its invariant starts from the class's and returns to it, carrying the three rows between. -/
def reg1 : Pipeline.RegionSeg (pcfgs (F := F)) adm (pdats m) () defs₀ 𝒱₀ L lv 1 :=
  Pipeline.ClassA.region (pcfgs (F := F)) adm (pdats m) defs₀ 𝒱₀ L lv 1 launch1.toP
    (fun c => body_obligation1 (V3 m) c) (fun _ _ => rfl) (fun _ _ => rfl) (fun _ _ => rfl)
    (fun c => hin1 (V3 m) c) (fun c => hout1 (V3 m) c) (hpre 1)
    (W3 m) (W4 m) (fun c w => A_eq1 (V3 m) c w) (hF1 m) (hrest1 m)

set_option backward.isDefEq.respectTransparency.types false in
/-- The normalisation region: left with the result in its output's array. -/
def reg2 : Pipeline.RegionSeg (pcfgs (F := F)) adm (pdats m) () defs₀ 𝒱₀ L lv 2 :=
  Pipeline.ClassA.region (pcfgs (F := F)) adm (pdats m) defs₀ 𝒱₀ L lv 2 launch2.toP
    (fun c => body_obligation2 (V5 m) c) (fun _ _ => rfl) (fun _ _ => rfl) (fun _ _ => rfl)
    (fun _ => .rfl) (fun _ => .rfl) (hpre 2)
    (W5 m) (W6 m) (fun c w => A_eq2 (V5 m) c w) (hF2 m) (hrest2 m)

/-! ## @main as segments, and the launch -/

/-- @main's six items in order: a host segment per stretch from its boundary's contents, a region per kernel call. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

/-- @main is the run of its items. -/
theorem main_run (c : Dev nD) : main (F := F) c = Pipeline.Seg.run (items m) :=
  main_segs adm (pdats m) () 𝒱₀ L lv _ _ _ (reg0 m) (reg1 m) (reg2 m) rfl rfl rfl c

/-- The last thread state without what the core owes: every unscoped buffer at the last boundary's contents, the
    generator register at some state. -/
abbrev Tₙ (c : Dev nD) : sProp 𝕄 :=
  iprop(StableHlo.held (c : Thread nD τ) (Pipeline.ucRefs τ sig) (W6 m c) ∗ ∃ r, prngReg c r)

/-- The state the last region leaves is the last thread state beside the core owing nothing. -/
theorem last_post (c : Dev nD) :
    (Pipeline.ClassA.between c (W6 m c) : sProp 𝕄)
      ⊢ iprop(Tₙ m c ∗ ∃ W, owes (c : Thread nD τ) (0 : CellTallies nD τ sig Unit) W) := by
  unfold Pipeline.ClassA.between Pipeline.ClassA.rides
  iintro ⟨Hh, Hp, HO⟩
  isplitl [Hh Hp]
  · isplitl [Hh] <;> iassumption
  iexact HO

set_option backward.isDefEq.respectTransparency.types false in
/-- THE RUN: from any memory with zero counters, every weakly fair execution of @main on the core terminates,
    nothing faulting, and every unscoped buffer ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => Pipeline.ClassA.between c (W0 m c)) (Tₙ := Tₙ m)
    (hch := ⟨fun _ => .rfl, fun _ => .rfl, fun _ => .rfl, fun _ => .rfl, fun _ => .rfl, fun _ => .rfl, fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      unfold Pipeline.ClassA.between Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The run, read at the result and the arguments. -/
theorem run_out : θ_run defs (onTc (τ := τ) (main (F := F))) ⟨m, fun _ => 0, ρ⟩ (fun r => ∀ c : Dev nD,
      r.2.mem ((c.tc : Thread nD τ).loc main_v13) = (dat2 (V5 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v13 (by decide))).trans (W6_out m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

/-- THE FRAME: every weakly fair execution of @main terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_out m ρ)

end Cert.Kernel.Fr

end
-- ==== Proof.KIDefs.lean ====
/-
  The proof data of the three kernel regions, stated at a parameter V: the TensorCore's buffer contents when a
  region is entered. For each region: the block of each window's array at a grid point, what the body leaves in
  each output's staging buffer as a function of the input blocks (the body's arithmetic is the payload terms of the
  printed kernel), and the record of those contents point by point.

  Region 0 (grid 27 x 2) multiplies a 30000 x 32 block of gathered rows by the 32 x 64 weight of its offset.
  Region 1 (grid 25) carries three 1 x 64 scratch rows between points: a running mean, a running sum of squared
  deviations and a running count, reset before the first tile and merged with each 6000-row tile; the two output
  rows are stored at the last point only. Region 2 (grid 25) normalises a 6000-row tile.
-/
import proofs.«408267_j28449863368848_3_alg».proof.Proof.Gen.KernelIdeal.Launch
import proofs.«408267_j28449863368848_3_alg».proof.Proof.Gen.KernelIdeal.Skeleton
import proofs.«408267_j28449863368848_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: one offset's block of gathered rows times that offset's weight -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x30000x32 := Rect.unit (s := S1x30000x32) ![0, 0, 0] S1x30000x32.size inb_S1x30000x32_S1x30000x32_0_0_0
abbrev r0_1 : Rect S1x32x64 := Rect.unit (s := S1x32x64) ![0, 0, 0] S1x32x64.size inb_S1x32x64_S1x32x64_0_0_0
abbrev r0_2 : Rect S1x30000x64 := Rect.unit (s := S1x30000x64) ![0, 0, 0] S1x30000x64.size inb_S1x30000x64_S1x30000x64_0_0_0

/-- The product block the body stores, from the block of rows and the weight. -/
def out0_2 (x0 : Vec F S1x30000x32 .f32) (x1 : Vec F S1x32x64 .f32) : Vec F S1x30000x64 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 2: the normalisation of one tile of rows -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT : Rect S6000x64 := Rect.unit (s := S6000x64) ![0, 0] S6000x64.size inb_S6000x64_S6000x64_0_0
abbrev rR : Rect S1x64 := Rect.unit (s := S1x64) ![0, 0] S1x64.size inb_S1x64_S1x64_0_0

/-- The normalised tile the body stores, from the tile of sums (x0), the bias row (x1), the mean row (x2), the
    variance row (x3), the scale row (x4) and the shift row (x5). -/
def out2_6 (x0 : Vec F S6000x64 .f32) (x1 x2 x3 x4 x5 : Vec F S1x64 .f32) : Vec F S6000x64 .f32 :=
  View.canon [⟨rT, k2_pay1 (View.ld x0 rT) (View.ld x1 rR) (View.ld x3 rR) (View.ld x2 rR) (View.ld x4 rR) (View.ld x5 rR)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-! ## Region 1: the running mean, sum of squared deviations and count, merged tile by tile -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three scratch rows the kernel carries from point to point. -/
abbrev scrMean : Memref sig .tc .vmem S1x64 .f32 := Memref.whole cc1_scratch0
abbrev scrM2 : Memref sig .tc .vmem S1x64 .f32 := Memref.whole cc1_scratch1
abbrev scrCnt : Memref sig .tc .vmem S1x64 .f32 := Memref.whole cc1_scratch2
abbrev scrRefs : List (Ref sig .tc) := [cc1_scratch0, cc1_scratch1, cc1_scratch2]

/-- One point's merge: from the carried (mean, squared deviations, count), the tile x and the bias row b, the new
    carried triple — the body's arithmetic, the scratch rows read where the body reads them. -/
def step1 (s : Vec F S1x64 .f32 × Vec F S1x64 .f32 × Vec F S1x64 .f32) (x : Vec F S6000x64 .f32) (b : Vec F S1x64 .f32) :
    Vec F S1x64 .f32 × Vec F S1x64 .f32 × Vec F S1x64 .f32 :=
  (k1_pay1 (k1_pay12 x b s.2.2 s.1 s.1), k1_pay2 (k1_pay13 x b s.2.2 s.1 s.2.1), k1_pay3 (k1_pay10 s.2.2))

/-- The carried triple after the body at position n: the first point resets the three rows to zero and merges its
    tile, every later point merges its tile into what the point before left. -/
def accAt1 (c : Dev nD) : (n : ℕ) → n < cfg1.N → Vec F S1x64 .f32 × Vec F S1x64 .f32 × Vec F S1x64 .f32
  | 0, hn => step1 (k1_pay4 (F := F), k1_pay5 (F := F), k1_pay6 (F := F)) (iblk1 V c 0 ⟨0, hn⟩) (iblk1 V c 1 ⟨0, hn⟩)
  | n + 1, hn => step1 (accAt1 c n (Nat.lt_of_succ_lt hn)) (iblk1 V c 0 ⟨n + 1, hn⟩) (iblk1 V c 1 ⟨n + 1, hn⟩)

theorem accAt1_zero (c : Dev nD) (hn : 0 < cfg1.N) :
    accAt1 V c 0 hn = step1 (k1_pay4 (F := F), k1_pay5 (F := F), k1_pay6 (F := F)) (iblk1 V c 0 ⟨0, hn⟩) (iblk1 V c 1 ⟨0, hn⟩) := rfl
theorem accAt1_succ (c : Dev nD) (n : ℕ) (hn : n + 1 < cfg1.N) :
    accAt1 V c (n + 1) hn = step1 (accAt1 V c n (Nat.lt_of_succ_lt hn)) (iblk1 V c 0 ⟨n + 1, hn⟩) (iblk1 V c 1 ⟨n + 1, hn⟩) := rfl

/-- The region invariant before position n: before the first point the class's (every scratch at anything);
    afterwards the three carried rows at what the point before left, the other scoped buffers at anything, the
    generator register at some state. -/
def PhiS1 (c : Dev nD) : (n : ℕ) → n ≤ cfg1.N → sProp 𝕄
  | 0, _ => Pipeline.ΦA spec1 c
  | n + 1, hn => iprop(owns (c : Thread nD τ) scrMean fullShare (accAt1 V c n hn).1
      ∗ owns (c : Thread nD τ) scrM2 fullShare (accAt1 V c n hn).2.1
      ∗ owns (c : Thread nD τ) scrCnt fullShare (accAt1 V c n hn).2.2
      ∗ Pipeline.scopedRestBut (Ix := Unit) (Name := ℕ) (U := UR sig nD τ) (Lvl := ℕ) (Val := Elt F) spec1 c scrRefs
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (accAt1 V c t.val t.isLt).1
    | ⟨3, _⟩ => (accAt1 V c t.val t.isLt).2.1
  Φ t := PhiS1 V c t.val (Nat.le_of_lt_succ t.isLt)
  q _ := fullShare
  owed _ := 0

/-! ## The records projected (by dsimp, never by unfolding the arrays) -/

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (accAt1 V c t.val t.isLt).1 := by dsimp only [dat1]
theorem after1_3 (c : Dev nD) (t : Fin cfg1.N) : (dat1 V c).after 3 t = (accAt1 V c t.val t.isLt).2.1 := by dsimp only [dat1]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by dsimp only [dat2]

end Cert.KernelIdeal.Fr

end
-- ==== Proof.KIChain.lean ====
/-
  The TensorCore's buffer contents at each boundary between two items of @main, as a fold from the launch memory:
  a stretch of host operations applies them; a kernel region leaves each of its windows' arrays at what its
  write-backs fold to and every other buffer as it found it. The regions' proof data are taken at the contents their
  region is entered with.
-/
import proofs.«408267_j28449863368848_3_alg».proof.Proof.KIDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core c's buffers at launch. -/
abbrev W0 (c : Dev nD) : Valuation τ sig (Elt F) := fun b => m (c, b)
/-- After the first host stretch (the bounds-checked gather): region 0's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b

/-- After the second host stretch (the scatter-add of the products, the bias as a row): region 1's entry. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

/-- After the third host stretch (the variance from the squared deviations, scale and shift as rows): region 2's entry. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b
/-- At region 2's exit: the end of @main. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b

theorem hF0 (c : Dev nD) (w : Fin cfg0.W) : (dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V3 m) c).arrAt w cfg1.N = V4 m c (Pipeline.arrRef spec1 w) := (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
theorem hF2 (c : Dev nD) (w : Fin cfg2.W) : (dat2 (V5 m) c).arrAt w cfg2.N = V6 m c (Pipeline.arrRef spec2 w) := (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

end Cert.KernelIdeal.Fr

end
-- ==== Proof.KIBody0.lean ====
/-
  Region 0's body obligation: one offset's 30000 x 32 block of gathered rows times that offset's 32 x 64 weight.

  The body reads its two input blocks whole, reads the output block (a value it never uses) and writes the product
  over the whole output block. Each input block sits in its staging buffer at every point, fetched there or not: the
  weight's block is fetched at the even points only, and at an odd point its block index has not moved, so the
  buffer still holds the right block. The one store covers the output block, so what the block holds afterwards is a
  function of the two input blocks alone, whatever it held before.
-/
import proofs.«408267_j28449863368848_3_alg».proof.Proof.KIDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- The rows' block is in its staging buffer at every point. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := fun s => by
    rw [after0_0 V c s]; unfold Dat.blockOf iblk0; rw [A_eq0 V c 0]; try rfl
  rw [(dat0 V c).before_in_eq_fetched 0 rfl (fun _ => rfl) (fun _ _ _ => rfl) hkeep t d]
  unfold Dat.fetched Dat.blockOf iblk0; rw [A_eq0 V c 0]; try rfl

/-- The weight's block is in its staging buffer at every point: at an odd point nothing is fetched, and the block
    index is the one of the point before. -/
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := fun s => by
    rw [after0_1 V c s]; unfold Dat.blockOf iblk0; rw [A_eq0 V c 1]; try rfl
  rw [(dat0 V c).before_in_eq_fetched 1 rfl (fun _ => rfl) (fun _ _ _ => rfl) hkeep t d]
  unfold Dat.fetched Dat.blockOf iblk0; rw [A_eq0 V c 1]; try rfl

/-! ## The one store covers the output block -/

theorem cover0_2 (p0 : Vec F S1x30000x64 .f32) (y : S1x30000x64.Idx) :
    ∃ pc ∈ ([⟨r0_2, p0⟩] : List (View.Piece (Elt F) S1x30000x64 .f32)), y ∈ pc.1.set :=
  View.cover_of_tiled [⟨r0_2, p0⟩] S1x30000x64.size (by rfl) y

/-! ## The body's triple -/

set_option maxHeartbeats 1000000 in
/-- The body on whole staging memrefs, the two inputs' read at `x0` and `x1` and the output's at anything, runs to a
    state with the inputs' as they were and the output's at the product block of `x0` and `x1`. -/
theorem sound_kernel0 (c : Dev nD) (E : Set ℕ) (i : grid0.Coords)
    (arg2 : Memref sig .tc .vmem S1x30000x32 .f32) (harg2 : arg2.IsWhole)
    (arg3 : Memref sig .tc .vmem S1x32x64 .f32) (harg3 : arg3.IsWhole)
    (arg4 : Memref sig .tc .vmem S1x30000x64 .f32) (harg4 : arg4.IsWhole)
    (x0 : Vec F S1x30000x32 .f32) (x1 : Vec F S1x32x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIBody1Runs.lean ====
/-
  Region 1's body on whole row buffers, in its three control cases: at the grid's first point the three carried rows
  (running mean, running sum of squared deviations, running count) are reset to zero and merged with the tile; at a
  middle point they are merged with the tile; at the last point they are merged and the first two are copied to the
  two output rows. With them: the two conditionals' tests in closed form over the grid, and where the two output
  windows are idle.
-/
import proofs.«408267_j28449863368848_3_alg».proof.Proof.KIDefs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's branch conditions, in closed form over the grid -/

/-- The first conditional's test: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second conditional's test: the point is the grid's last. -/
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel

/-! ## Reading a row back after the body's stores -/

theorem hz2 : (![0, 0] : Fin 2 → Nat) = fun _ => 0 := funext fun a => by fin_cases a <;> rfl

/-- A whole-row store, the last of the stores into a row buffer, leaves its payload there. -/
theorem read_store (v : View sig .tc .vmem S1x64 .f32) (f : v.ty.Contents (Elt F)) (p : Vec F S1x64 .f32)
    (L : List (View.Piece (Elt F) S1x64 .f32)) :
    v.read (Elt F) (v.writes (Elt F) f ((⟨rR, p⟩ : View.Piece (Elt F) S1x64 .f32) :: L)) = p := by
  rw [View.read_writes_eq_canon _ _ _ (fun y => ⟨_, List.mem_cons_self, View.mem_set_unit_zero hz2 inb_S1x64_S1x64_0_0 y⟩)]
  exact View.canon_cons_unit_zero hz2 _ p L

set_option maxHeartbeats 1000000 in
/-- The body at a point that is neither the first nor the last: the three carried rows merged with the tile. -/
theorem run1_B (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond1_0 i) (hc1 : ¬cond1_1 i)
    (x : Vec F S6000x64 .f32) (b s1 s2 s3 : Vec F S1x64 .f32) (K : PUnit → sProp 𝕄) :
    iprop(owns (c : Thread nD τ) arg1 fullShare x ∗ owns (c : Thread nD τ) arg2 fullShare b
        ∗ owns (c : Thread nD τ) arg5 fullShare s1 ∗ owns (c : Thread nD τ) arg6 fullShare s2 ∗ owns (c : Thread nD τ) arg7 fullShare s3
        ∗ (iprop(owns (c : Thread nD τ) arg1 fullShare x ∗ owns (c : Thread nD τ) arg2 fullShare b
            ∗ owns (c : Thread nD τ) arg5 fullShare (step1 (s1, s2, s3) x b).1
            ∗ owns (c : Thread nD τ) arg6 fullShare (step1 (s1, s2, s3) x b).2.1
            ∗ owns (c : Thread nD τ) arg7 fullShare (step1 (s1, s2, s3) x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton]; unfold cc1__stats_kernel_skel
  simp only [k1_part1_eq_skeleton]
  unfold owns
  iintro ⟨⟨%f1, %hf1, H1⟩, ⟨%f2, %hf2, H2⟩, ⟨%f5, %hf5, H5⟩, ⟨%f6, %hf6, H6⟩, ⟨%f7, %hf7, H7⟩, Hk⟩
  subst hf1 hf2 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H6]
  · iexists _; isplitr
    swap; · iexact H6
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  · iexists _; isplitr
    swap; · iexact H7
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl

set_option maxHeartbeats 1000000 in
/-- The body at the first point: the three carried rows reset to zero, then merged with the tile. -/
theorem run1_A (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : cond1_0 i) (hc1 : ¬cond1_1 i)
    (x : Vec F S6000x64 .f32) (b : Vec F S1x64 .f32) (K : PUnit → sProp 𝕄) :
    iprop(owns (c : Thread nD τ) arg1 fullShare x ∗ owns (c : Thread nD τ) arg2 fullShare b
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x ∗ owns (c : Thread nD τ) arg2 fullShare b
            ∗ owns (c : Thread nD τ) arg5 fullShare (step1 (k1_pay4 (F := F), k1_pay5 (F := F), k1_pay6 (F := F)) x b).1
            ∗ owns (c : Thread nD τ) arg6 fullShare (step1 (k1_pay4 (F := F), k1_pay5 (F := F), k1_pay6 (F := F)) x b).2.1
            ∗ owns (c : Thread nD τ) arg7 fullShare (step1 (k1_pay4 (F := F), k1_pay5 (F := F), k1_pay6 (F := F)) x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton]; unfold cc1__stats_kernel_skel
  simp only [k1_part1_eq_skeleton]
  unfold owns
  iintro ⟨⟨%f1, %hf1, H1⟩, ⟨%f2, %hf2, H2⟩, ⟨%d5, %f5, -, H5⟩, ⟨%d6, %f6, -, H6⟩, ⟨%d7, %f7, -, H7⟩, Hk⟩
  subst hf1 hf2
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H6]
  · iexists _; isplitr
    swap; · iexact H6
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  · iexists _; isplitr
    swap; · iexact H7
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl

set_option maxHeartbeats 1000000 in
/-- The body at the last point: the three carried rows merged with the tile, then the mean row and the row of
    squared deviations copied to the two outputs. -/
theorem run1_C (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond1_0 i) (hc1 : cond1_1 i)
    (x : Vec F S6000x64 .f32) (b s1 s2 s3 : Vec F S1x64 .f32) (K : PUnit → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d)
        ∗ owns (c : Thread nD τ) arg5 fullShare s1 ∗ owns (c : Thread nD τ) arg6 fullShare s2 ∗ owns (c : Thread nD τ) arg7 fullShare s3
        ∗ (iprop(owns (c : Thread nD τ) arg1 fullShare x ∗ owns (c : Thread nD τ) arg2 fullShare b
            ∗ owns (c : Thread nD τ) arg3 fullShare (step1 (s1, s2, s3) x b).1
            ∗ owns (c : Thread nD τ) arg4 fullShare (step1 (s1, s2, s3) x b).2.1
            ∗ owns (c : Thread nD τ) arg5 fullShare (step1 (s1, s2, s3) x b).1
            ∗ owns (c : Thread nD τ) arg6 fullShare (step1 (s1, s2, s3) x b).2.1
            ∗ owns (c : Thread nD τ) arg7 fullShare (step1 (s1, s2, s3) x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  simp only [cc1__stats_kernel_eq_skeleton]; unfold cc1__stats_kernel_skel
  simp only [k1_part1_eq_skeleton]
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, ⟨%f7, %hf7, H7⟩, Hk⟩
  subst hf1 hf2 hf5 hf6 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H4]
  · iexists _; isplitr
    swap; · iexact H4
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H5]
  · iexists _; isplitr
    swap; · iexact H5
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  isplitl [H6]
  · iexists _; isplitr
    swap; · iexact H6
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl
  · iexists _; isplitr
    swap; · iexact H7
    ipureintro
    (try sl_unfold_words); rw [read_store]; (try sl_unfold_words)
    simp only [View.readAt_eq_ld, View.ld_unit_zero (S := S1x64) hz2, View.ld_unit_zero (S := S6000x64) hz2, View.readCov_unit_zero (S := S1x64) _ hz2]
    rfl

/-- The same two runs over the carried triple as one value. -/
theorem run1_B' (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond1_0 i) (hc1 : ¬cond1_1 i)
    (x : Vec F S6000x64 .f32) (b : Vec F S1x64 .f32) (s : Vec F S1x64 .f32 × Vec F S1x64 .f32 × Vec F S1x64 .f32) (K : PUnit → sProp 𝕄) :
    iprop(owns (c : Thread nD τ) arg1 fullShare x ∗ owns (c : Thread nD τ) arg2 fullShare b
        ∗ owns (c : Thread nD τ) arg5 fullShare s.1 ∗ owns (c : Thread nD τ) arg6 fullShare s.2.1 ∗ owns (c : Thread nD τ) arg7 fullShare s.2.2
        ∗ (iprop(owns (c : Thread nD τ) arg1 fullShare x ∗ owns (c : Thread nD τ) arg2 fullShare b
            ∗ owns (c : Thread nD τ) arg5 fullShare (step1 s x b).1
            ∗ owns (c : Thread nD τ) arg6 fullShare (step1 s x b).2.1
            ∗ owns (c : Thread nD τ) arg7 fullShare (step1 s x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  obtain ⟨s1, s2, s3⟩ := s
  exact run1_B c E i arg1 harg1 arg2 harg2 arg3 harg3 arg4 harg4 arg5 harg5 arg6 harg6 arg7 harg7 hc0 hc1 x b s1 s2 s3 K

theorem run1_C' (c : Dev nD) (E : Set ℕ) (i : grid1.Coords) (arg1 : Memref sig .tc .vmem S6000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole)
    (hc0 : ¬cond1_0 i) (hc1 : cond1_1 i)
    (x : Vec F S6000x64 .f32) (b : Vec F S1x64 .f32) (s : Vec F S1x64 .f32 × Vec F S1x64 .f32 × Vec F S1x64 .f32) (K : PUnit → sProp 𝕄) :
    iprop(owns (c : Thread nD τ) arg1 fullShare x ∗ owns (c : Thread nD τ) arg2 fullShare b ∗ (∃ d, owns (c : Thread nD τ) arg3 fullShare d) ∗ (∃ d, owns (c : Thread nD τ) arg4 fullShare d)
        ∗ owns (c : Thread nD τ) arg5 fullShare s.1 ∗ owns (c : Thread nD τ) arg6 fullShare s.2.1 ∗ owns (c : Thread nD τ) arg7 fullShare s.2.2
        ∗ (iprop(owns (c : Thread nD τ) arg1 fullShare x ∗ owns (c : Thread nD τ) arg2 fullShare b
            ∗ owns (c : Thread nD τ) arg3 fullShare (step1 s x b).1
            ∗ owns (c : Thread nD τ) arg4 fullShare (step1 s x b).2.1
            ∗ owns (c : Thread nD τ) arg5 fullShare (step1 s x b).1
            ∗ owns (c : Thread nD τ) arg6 fullShare (step1 s x b).2.1
            ∗ owns (c : Thread nD τ) arg7 fullShare (step1 s x b).2.2) -∗ K ⟨⟩))
      ⊢ wp frame (wpE (defs₀ (F := F)) Variants.none c none) E (cc1__stats_kernel i arg1 harg1 arg2 harg2 arg3 harg3 arg4 harg4 arg5 harg5 arg6 harg6 arg7 harg7) K := by
  obtain ⟨s1, s2, s3⟩ := s
  exact run1_C c E i arg1 harg1 arg2 harg2 arg3 harg3 arg4 harg4 arg5 harg5 arg6 harg6 arg7 harg7 hc0 hc1 x b s1 s2 s3 K

end Cert.KernelIdeal.Fr

end
-- ==== Proof.KIBody1.lean ====
/-
  Region 1's body obligation and the invariant's two ends. The invariant carries the three scratch rows from point
  to point at the triple the point before left; the body at a point merges its tile into them.
-/
import proofs.«408267_j28449863368848_3_alg».proof.Proof.KIBody1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The invariant, point by point -/

theorem PhiS1_zero (c : Dev nD) (n : ℕ) (h : n ≤ cfg1.N) (hz : n = 0) : PhiS1 V c n h = Pipeline.ΦA spec1 c := by
  subst hz; rfl

/-- After point n: the carried rows at that point's triple. -/
theorem PhiS1_succ (c : Dev nD) (n : ℕ) (hn : n < cfg1.N) :
    PhiS1 V c (n + 1) hn = iprop(owns (c : Thread nD τ) scrMean fullShare (accAt1 V c n hn).1
      ∗ owns (c : Thread nD τ) scrM2 fullShare (accAt1 V c n hn).2.1
      ∗ owns (c : Thread nD τ) scrCnt fullShare (accAt1 V c n hn).2.2
      ∗ Pipeline.scopedRestBut (Ix := Unit) (Name := ℕ) (U := UR sig nD τ) (Lvl := ℕ) (Val := Elt F) spec1 c scrRefs
      ∗ (∃ r, prngReg c r)) := rfl

/-- Before a point that is not the first: the carried rows at what the point before left. -/
theorem PhiS1_pos (c : Dev nD) (n : ℕ) (h : n ≤ cfg1.N) (hz : n ≠ 0) :
    PhiS1 V c n h = iprop(owns (c : Thread nD τ) scrMean fullShare (accAt1 V c (n - 1) (by omega)).1
      ∗ owns (c : Thread nD τ) scrM2 fullShare (accAt1 V c (n - 1) (by omega)).2.1
      ∗ owns (c : Thread nD τ) scrCnt fullShare (accAt1 V c (n - 1) (by omega)).2.2
      ∗ Pipeline.scopedRestBut (Ix := Unit) (Name := ℕ) (U := UR sig nD τ) (Lvl := ℕ) (Val := Elt F) spec1 c scrRefs
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The carried triple after the first point. -/
theorem accAt1_first (c : Dev nD) (t : Fin cfg1.N) (h0 : t.val = 0) :
    accAt1 V c t.val t.isLt = step1 (k1_pay4 (F := F), k1_pay5 (F := F), k1_pay6 (F := F)) (iblk1 V c 0 t) (iblk1 V c 1 t) := by
  obtain ⟨n, hn⟩ := t
  cases n with
  | zero => rfl
  | succ n => exact absurd h0 (Nat.succ_ne_zero n)

/-- The carried triple after a later point, from the one before. -/
theorem accAt1_later (c : Dev nD) (t : Fin cfg1.N) (h0 : t.val ≠ 0) :
    accAt1 V c t.val t.isLt
      = step1 (accAt1 V c (t.val - 1) (Nat.lt_of_le_of_lt (Nat.sub_le _ _) t.isLt)) (iblk1 V c 0 t) (iblk1 V c 1 t) := by
  obtain ⟨n, hn⟩ := t
  cases n with
  | zero => exact absurd rfl h0
  | succ n => rfl

/-- The scoped rest split at the three carried rows, each owned whole at some contents. -/
theorem PhiA1_eq (c : Dev nD) :
    (Pipeline.ΦA spec1 c : sProp 𝕄)
      = iprop(iprop(iprop((∃ d, owns (c : Thread nD τ) scrMean fullShare d) ∗ (∃ d, owns (c : Thread nD τ) scrM2 fullShare d) ∗ (∃ d, owns (c : Thread nD τ) scrCnt fullShare d))
          ∗ Pipeline.scopedRestBut (Ix := Unit) (Name := ℕ) (U := UR sig nD τ) (Lvl := ℕ) (Val := Elt F) spec1 c scrRefs)
        ∗ (∃ r, prngReg c r)) := by
  unfold Pipeline.ΦA
  rw [Pipeline.scopedRest_split_of_list spec1 c scrRefs (by decide) (by decide)]
  simp only [scrMean, scrM2, scrCnt, owns_whole]; try rfl

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The two input buffers hold their blocks; the closed forms say whether the point is the
    first, the last or neither; the invariant hands the body the three carried rows (at anything before the first
    point, afterwards at the triple the point before left) and takes them back at this point's triple; the two
    output rows are handed back as found except at the last point, where they hold the first two carried rows. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 25 := lt_of_lt_of_eq t.isLt (show cfg1.N = 25 from N_1)
  by_cases h1 : t.val = 24
  · have hc1 : cond1_1 (grid1.coords t) := (hcond1_1 t).mpr h1
    have hz : t.val ≠ 0 := by omega
    have hc0 : ¬cond1_0 (grid1.coords t) := fun h => hz ((hcond1_0 t).mp h)
    rw [show (dat1 V c).leavesExact 2 t = owns (c : Thread nD τ) (st1_2 t) fullShare ((dat1 V c).after 2 t) from by
      unfold Dat.leavesExact; rw [liveAt1_2 t hc1], after1_2]
    rw [show (dat1 V c).leavesExact 3 t = owns (c : Thread nD τ) (st1_3 t) fullShare ((dat1 V c).after 3 t) from by
      unfold Dat.leavesExact; rw [liveAt1_3 t hc1], after1_3]
    rw [accAt1_later V c t hz, PhiS1_castSucc V c t, PhiS1_pos V c _ _ hz]
    iintro ⟨⟨HS5, HS6, HS7, HR, Hg⟩, Ho, ⟨%d0, H0⟩, ⟨%d1, H1⟩, ⟨%d2, H2⟩, ⟨%d3, H3⟩⟩
    iapply (run1_C' c Set.univ (grid1.coords t) _ _ _ _ _ _ _ _ _ _ _ _ _ _ hc0 hc1 (iblk1 V c 0 t) (iblk1 V c 1 t) (accAt1 V c (t.val - 1) (Nat.lt_of_le_of_lt (Nat.sub_le _ _) t.isLt)) _)
    isplitl [H0]; · iexact H0
    isplitl [H1]; · iexact H1
    isplitl [H2]; · iexists _; iexact H2
    isplitl [H3]; · iexists _; iexact H3
    isplitl [HS5]; · iexact HS5
    isplitl [HS6]; · iexact HS6
    isplitl [HS7]; · iexact HS7
    iintro ⟨H0, H1, H2, H3, HS5, HS6, HS7⟩
    isplitl [HS5 HS6 HS7 HR Hg]
    · isplitl [HS5]; · iexact HS5
      isplitl [HS6]; · iexact HS6
      isplitl [HS7]; · iexact HS7
      isplitl [HR]; · iexact HR
      iexact Hg
    isplitl [Ho]; · iexact Ho
    isplitl [H0]; · iexact H0
    isplitl [H1]; · iexact H1
    isplitl [H2]; · iexact H2
    iexact H3
  · have hc1 : ¬cond1_1 (grid1.coords t) := fun h => h1 ((hcond1_1 t).mp h)
    rw [Dat.leavesExact_idle (dat1 V c) 2 t (idleAt1_2 t hc1) (noFlush1_2 t hc1)]
    rw [Dat.leavesExact_idle (dat1 V c) 3 t (idleAt1_3 t hc1) (noFlush1_3 t hc1)]
    by_cases h0 : t.val = 0
    · have hc0 : cond1_0 (grid1.coords t) := (hcond1_0 t).mpr h0
      rw [accAt1_first V c t h0, PhiS1_castSucc V c t, PhiS1_zero V c _ _ h0, PhiA1_eq]
      iintro ⟨⟨⟨⟨HS5, HS6, HS7⟩, HR⟩, Hg⟩, Ho, ⟨%d0, H0⟩, ⟨%d1, H1⟩, H2, H3⟩
      iapply (run1_A c Set.univ (grid1.coords t) _ _ _ _ _ _ _ _ _ _ _ _ _ _ hc0 hc1 (iblk1 V c 0 t) (iblk1 V c 1 t) _)
      isplitl [H0]; · iexact H0
      isplitl [H1]; · iexact H1
      isplitl [HS5]; · iexact HS5
      isplitl [HS6]; · iexact HS6
      isplitl [HS7]; · iexact HS7
      iintro ⟨H0, H1, HS5, HS6, HS7⟩
      isplitl [HS5 HS6 HS7 HR Hg]
      · isplitl [HS5]; · iexact HS5
        isplitl [HS6]; · iexact HS6
        isplitl [HS7]; · iexact HS7
        isplitl [HR]; · iexact HR
        iexact Hg
      isplitl [Ho]; · iexact Ho
      isplitl [H0]; · iexact H0
      isplitl [H1]; · iexact H1
      isplitl [H2]; · iexact H2
      iexact H3
    · have hc0 : ¬cond1_0 (grid1.coords t) := fun h => h0 ((hcond1_0 t).mp h)
      rw [accAt1_later V c t h0, PhiS1_castSucc V c t, PhiS1_pos V c _ _ h0]
      iintro ⟨⟨HS5, HS6, HS7, HR, Hg⟩, Ho, ⟨%d0, H0⟩, ⟨%d1, H1⟩, H2, H3⟩
      iapply (run1_B' c Set.univ (grid1.coords t) _ _ _ _ _ _ _ _ _ _ _ _ _ _ hc0 hc1 (iblk1 V c 0 t) (iblk1 V c 1 t) (accAt1 V c (t.val - 1) (Nat.lt_of_le_of_lt (Nat.sub_le _ _) t.isLt)) _)
      isplitl [H0]; · iexact H0
      isplitl [H1]; · iexact H1
      isplitl [HS5]; · iexact HS5
      isplitl [HS6]; · iexact HS6
      isplitl [HS7]; · iexact HS7
      iintro ⟨H0, H1, HS5, HS6, HS7⟩
      isplitl [HS5 HS6 HS7 HR Hg]
      · isplitl [HS5]; · iexact HS5
        isplitl [HS6]; · iexact HS6
        isplitl [HS7]; · iexact HS7
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the carried rows' named contents are forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 25 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨HS5, HS6, HS7, HR, Hg⟩
  isplitl [HS5 HS6 HS7 HR]
  · isplitl [HS5 HS6 HS7]
    · isplitl [HS5]; · iexists _; iexact HS5
      isplitl [HS6]; · iexists _; iexact HS6
      iexists _; iexact HS7
    iexact HR
  iexact Hg

end Cert.KernelIdeal.Fr

end
-- ==== Proof.KIBody2.lean ====
/-
  Region 2's body obligation: the normalisation of one 6000-row tile.

  The body reads the tile of sums and five 1 x 64 rows (bias, mean, variance, scale, shift) whole, reads the output
  tile (a value it never uses) and writes the normalised tile over the whole output tile. The tile of sums is fetched at
  every point; each of the five rows is fetched at the first point only and its block index never moves, so its staging
  buffer holds the row at every point. The one store covers the output tile, so what the tile holds afterwards is a
  function of the six input blocks alone.
-/
import proofs.«408267_j28449863368848_3_alg».proof.Proof.KIDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input windows -/

/-- The tile of sums is fetched at every point. -/
theorem before2_0 (c : Dev nD) (t : Fin cfg2.N) (d) : (dat2 V c).before 0 t d = iblk2 V c 0 t := by
  have hkeep : ∀ s, (cfg2.win 0).cut (cfg2.grid.coords s) ((dat2 V c).after 0 s) = (dat2 V c).blockOf 0 s := fun s => by
    rw [after2_0 V c s]; unfold Dat.blockOf iblk2; rw [A_eq2 V c 0]; try rfl
  rw [(dat2 V c).before_in_eq_fetched 0 rfl (fun _ => rfl) (fun _ _ _ => rfl) hkeep t d]
  unfold Dat.fetched Dat.blockOf iblk2; rw [A_eq2 V c 0]; try rfl

/-- The bias row is fetched once; afterwards its block index never moves. -/
theorem before2_1 (c : Dev nD) (t : Fin cfg2.N) (d) : (dat2 V c).before 1 t d = iblk2 V c 1 t := by
  have hkeep : ∀ s, (cfg2.win 1).cut (cfg2.grid.coords s) ((dat2 V c).after 1 s) = (dat2 V c).blockOf 1 s := fun s => by
    rw [after2_1 V c s]; unfold Dat.blockOf iblk2; rw [A_eq2 V c 1]; try rfl
  rw [(dat2 V c).before_in_eq_fetched 1 rfl (fun _ => rfl) (fun _ _ _ => rfl) hkeep t d]
  unfold Dat.fetched Dat.blockOf iblk2; rw [A_eq2 V c 1]; try rfl

/-- The mean row, likewise. -/
theorem before2_2 (c : Dev nD) (t : Fin cfg2.N) (d) : (dat2 V c).before 2 t d = iblk2 V c 2 t := by
  have hkeep : ∀ s, (cfg2.win 2).cut (cfg2.grid.coords s) ((dat2 V c).after 2 s) = (dat2 V c).blockOf 2 s := fun s => by
    rw [after2_2 V c s]; unfold Dat.blockOf iblk2; rw [A_eq2 V c 2]; try rfl
  rw [(dat2 V c).before_in_eq_fetched 2 rfl (fun _ => rfl) (fun _ _ _ => rfl) hkeep t d]
  unfold Dat.fetched Dat.blockOf iblk2; rw [A_eq2 V c 2]; try rfl

/-- The variance row, likewise. -/
theorem before2_3 (c : Dev nD) (t : Fin cfg2.N) (d) : (dat2 V c).before 3 t d = iblk2 V c 3 t := by
  have hkeep : ∀ s, (cfg2.win 3).cut (cfg2.grid.coords s) ((dat2 V c).after 3 s) = (dat2 V c).blockOf 3 s := fun s => by
    rw [after2_3 V c s]; unfold Dat.blockOf iblk2; rw [A_eq2 V c 3]; try rfl
  rw [(dat2 V c).before_in_eq_fetched 3 rfl (fun _ => rfl) (fun _ _ _ => rfl) hkeep t d]
  unfold Dat.fetched Dat.blockOf iblk2; rw [A_eq2 V c 3]; try rfl

/-- The scale row, likewise. -/
theorem before2_4 (c : Dev nD) (t : Fin cfg2.N) (d) : (dat2 V c).before 4 t d = iblk2 V c 4 t := by
  have hkeep : ∀ s, (cfg2.win 4).cut (cfg2.grid.coords s) ((dat2 V c).after 4 s) = (dat2 V c).blockOf 4 s := fun s => by
    rw [after2_4 V c s]; unfold Dat.blockOf iblk2; rw [A_eq2 V c 4]; try rfl
  rw [(dat2 V c).before_in_eq_fetched 4 rfl (fun _ => rfl) (fun _ _ _ => rfl) hkeep t d]
  unfold Dat.fetched Dat.blockOf iblk2; rw [A_eq2 V c 4]; try rfl

/-- The shift row, likewise. -/
theorem before2_5 (c : Dev nD) (t : Fin cfg2.N) (d) : (dat2 V c).before 5 t d = iblk2 V c 5 t := by
  have hkeep : ∀ s, (cfg2.win 5).cut (cfg2.grid.coords s) ((dat2 V c).after 5 s) = (dat2 V c).blockOf 5 s := fun s => by
    rw [after2_5 V c s]; unfold Dat.blockOf iblk2; rw [A_eq2 V c 5]; try rfl
  rw [(dat2 V c).before_in_eq_fetched 5 rfl (fun _ => rfl) (fun _ _ _ => rfl) hkeep t d]
  unfold Dat.fetched Dat.blockOf iblk2; rw [A_eq2 V c 5]; try rfl

/-! ## The one store covers the output tile -/

theorem cover2_6 (p0 : Vec F S6000x64 .f32) (y : S6000x64.Idx) :
    ∃ pc ∈ ([⟨rT, p0⟩] : List (View.Piece (Elt F) S6000x64 .f32)), y ∈ pc.1.set :=
  View.cover_of_tiled [⟨rT, p0⟩] S6000x64.size (by rfl) y

/-! ## The body's triple -/

set_option maxHeartbeats 1000000 in
/-- The body on whole staging memrefs, the six inputs' read at `x0 … x5` and the output's at anything, runs to a state
    with the inputs' as they were and the output's at the normalised tile of `x0 … x5`. The body reads the variance
    row (its fourth memref) before the mean row (its third). -/
theorem sound_kernel2 (c : Dev nD) (E : Set ℕ) (i : grid2.Coords)
    (arg1 : Memref sig .tc .vmem S6000x64 .f32) (harg1 : arg1.IsWhole)
    (arg2 : Memref sig .tc .vmem S1x64 .f32) (harg2 : arg2.IsWhole)
    (arg3 : Memref sig .tc .vmem S1x64 .f32) (harg3 : arg3.IsWhole)
    (arg4 : Memref sig .tc .vmem S1x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S6000x64 .f32) (harg7 : arg7.IsWhole)
    (x0 : Vec F S6000x64 .f32) (x1 x2 x3 x4 x5 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__normalize_kernel i arg1 harg1 arg2 harg2 arg3 harg3 arg4 harg4 arg5 harg5 arg6 harg6 arg7 harg7) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIRun.lean ====
/-
  The run of @main: three stretches of host operations and three kernel regions, in order, over the launch of a
  program of several regions. Between two items a core holds every unscoped buffer whole at the valuation the fold
  through @main gives that boundary, beside the generator register at some state and the core owing nothing. A host
  stretch takes the buffers from a valuation to the one its operations leave; a region, entered from the contents its
  proof data read their arrays from, leaves its windows' arrays at what the write-backs fold to and every other
  buffer as it found it. The last valuation is read against the final state: every unscoped buffer ends at it. From
  that, the result's buffer ends at what the last region's write-backs fold to, and each argument's buffer, which no
  host operation writes and no region stores into, ends as launched.
-/
import proofs.«408267_j28449863368848_3_alg».proof.Proof.KIDefs
import proofs.«408267_j28449863368848_3_alg».proof.Proof.KIChain
import proofs.«408267_j28449863368848_3_alg».proof.Proof.KIBody0
import proofs.«408267_j28449863368848_3_alg».proof.Proof.KIBody1
import proofs.«408267_j28449863368848_3_alg».proof.Proof.KIBody2
import proofs.«408267_j28449863368848_3_alg».proof.Proof.LibClassARegion
import proofs.«408267_j28449863368848_3_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer that nothing writes ends as launched -/

/-- A buffer that is no window's array of any region and that no host operation writes holds at the end what the
    launch memory holds: each region leaves it as it found it, each host stretch too. -/
theorem W6_of_untouched (c : Dev nD) (b : Ref sig .tc)
    (h2 : ∀ w, Pipeline.arrRef spec2 w ≠ b) (hw2 : b ∉ hostOps2_W)
    (h1 : ∀ w, Pipeline.arrRef spec1 w ≠ b) (hw1 : b ∉ hostOps1_W)
    (h0 : ∀ w, Pipeline.arrRef spec0 w ≠ b) (hw0 : b ∉ hostOps0_W) :
    W6 m c (Proc.devRef .tc b) = m ((c : Thread nD τ).loc b) :=
  calc W6 m c (Proc.devRef .tc b)
    _ = W5 m c (Proc.devRef .tc b) := W6_of_ne m c b h2
    _ = W4 m c (Proc.devRef .tc b) := StableHlo.after_of_writes_sub hostOps2 _ hostOps2_writes hw2
    _ = W3 m c (Proc.devRef .tc b) := W4_of_ne m c b h1
    _ = W2 m c (Proc.devRef .tc b) := StableHlo.after_of_writes_sub hostOps1 _ hostOps1_writes hw1
    _ = W1 m c (Proc.devRef .tc b) := W2_of_ne m c b h0
    _ = W0 m c (Proc.devRef .tc b) := StableHlo.after_of_writes_sub hostOps0 _ hostOps0_writes hw0
    _ = m ((c : Thread nD τ).loc b) := rfl

theorem W6_main_arg0 (c : Dev nD) : W6 m c (Proc.devRef .tc main_arg0) = m ((c : Thread nD τ).loc main_arg0) :=
  W6_of_untouched m c main_arg0 (by decide) (by decide) (by decide) (by decide) (by decide) (by decide)
theorem W6_main_arg1 (c : Dev nD) : W6 m c (Proc.devRef .tc main_arg1) = m ((c : Thread nD τ).loc main_arg1) :=
  W6_of_untouched m c main_arg1 (by decide) (by decide) (by decide) (by decide) (by decide) (by decide)
theorem W6_main_arg2 (c : Dev nD) : W6 m c (Proc.devRef .tc main_arg2) = m ((c : Thread nD τ).loc main_arg2) :=
  W6_of_untouched m c main_arg2 (by decide) (by decide) (by decide) (by decide) (by decide) (by decide)
/-- The weights are the first region's second window, an input: its array is not stored into, so the fold of the
    write-backs leaves it at the contents the region was entered with. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) :=
        (W2_arr m c 1).trans (((dat0 (V1 m) c).arrAt_in 1 rfl _).trans (A_eq0 (V1 m) c 1))
    _ = W0 m c (Proc.devRef .tc main_arg3) := StableHlo.after_of_writes_sub hostOps0 _ hostOps0_writes (by decide)
    _ = m ((c : Thread nD τ).loc main_arg3) := rfl
theorem W6_main_arg4 (c : Dev nD) : W6 m c (Proc.devRef .tc main_arg4) = m ((c : Thread nD τ).loc main_arg4) :=
  W6_of_untouched m c main_arg4 (by decide) (by decide) (by decide) (by decide) (by decide) (by decide)
theorem W6_main_arg5 (c : Dev nD) : W6 m c (Proc.devRef .tc main_arg5) = m ((c : Thread nD τ).loc main_arg5) :=
  W6_of_untouched m c main_arg5 (by decide) (by decide) (by decide) (by decide) (by decide) (by decide)
theorem W6_main_arg6 (c : Dev nD) : W6 m c (Proc.devRef .tc main_arg6) = m ((c : Thread nD τ).loc main_arg6) :=
  W6_of_untouched m c main_arg6 (by decide) (by decide) (by decide) (by decide) (by decide) (by decide)

/-- The result is the last region's output window: its buffer ends at what that region's write-backs fold to. -/
theorem W6_out (c : Dev nD) : W6 m c (Proc.devRef .tc main_v13) = (dat2 (V5 m) c).arrAt 6 cfg2.N :=
  W6_arr m c 6

/-! ## The proof data family and what rides between the items -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c

abbrev 𝒱₀ : Variants := Variants.none
/-- No core owes another anything: no level is assigned. -/
abbrev L : GSem nD τ sig → Finset Unit := fun _ => ∅
abbrev lv : GSem nD τ sig → Unit → ℕ := fun _ _ => 0

/-- A stretch of host operations as a segment: over the unscoped buffers from the contents `W`, the generator
    register and the core's owing nothing riding along; it leaves them at what the operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (fun c => Pipeline.ClassA.rides c)

/-- An unscoped reference of the core is among those held between the items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No region prefetches a table: the tables held are none. -/
theorem hpre (p : Fin 3) (c : Dev nD) :
    (BI.emp : sProp 𝕄) ⊢ Pipeline.prefHeld (pcfgs (F := F) p).pre c (fun _ => fullShare) (adm p).1 := by
  unfold Pipeline.prefHeld
  rw [show (Finset.univ : Finset (Fin 0)) = ∅ from rfl, BI.bigSep_empty]

/-! ## The regions as segments -/

set_option backward.isDefEq.respectTransparency.types false in
/-- The product region: entered from the contents after the gather, left with the products in its output's array. -/
def reg0 : Pipeline.RegionSeg (pcfgs (F := F)) adm (pdats m) () defs₀ 𝒱₀ L lv 0 :=
  Pipeline.ClassA.region (pcfgs (F := F)) adm (pdats m) defs₀ 𝒱₀ L lv 0 launch0.toP
    (fun c => body_obligation0 (V1 m) c) (fun _ _ => rfl) (fun _ _ => rfl) (fun _ _ => rfl)
    (fun _ => .rfl) (fun _ => .rfl) (hpre 0)
    (W1 m) (W2 m) (fun c w => A_eq0 (V1 m) c w) (hF0 m) (hrest0 m)

set_option backward.isDefEq.respectTransparency.types false in
/-- The statistics region: its invariant starts from the class's and returns to it, carrying the three rows between. -/
def reg1 : Pipeline.RegionSeg (pcfgs (F := F)) adm (pdats m) () defs₀ 𝒱₀ L lv 1 :=
  Pipeline.ClassA.region (pcfgs (F := F)) adm (pdats m) defs₀ 𝒱₀ L lv 1 launch1.toP
    (fun c => body_obligation1 (V3 m) c) (fun _ _ => rfl) (fun _ _ => rfl) (fun _ _ => rfl)
    (fun c => hin1 (V3 m) c) (fun c => hout1 (V3 m) c) (hpre 1)
    (W3 m) (W4 m) (fun c w => A_eq1 (V3 m) c w) (hF1 m) (hrest1 m)

set_option backward.isDefEq.respectTransparency.types false in
/-- The normalisation region: left with the result in its output's array. -/
def reg2 : Pipeline.RegionSeg (pcfgs (F := F)) adm (pdats m) () defs₀ 𝒱₀ L lv 2 :=
  Pipeline.ClassA.region (pcfgs (F := F)) adm (pdats m) defs₀ 𝒱₀ L lv 2 launch2.toP
    (fun c => body_obligation2 (V5 m) c) (fun _ _ => rfl) (fun _ _ => rfl) (fun _ _ => rfl)
    (fun _ => .rfl) (fun _ => .rfl) (hpre 2)
    (W5 m) (W6 m) (fun c w => A_eq2 (V5 m) c w) (hF2 m) (hrest2 m)

/-! ## @main as segments, and the launch -/

/-- @main's six items in order: a host segment per stretch from its boundary's contents, a region per kernel call. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

/-- @main is the run of its items. -/
theorem main_run (c : Dev nD) : main (F := F) c = Pipeline.Seg.run (items m) :=
  main_segs adm (pdats m) () 𝒱₀ L lv _ _ _ (reg0 m) (reg1 m) (reg2 m) rfl rfl rfl c

/-- The last thread state without what the core owes: every unscoped buffer at the last boundary's contents, the
    generator register at some state. -/
abbrev Tₙ (c : Dev nD) : sProp 𝕄 :=
  iprop(StableHlo.held (c : Thread nD τ) (Pipeline.ucRefs τ sig) (W6 m c) ∗ ∃ r, prngReg c r)

/-- The state the last region leaves is the last thread state beside the core owing nothing. -/
theorem last_post (c : Dev nD) :
    (Pipeline.ClassA.between c (W6 m c) : sProp 𝕄)
      ⊢ iprop(Tₙ m c ∗ ∃ W, owes (c : Thread nD τ) (0 : CellTallies nD τ sig Unit) W) := by
  unfold Pipeline.ClassA.between Pipeline.ClassA.rides
  iintro ⟨Hh, Hp, HO⟩
  isplitl [Hh Hp]
  · isplitl [Hh] <;> iassumption
  iexact HO

set_option backward.isDefEq.respectTransparency.types false in
/-- THE RUN: from any memory with zero counters, every weakly fair execution of @main on the core terminates,
    nothing faulting, and every unscoped buffer ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => Pipeline.ClassA.between c (W0 m c)) (Tₙ := Tₙ m)
    (hch := ⟨fun _ => .rfl, fun _ => .rfl, fun _ => .rfl, fun _ => .rfl, fun _ => .rfl, fun _ => .rfl, fun c => last_post m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      unfold Pipeline.ClassA.between Pipeline.ClassA.rides
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The run, read at the result and the arguments. -/
theorem run_out : θ_run defs (onTc (τ := τ) (main (F := F))) ⟨m, fun _ => 0, ρ⟩ (fun r => ∀ c : Dev nD,
      r.2.mem ((c.tc : Thread nD τ).loc main_v13) = (dat2 (V5 m) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v13 (by decide))).trans (W6_out m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩) (run_all m ρ)

/-- THE FRAME: every weakly fair execution of @main terminates, nothing faulting, and every final state has the
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_out m ρ)

end Cert.KernelIdeal.Fr

end
-- ==== Proof.RefRun.lean ====
/-
  The reference's run, written by hand. The reference's @main calls three outlined functions (the
  rectifier, the variance, and inside the variance a select on a scalar condition); a call in
  StableHLO executes the callee's body on the operands, so @main is one straight line of
  sixty-six host operations: its own forty-one and the callees' twenty-five listed at their call
  sites over the calls' buffer records. This module lists that line, shows @main equal to it,
  names the value each stage of the line computes (the wrapped start indices, the gathered rows,
  the per-offset products, their segment sum, the rectified activation, its column mean and
  variance, the normalised output), and reads the run back: every weakly fair execution of the
  reference terminates with the result buffer at `refOut` of the arguments' launch contents
  and the arguments unchanged.
-/
import proofs.«408267_j28449863368848_3_alg».proof.ReferenceIdeal
import proofs.«408267_j28449863368848_3_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F]

/-- @main's sixty-six operations in order, the calls unfolded: the rectifier's three (the zero, its
    broadcast, the maximum) over the first call's buffers; the variance's nineteen over the second
    call's, and its select's three (the fill converted to its own type, broadcast, the select)
    over the call's nested inside it. -/
abbrev ops : List (HloOp τ sig (Elt F)) :=
  [ nullary main_c (constantI S_ 32 0#32),
    unary main_c main_v0 (broadcastInDim S27x60000 ![] bcast_S_S27x60000 : (⟨S_, .i32⟩ : BufTy).Contents (Elt F) → (⟨S27x60000, .i32⟩ : BufTy).Contents (Elt F)),
    binary main_arg1 main_v0 main_v1 (cmpi .slt : (⟨S27x60000, .i32⟩ : BufTy).Contents (Elt F) → (⟨S27x60000, .i32⟩ : BufTy).Contents (Elt F) → (⟨S27x60000, .i1⟩ : BufTy).Contents (Elt F)),
    nullary main_c_0 (constantI S_ 32 150000#32),
    unary main_c_0 main_v2 (broadcastInDim S27x60000 ![] bcast_S_S27x60000 : (⟨S_, .i32⟩ : BufTy).Contents (Elt F) → (⟨S27x60000, .i32⟩ : BufTy).Contents (Elt F)),
    binary main_arg1 main_v2 main_v3 (addi : (⟨S27x60000, .i32⟩ : BufTy).Contents (Elt F) → (⟨S27x60000, .i32⟩ : BufTy).Contents (Elt F) → (⟨S27x60000, .i32⟩ : BufTy).Contents (Elt F)),
    ternary main_v1 main_v3 main_arg1 main_v4 (select : (⟨S27x60000, .i1⟩ : BufTy).Contents (Elt F) → (⟨S27x60000, .i32⟩ : BufTy).Contents (Elt F) → (⟨S27x60000, .i32⟩ : BufTy).Contents (Elt F) → (⟨S27x60000, .i32⟩ : BufTy).Contents (Elt F)),
    unary main_v4 main_v5 (broadcastInDim S27x60000x1 ![0, 1] bcast_S27x60000_S27x60000x1_0_1 : (⟨S27x60000, .i32⟩ : BufTy).Contents (Elt F) → (⟨S27x60000x1, .i32⟩ : BufTy).Contents (Elt F)),
    binary main_arg0 main_v5 main_v6 ((fun x i => Host.gather gather_S150000x32_S27x60000x1_S27x60000x32_2_0_n_n_0_2_132 x i) : (⟨S150000x32, .f32⟩ : BufTy).Contents (Elt F) → (⟨S27x60000x1, .i32⟩ : BufTy).Contents (Elt F) → (⟨S27x60000x32, .f32⟩ : BufTy).Contents (Elt F)),
    binary main_v6 main_arg3 main_v7 ((fun l r => Host.dotGeneral dot_S27x60000x32_S27x32x64_S27x60000x64_2_1_1_2_0_0 none l r) : (⟨S27x60000x32, .f32⟩ : BufTy).Contents (Elt F) → (⟨S27x32x64, .f32⟩ : BufTy).Contents (Elt F) → (⟨S27x60000x64, .f32⟩ : BufTy).Contents (Elt F)),
    reshape main_v7 main_v8 rfl shapeCasts_S27x60000x64_S1620000x64,
    reshape main_arg2 main_v9 rfl shapeCasts_S27x60000_S1620000,
    nullary main_cst (constant S_ .f32 0x00000000#32),
    unary main_cst main_v10 (broadcastInDim S150000x64 ![] bcast_S_S150000x64 : (⟨S_, .f32⟩ : BufTy).Contents (Elt F) → (⟨S150000x64, .f32⟩ : BufTy).Contents (Elt F)),
    unary main_v9 main_v11 (broadcastInDim S1620000x1 ![0] bcast_S1620000_S1620000x1_0 : (⟨S1620000, .i32⟩ : BufTy).Contents (Elt F) → (⟨S1620000x1, .i32⟩ : BufTy).Contents (Elt F)),
    ternary main_v10 main_v11 main_v8 main_v12 ((fun x i u => Host.scatterAdd scatter_S150000x64_S1620000x1_S1620000x64_1_0_0_1 x i u) : (⟨S150000x64, .f32⟩ : BufTy).Contents (Elt F) → (⟨S1620000x1, .i32⟩ : BufTy).Contents (Elt F) → (⟨S1620000x64, .f32⟩ : BufTy).Contents (Elt F) → (⟨S150000x64, .f32⟩ : BufTy).Contents (Elt F)),
    unary main_arg4 main_v13 (broadcastInDim S1x64 ![1] bcast_S64_S1x64_1 : (⟨S64, .f32⟩ : BufTy).Contents (Elt F) → (⟨S1x64, .f32⟩ : BufTy).Contents (Elt F)),
    unary main_v13 main_v14 (broadcastInDim S150000x64 ![0, 1] bcast_S1x64_S150000x64_0_1 : (⟨S1x64, .f32⟩ : BufTy).Contents (Elt F) → (⟨S150000x64, .f32⟩ : BufTy).Contents (Elt F)),
    binary main_v12 main_v14 main_v15 (addf : (⟨S150000x64, .f32⟩ : BufTy).Contents (Elt F) → (⟨S150000x64, .f32⟩ : BufTy).Contents (Elt F) → (⟨S150000x64, .f32⟩ : BufTy).Contents (Elt F)),
    TRef.nullary main_call0.cst (constant S_ .f32 0x00000000#32),
    TRef.unary main_call0.cst main_call0.v0 (broadcastInDim S150000x64 ![] bcast_S_S150000x64),
    TRef.binary (.of main_v15) main_call0.v0 main_call0.v1 maximumf,
    nullary main_cst_1 (constant S_ .f32 0x00000000#32),
    binary main_v16 main_cst_1 main_v17 ((fun x v => Host.reduceAdd x v reducesTo_S150000x64_S64_d0 h_S_) : (⟨S150000x64, .f32⟩ : BufTy).Contents (Elt F) → (⟨S_, .f32⟩ : BufTy).Contents (Elt F) → (⟨S64, .f32⟩ : BufTy).Contents (Elt F)),
    nullary main_cst_2 (constant S_ .f32 0x48127C00#32),
    unary main_cst_2 main_v18 (broadcastInDim S64 ![] bcast_S_S64 : (⟨S_, .f32⟩ : BufTy).Contents (Elt F) → (⟨S64, .f32⟩ : BufTy).Contents (Elt F)),
    binary main_v17 main_v18 main_v19 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call1.cst (constant S_ .f32 0x00000000#32),
    TRef.binary (.of main_v16) main_call1.cst main_call1.v0 (fun x v => Host.reduceAdd x v reducesTo_S150000x64_S64_d0 h_S_),
    TRef.unary main_call1.v0 main_call1.v1 (broadcastInDim S1x64 ![1] bcast_S64_S1x64_1),
    TRef.nullary main_call1.cst_0 (constant S_ .f32 0x48127C00#32),
    TRef.unary main_call1.cst_0 main_call1.v2 (broadcastInDim S1x64 ![] bcast_S_S1x64),
    TRef.binary main_call1.v1 main_call1.v2 main_call1.v3 Host.divf,
    TRef.unary main_call1.v3 main_call1.v4 (broadcastInDim S150000x64 ![0, 1] bcast_S1x64_S150000x64_0_1),
    TRef.binary (.of main_v16) main_call1.v4 main_call1.v5 subf,
    TRef.binary main_call1.v5 main_call1.v5 main_call1.v6 mulf,
    TRef.unary (.of main_c_3) main_call1.v7 (sitofp .f32),
    TRef.nullary main_call1.cst_1 (constant S_ .f32 0x48127C00#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S150000x64_S64_d0 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b),
    unary main_v19 main_v21 (broadcastInDim S1x64 ![1] bcast_S64_S1x64_1 : (⟨S64, .f32⟩ : BufTy).Contents (Elt F) → (⟨S1x64, .f32⟩ : BufTy).Contents (Elt F)),
    unary main_v21 main_v22 (broadcastInDim S150000x64 ![0, 1] bcast_S1x64_S150000x64_0_1 : (⟨S1x64, .f32⟩ : BufTy).Contents (Elt F) → (⟨S150000x64, .f32⟩ : BufTy).Contents (Elt F)),
    binary main_v16 main_v22 main_v23 (subf : (⟨S150000x64, .f32⟩ : BufTy).Contents (Elt F) → (⟨S150000x64, .f32⟩ : BufTy).Contents (Elt F) → (⟨S150000x64, .f32⟩ : BufTy).Contents (Elt F)),
    nullary main_cst_4 (constant S_ .f32 0x3727C5AC#32),
    unary main_cst_4 main_v24 (broadcastInDim S64 ![] bcast_S_S64 : (⟨S_, .f32⟩ : BufTy).Contents (Elt F) → (⟨S64, .f32⟩ : BufTy).Contents (Elt F)),
    binary main_v20 main_v24 main_v25 (addf : (⟨S64, .f32⟩ : BufTy).Contents (Elt F) → (⟨S64, .f32⟩ : BufTy).Contents (Elt F) → (⟨S64, .f32⟩ : BufTy).Contents (Elt F)),
    unary main_v25 main_v26 (Host.rsqrt : (⟨S64, .f32⟩ : BufTy).Contents (Elt F) → (⟨S64, .f32⟩ : BufTy).Contents (Elt F)),
    unary main_v26 main_v27 (broadcastInDim S1x64 ![1] bcast_S64_S1x64_1 : (⟨S64, .f32⟩ : BufTy).Contents (Elt F) → (⟨S1x64, .f32⟩ : BufTy).Contents (Elt F)),
    unary main_v27 main_v28 (broadcastInDim S150000x64 ![0, 1] bcast_S1x64_S150000x64_0_1 : (⟨S1x64, .f32⟩ : BufTy).Contents (Elt F) → (⟨S150000x64, .f32⟩ : BufTy).Contents (Elt F)),
    binary main_v23 main_v28 main_v29 (mulf : (⟨S150000x64, .f32⟩ : BufTy).Contents (Elt F) → (⟨S150000x64, .f32⟩ : BufTy).Contents (Elt F) → (⟨S150000x64, .f32⟩ : BufTy).Contents (Elt F)),
    unary main_arg5 main_v30 (broadcastInDim S1x64 ![1] bcast_S64_S1x64_1 : (⟨S64, .f32⟩ : BufTy).Contents (Elt F) → (⟨S1x64, .f32⟩ : BufTy).Contents (Elt F)),
    unary main_v30 main_v31 (broadcastInDim S150000x64 ![0, 1] bcast_S1x64_S150000x64_0_1 : (⟨S1x64, .f32⟩ : BufTy).Contents (Elt F) → (⟨S150000x64, .f32⟩ : BufTy).Contents (Elt F)),
    binary main_v29 main_v31 main_v32 (mulf : (⟨S150000x64, .f32⟩ : BufTy).Contents (Elt F) → (⟨S150000x64, .f32⟩ : BufTy).Contents (Elt F) → (⟨S150000x64, .f32⟩ : BufTy).Contents (Elt F)),
    unary main_arg6 main_v33 (broadcastInDim S1x64 ![1] bcast_S64_S1x64_1 : (⟨S64, .f32⟩ : BufTy).Contents (Elt F) → (⟨S1x64, .f32⟩ : BufTy).Contents (Elt F)),
    unary main_v33 main_v34 (broadcastInDim S150000x64 ![0, 1] bcast_S1x64_S150000x64_0_1 : (⟨S1x64, .f32⟩ : BufTy).Contents (Elt F) → (⟨S150000x64, .f32⟩ : BufTy).Contents (Elt F)),
    binary main_v32 main_v34 main_v35 (addf : (⟨S150000x64, .f32⟩ : BufTy).Contents (Elt F) → (⟨S150000x64, .f32⟩ : BufTy).Contents (Elt F) → (⟨S150000x64, .f32⟩ : BufTy).Contents (Elt F)) ]

-- the callees' bodies are chains of the same host steps: both sides evaluate to one chain
set_option maxRecDepth 4096 in
/-- @main is that straight line: the functions' definitions unfolded at their calls, both sides are
    one chain of host steps once the sequencing is evaluated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., reshape_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-! ## The values the line computes, stage by stage

Each definition is the composition of the operations' own functions, in the line's order, over
the earlier stages. -/

/-- The start indices as the program hands them to its gather: a negative index moved up by
    150000, then a trailing unit axis. -/
def wrapIdx (i1 : IVec S27x60000 32) : IVec S27x60000x1 32 :=
  broadcastInDim S27x60000x1 ![0, 1] bcast_S27x60000_S27x60000x1_0_1
    (select (cmpi .slt i1 (broadcastInDim S27x60000 ![] bcast_S_S27x60000 (constantI S_ 32 0#32)))
      (addi i1 (broadcastInDim S27x60000 ![] bcast_S_S27x60000 (constantI S_ 32 150000#32))) i1)

/-- The feature rows the start indices name, one per (offset, pair). -/
def gathered (x0 : FVec F S150000x32 .f32) (i1 : IVec S27x60000 32) : FVec F S27x60000x32 .f32 :=
  Host.gather gather_S150000x32_S27x60000x1_S27x60000x32_2_0_n_n_0_2_132 x0 (wrapIdx i1)

/-- Each gathered row times its offset's weight matrix. -/
def contrib (x0 : FVec F S150000x32 .f32) (i1 : IVec S27x60000 32) (w : FVec F S27x32x64 .f32) :
    FVec F S27x60000x64 .f32 :=
  Host.dotGeneral dot_S27x60000x32_S27x32x64_S27x60000x64_2_1_1_2_0_0 none (gathered x0 i1) w

/-- The products summed into the output rows the second index table names, from zero. -/
def summed (x0 : FVec F S150000x32 .f32) (i1 i2 : IVec S27x60000 32) (w : FVec F S27x32x64 .f32) :
    FVec F S150000x64 .f32 :=
  Host.scatterAdd scatter_S150000x64_S1620000x1_S1620000x64_1_0_0_1
    (broadcastInDim S150000x64 ![] bcast_S_S150000x64 (constant S_ .f32 0x00000000#32))
    (broadcastInDim S1620000x1 ![0] bcast_S1620000_S1620000x1_0 (shapeCast S1620000 i2 shapeCasts_S27x60000_S1620000))
    (shapeCast S1620000x64 (contrib x0 i1 w) shapeCasts_S27x60000x64_S1620000x64)

/-- The sum plus the bias along the rows, rectified. -/
def act (x0 : FVec F S150000x32 .f32) (i1 i2 : IVec S27x60000 32) (w : FVec F S27x32x64 .f32)
    (b : FVec F S64 .f32) : FVec F S150000x64 .f32 :=
  maximumf (addf (summed x0 i1 i2 w) (broadcastInDim S150000x64 ![0, 1] bcast_S1x64_S150000x64_0_1 (broadcastInDim S1x64 ![1] bcast_S64_S1x64_1 b)))
    (broadcastInDim S150000x64 ![] bcast_S_S150000x64 (constant S_ .f32 0x00000000#32))

/-- The column mean of the activation: its column sum over 150000. -/
def mean (x0 : FVec F S150000x32 .f32) (i1 i2 : IVec S27x60000 32) (w : FVec F S27x32x64 .f32)
    (b : FVec F S64 .f32) : FVec F S64 .f32 :=
  Host.divf (Host.reduceAdd (act x0 i1 i2 w b) (constant S_ .f32 0x00000000#32) reducesTo_S150000x64_S64_d0 h_S_)
    (broadcastInDim S64 ![] bcast_S_S64 (constant S_ .f32 0x48127C00#32))

/-- The variance's divisor: 150000 minus the correction, which is the integer zero converted. -/
def varCount : FVec F S_ .f32 :=
  subf (constant S_ .f32 0x48127C00#32) (sitofp .f32 (constantI S_ 32 0#32))

/-- The activation minus its column mean as the variance computes it (the column sum made a row,
    divided by 150000, spread over the rows). -/
def varCentred (x0 : FVec F S150000x32 .f32) (i1 i2 : IVec S27x60000 32) (w : FVec F S27x32x64 .f32)
    (b : FVec F S64 .f32) : FVec F S150000x64 .f32 :=
  subf (act x0 i1 i2 w b)
    (broadcastInDim S150000x64 ![0, 1] bcast_S1x64_S150000x64_0_1 (Host.divf (broadcastInDim S1x64 ![1] bcast_S64_S1x64_1 (Host.reduceAdd (act x0 i1 i2 w b) (constant S_ .f32 0x00000000#32) reducesTo_S150000x64_S64_d0 h_S_))
      (broadcastInDim S1x64 ![] bcast_S_S1x64 (constant S_ .f32 0x48127C00#32))))

/-- The column variance of the activation: the column sum of the squared deviations over the
    divisor where the divisor is positive, the fill value elsewhere. -/
def var (x0 : FVec F S150000x32 .f32) (i1 i2 : IVec S27x60000 32) (w : FVec F S27x32x64 .f32)
    (b : FVec F S64 .f32) : FVec F S64 .f32 :=
  select (broadcastInDim S64 ![] bcast_S_S64 (cmpf .ogt (varCount (F := F)) (constant S_ .f32 0x00000000#32)))
    (Host.divf
      (Host.reduceAdd (mulf (varCentred x0 i1 i2 w b) (varCentred x0 i1 i2 w b)) (constant S_ .f32 0x00000000#32)
        reducesTo_S150000x64_S64_d0 h_S_)
      (broadcastInDim S64 ![] bcast_S_S64 varCount))
    (broadcastInDim S64 ![] bcast_S_S64 (id (constant S_ .f32 0x7FC00000#32)))

/-- The reference's result: the activation minus its mean, times the reciprocal root of the
    variance plus the small constant, times the scale, plus the shift, each along the rows. -/
def refOut (x0 : FVec F S150000x32 .f32) (i1 i2 : IVec S27x60000 32) (w : FVec F S27x32x64 .f32)
    (b g be : FVec F S64 .f32) : FVec F S150000x64 .f32 :=
  addf
    (mulf
      (mulf (subf (act x0 i1 i2 w b) (broadcastInDim S150000x64 ![0, 1] bcast_S1x64_S150000x64_0_1 (broadcastInDim S1x64 ![1] bcast_S64_S1x64_1 (mean x0 i1 i2 w b))))
        (broadcastInDim S150000x64 ![0, 1] bcast_S1x64_S150000x64_0_1 (broadcastInDim S1x64 ![1] bcast_S64_S1x64_1 (Host.rsqrt (addf (var x0 i1 i2 w b) (broadcastInDim S64 ![] bcast_S_S64 (constant S_ .f32 0x3727C5AC#32)))))))
      (broadcastInDim S150000x64 ![0, 1] bcast_S1x64_S150000x64_0_1 (broadcastInDim S1x64 ![1] bcast_S64_S1x64_1 g)))
    (broadcastInDim S150000x64 ![0, 1] bcast_S1x64_S150000x64_0_1 (broadcastInDim S1x64 ![1] bcast_S64_S1x64_1 be))

/-! ## The line's fold at the result and at the arguments -/

-- the operations' own functions are kept folded: the equation never looks inside them, only through the
-- typed references' transports (the identity at these literal references) and the stage definitions
attribute [local irreducible] Host.gather Host.scatterAdd Host.reduceAdd broadcastInDim shapeCast
  maximumf addf subf mulf Host.divf Host.rsqrt select cmpi cmpf addi sitofp constant constantI in
set_option maxRecDepth 8192 in
/-- The fold at the result buffer is `refOut` of the arguments' contents: each operation's result at its own
    buffer is its function of its operands' contents, at any other buffer what was there; what is left is
    the stage definitions unfolded. -/
theorem out_eq (V : Valuation τ sig (Elt F)) :
    after ops V (main_v35 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

/-- No operation of the line writes argument 0. -/
theorem arg0_eq (V : Valuation τ sig (Elt F)) :
    after ops V (main_arg0 : DevRef τ sig) = V (main_arg0 : DevRef τ sig) := by
  after_results_simp

/-- No operation of the line writes argument 1. -/
theorem arg1_eq (V : Valuation τ sig (Elt F)) :
    after ops V (main_arg1 : DevRef τ sig) = V (main_arg1 : DevRef τ sig) := by
  after_results_simp

/-- No operation of the line writes argument 2. -/
theorem arg2_eq (V : Valuation τ sig (Elt F)) :
    after ops V (main_arg2 : DevRef τ sig) = V (main_arg2 : DevRef τ sig) := by
  after_results_simp

/-- No operation of the line writes argument 3. -/
theorem arg3_eq (V : Valuation τ sig (Elt F)) :
    after ops V (main_arg3 : DevRef τ sig) = V (main_arg3 : DevRef τ sig) := by
  after_results_simp

/-- No operation of the line writes argument 4. -/
theorem arg4_eq (V : Valuation τ sig (Elt F)) :
    after ops V (main_arg4 : DevRef τ sig) = V (main_arg4 : DevRef τ sig) := by
  after_results_simp

/-- No operation of the line writes argument 5. -/
theorem arg5_eq (V : Valuation τ sig (Elt F)) :
    after ops V (main_arg5 : DevRef τ sig) = V (main_arg5 : DevRef τ sig) := by
  after_results_simp

/-- No operation of the line writes argument 6. -/
theorem arg6_eq (V : Valuation τ sig (Elt F)) :
    after ops V (main_arg6 : DevRef τ sig) = V (main_arg6 : DevRef τ sig) := by
  after_results_simp

/-! ## The run -/

/-- On every device, for any float values, from any memory with zero counters: every weakly fair
    execution of @main terminates with the result at `refOut` of the arguments' launch contents and
    the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v35) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v35).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.Hand

end
-- ==== Proof.KIValue2.lean ====
/-
  What the third region leaves in its output array, and the reference's last stage as the same function.

  The region's body is pointwise: at row r and column k of a tile it takes the entry s of the sums, adds the bias
  entry of column k, clamps at zero from below, subtracts the mean entry of column k, multiplies by the reciprocal
  square root of (the variance entry of column k plus the small constant), multiplies by the scale entry and adds
  the shift entry of column k. The five rows are broadcast down the rows of the tile. The 25 tiles of 6000 rows tile
  the 150000 rows, tile t at rows 6000 t … 6000 t + 5999, so the output array is that one function of the six input
  arrays at every index. The reference's last stage applies the same operations to whole arrays, its rows broadcast
  from vectors of length 64; the host's reciprocal square root and the kernel's are one function on the extended
  reals.
-/
import proofs.«408267_j28449863368848_3_alg».proof.Proof.KIDefs
import proofs.«408267_j28449863368848_3_alg».proof.ReferenceIdeal
import proofs.«408267_j28449863368848_3_alg».proof.Proof.Gen.ReferenceIdeal
import Idealize.ShloMosaic.Lib.Pipeline.Value
import Idealize.ShloMosaic.Lib.ValueIdx
import Idealize.ShloMosaic.PureOps.Ideal.Laws
import Idealize.ShloMosaic.Lib.ValueLayout

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## One entry -/

/-- one entry of the normalised output from the entry of the sums and the five row entries of its column -/
def normAt (s b mu va ga be : EReal) : EReal :=
  ((max (s + b) 0 - mu) * Ideal.rsqrt (va + Ideal.ofBits .f32 0x3727C5AC#32)) * ga + be

/-- The entry written out: the reference's right-hand side at the activation max (s + b) 0. -/
theorem normAt_eq (s b mu va ga be : EReal) :
    normAt s b mu va ga be = ((max (s + b) 0 - mu) * Ideal.rsqrt (va + Ideal.ofBits .f32 0x3727C5AC#32)) * ga + be := rfl

namespace Region2

theorem hz : (![0, 0] : Fin 2 → Nat) = fun _ => 0 := funext fun a => by fin_cases a <;> rfl

/-- A row broadcast down the rows of a tile, read at row p and column q, is the row's entry of column q. -/
theorem bcast_row (x : Vec Ideal S1x64 .f32) (h : S1x64.Broadcasts S6000x64) (p : Fin 6000) (q : Fin 64) :
    broadcastTo S6000x64 x h (ix2 p q) = x (ix2 0 q) :=
  broadcastTo_apply x h (ix2 p q) (ix2 0 q) (fun a => by
    match a with
    | ⟨0, _⟩ => rfl
    | ⟨1, _⟩ => rfl)

/-- The body's arithmetic at row p and column q of a tile. -/
theorem pay2_at (x0 : Vec Ideal S6000x64 .f32) (x1 x2 x3 x4 x5 : Vec Ideal S1x64 .f32) (p : Fin 6000) (q : Fin 64) :
    k2_pay1 (F := Ideal) x0 x1 x3 x2 x4 x5 (ix2 p q)
      = normAt (x0 (ix2 p q)) (x1 (ix2 0 q)) (x2 (ix2 0 q)) (x3 (ix2 0 q)) (x4 (ix2 0 q)) (x5 (ix2 0 q)) := by
  unfold k2_pay1 normAt
  simp only [shapeCast_self]
  simp only [addf_apply, mulf_apply, subf_apply, maximumf_apply, broadcast_apply]
  rw [bcast_row x1 broadcasts_S1x64_S6000x64 p q, bcast_row x2 broadcasts_S1x64_S6000x64 p q,
    bcast_row x4 broadcasts_S1x64_S6000x64 p q, bcast_row x5 broadcasts_S1x64_S6000x64 p q,
    bcast_row (rsqrt (addf x3 (broadcast S1x64 (FloatOps.ofBits (F := Ideal) .f32 0x3727C5AC#32)))) broadcasts_S1x64_S6000x64 p q]
  simp only [Ideal.ofBits_def, Ideal.ofBits_zero_f32]
  rfl

/-- The same at any index of the tile: the rows are read at the index's column. -/
theorem pay2_pt (x0 : Vec Ideal S6000x64 .f32) (x1 x2 x3 x4 x5 : Vec Ideal S1x64 .f32) (j : S6000x64.Idx) :
    k2_pay1 (F := Ideal) x0 x1 x3 x2 x4 x5 j
      = normAt (x0 j) (x1 (ix2 0 (j 1))) (x2 (ix2 0 (j 1))) (x3 (ix2 0 (j 1))) (x4 (ix2 0 (j 1))) (x5 (ix2 0 (j 1))) := by
  obtain ⟨p, q, rfl⟩ : ∃ (p : Fin 6000) (q : Fin 64), j = ix2 p q := ⟨j 0, j 1, eq_ix2 j⟩
  exact pay2_at x0 x1 x2 x3 x4 x5 p q

/-! ## The output array -/

/-- The function the output array ends holding: at each index the entry of the sums and the five rows' entries of
    the index's column, through the body's arithmetic. -/
def G2 (c : Dev nD) : S150000x64.Idx → EReal := fun i =>
  normAt (V c main_v6 i) (V c main_v7 (ix2 0 (i 1))) (V c main_v8_0 (ix2 0 (i 1))) (V c main_v10 (ix2 0 (i 1)))
    (V c main_v11 (ix2 0 (i 1))) (V c main_v12 (ix2 0 (i 1)))

/-- The printed index maps over the 25 points: the tiles of the sums and of the output sit at block row t, column
    block 0; each row's one block sits at (0, 0). -/
theorem idx_facts2 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- What point t writes back is tile t of that function: the tile of the sums is read where the output's tile
    sits, each row at its one block, at the column of the output's index. -/
theorem flushed6_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz]
  simp only [View.ld_unit_zero (S := S6000x64) hz, View.ld_unit_zero (S := S1x64) hz]
  obtain ⟨a00, a01, a60, a61, a10, a11, a20, a21, a30, a31, a40, a41, a50, a51⟩ := idx_facts2 t
  funext j
  refine (pay2_pt (iblk2 V c 0 t) (iblk2 V c 1 t) (iblk2 V c 2 t) (iblk2 V c 3 t) (iblk2 V c 4 t) (iblk2 V c 5 t)
    ((cfg2.win 6).xinj (grid2.coords t) j)).trans ?_
  show _ = G2 V c (((cfg2.win 6).blk t).view.emb j)
  have h0 : iblk2 V c 0 t ((cfg2.win 6).xinj (grid2.coords t) j) = V c main_v6 (((cfg2.win 6).blk t).view.emb j) := by
    show V c main_v6 (((cfg2.win 0).blk t).view.emb _) = _
    refine congrArg (V c main_v6) ?_
    funext a; apply Fin.ext
    match a with
    | ⟨0, _⟩ => show win2_0.index t (0 : Fin 2) * 6000 + 1 * (j 0).val = win2_6.index t (0 : Fin 2) * 6000 + 1 * (j 0).val; omega
    | ⟨1, _⟩ => show win2_0.index t (1 : Fin 2) * 64 + 1 * (j 1).val = win2_6.index t (1 : Fin 2) * 64 + 1 * (j 1).val; omega
  have h1 : iblk2 V c 1 t (ix2 0 ((cfg2.win 6).xinj (grid2.coords t) j 1))
      = V c main_v7 (ix2 0 ((((cfg2.win 6).blk t).view.emb j) 1)) := by
    show V c main_v7 (((cfg2.win 1).blk t).view.emb _) = _
    refine congrArg (V c main_v7) ?_
    funext a; apply Fin.ext
    match a with
    | ⟨0, _⟩ => show win2_1.index t (0 : Fin 2) * 1 + 1 * 0 = 0; omega
    | ⟨1, _⟩ => show win2_1.index t (1 : Fin 2) * 64 + 1 * (j 1).val = win2_6.index t (1 : Fin 2) * 64 + 1 * (j 1).val; omega
  have h2 : iblk2 V c 2 t (ix2 0 ((cfg2.win 6).xinj (grid2.coords t) j 1))
      = V c main_v8_0 (ix2 0 ((((cfg2.win 6).blk t).view.emb j) 1)) := by
    show V c main_v8_0 (((cfg2.win 2).blk t).view.emb _) = _
    refine congrArg (V c main_v8_0) ?_
    funext a; apply Fin.ext
    match a with
    | ⟨0, _⟩ => show win2_2.index t (0 : Fin 2) * 1 + 1 * 0 = 0; omega
    | ⟨1, _⟩ => show win2_2.index t (1 : Fin 2) * 64 + 1 * (j 1).val = win2_6.index t (1 : Fin 2) * 64 + 1 * (j 1).val; omega
  have h3 : iblk2 V c 3 t (ix2 0 ((cfg2.win 6).xinj (grid2.coords t) j 1))
      = V c main_v10 (ix2 0 ((((cfg2.win 6).blk t).view.emb j) 1)) := by
    show V c main_v10 (((cfg2.win 3).blk t).view.emb _) = _
    refine congrArg (V c main_v10) ?_
    funext a; apply Fin.ext
    match a with
    | ⟨0, _⟩ => show win2_3.index t (0 : Fin 2) * 1 + 1 * 0 = 0; omega
    | ⟨1, _⟩ => show win2_3.index t (1 : Fin 2) * 64 + 1 * (j 1).val = win2_6.index t (1 : Fin 2) * 64 + 1 * (j 1).val; omega
  have h4 : iblk2 V c 4 t (ix2 0 ((cfg2.win 6).xinj (grid2.coords t) j 1))
      = V c main_v11 (ix2 0 ((((cfg2.win 6).blk t).view.emb j) 1)) := by
    show V c main_v11 (((cfg2.win 4).blk t).view.emb _) = _
    refine congrArg (V c main_v11) ?_
    funext a; apply Fin.ext
    match a with
    | ⟨0, _⟩ => show win2_4.index t (0 : Fin 2) * 1 + 1 * 0 = 0; omega
    | ⟨1, _⟩ => show win2_4.index t (1 : Fin 2) * 64 + 1 * (j 1).val = win2_6.index t (1 : Fin 2) * 64 + 1 * (j 1).val; omega
  have h5 : iblk2 V c 5 t (ix2 0 ((cfg2.win 6).xinj (grid2.coords t) j 1))
      = V c main_v12 (ix2 0 ((((cfg2.win 6).blk t).view.emb j) 1)) := by
    show V c main_v12 (((cfg2.win 5).blk t).view.emb _) = _
    refine congrArg (V c main_v12) ?_
    funext a; apply Fin.ext
    match a with
    | ⟨0, _⟩ => show win2_5.index t (0 : Fin 2) * 1 + 1 * 0 = 0; omega
    | ⟨1, _⟩ => show win2_5.index t (1 : Fin 2) * 64 + 1 * (j 1).val = win2_6.index t (1 : Fin 2) * 64 + 1 * (j 1).val; omega
  exact congr (congr (congr (congr (congr (congrArg normAt h0) h1) h2) h3) h4) h5

/-- An index of the array is in point t's tile iff each coordinate is in the tile's range on its axis. -/
theorem mem_blk6 (t : Fin cfg2.N) (i : S150000x64.Idx) :
    i ∈ ((cfg2.win 6).blk t).view.set ↔ ∀ a : Fin 2, win2_6.index t a * S6000x64.size a ≤ (i a).val ∧ (i a).val < win2_6.index t a * S6000x64.size a + S6000x64.size a := by
  show i ∈ ((View.whole main_v13).slice (win2_6.rect t)).set ↔ _
  rw [View.set_slice_whole, Rect.mem_set_unit]
  exact Iff.rfl

/-- Every index is in some point's tile: row r is in tile r / 6000. -/
theorem cover6 (i : S150000x64.Idx) :
    ∃ t : Fin cfg2.N, (cfg2.win 6).flush t = true ∧ i ∈ ((cfg2.win 6).blk t).view.set := by
  have hi0 : (i 0).val < 150000 := (i 0).isLt
  have hi1 : (i 1).val < 64 := (i 1).isLt
  obtain ⟨t, ht⟩ : ∃ t : Fin cfg2.N, t.val = (i 0).val / 6000 :=
    ⟨⟨(i 0).val / 6000, by rw [show cfg2.N = 25 from N_2]; omega⟩, rfl⟩
  obtain ⟨a00, a01, a60, a61, -⟩ := idx_facts2 t
  refine ⟨t, flush2_6 t, ?_⟩
  rw [mem_blk6]
  intro a
  match a with
  | ⟨0, _⟩ => show win2_6.index t (0 : Fin 2) * 6000 ≤ (i 0).val ∧ (i 0).val < win2_6.index t (0 : Fin 2) * 6000 + 6000; omega
  | ⟨1, _⟩ => show win2_6.index t (1 : Fin 2) * 64 ≤ (i 1).val ∧ (i 1).val < win2_6.index t (1 : Fin 2) * 64 + 64; omega

/-- A vector of length 64 made a row, the row broadcast down 150000 rows, read at an index: the vector's entry of
    the index's column. -/
theorem ref_bcast (x : Cert.ReferenceIdeal.S64.Idx → EReal) (p : Fin 150000) (q : Fin 64) :
    broadcastInDim Cert.ReferenceIdeal.S150000x64 ![0, 1] Cert.ReferenceIdeal.Facts₀.bcast_S1x64_S150000x64_0_1
      (broadcastInDim Cert.ReferenceIdeal.S1x64 ![1] Cert.ReferenceIdeal.Facts₀.bcast_S64_S1x64_1 x) (ix2 p q) = x (ix1 q) := by
  refine (broadcastInDim_apply (![0, 1] : Fin 2 → Fin 2) Cert.ReferenceIdeal.Facts₀.bcast_S1x64_S150000x64_0_1 _ (ix2 p q) (ix2 0 q)
    (fun a => by
      match a with
      | ⟨0, _⟩ => rfl
      | ⟨1, _⟩ => rfl)).trans ?_
  exact broadcastInDim_apply (![1] : Fin 1 → Fin 2) Cert.ReferenceIdeal.Facts₀.bcast_S64_S1x64_1 x (ix2 0 q) (ix1 q)
    (fun a => by
      match a with
      | ⟨0, _⟩ => rfl)

end Region2

/-! ## The output array after the region -/

/-- The output array after the region: at every index, the body's arithmetic of the entry of the sums and the five
    row entries of the index's column. -/
theorem final2 (c : Dev nD) : (dat2 (F := Ideal) V c).arrAt 6 cfg2.N =
    fun i => normAt (V c main_v6 i) (V c main_v7 (ValueIdx.ix2 0 (i 1))) (V c main_v8_0 (ValueIdx.ix2 0 (i 1)))
      (V c main_v10 (ValueIdx.ix2 0 (i 1))) (V c main_v11 (ValueIdx.ix2 0 (i 1))) (V c main_v12 (ValueIdx.ix2 0 (i 1))) :=
  (dat2 (F := Ideal) V c).arrAt_eq_of_cover 6 (Region2.G2 V c) (fun t _ => Region2.flushed6_eq V c t) Region2.cover6

/-! ## The reference's last stage -/

/-- the reference's operations %21 … %35 over an activation array, a mean vector, a variance vector, scale and
    shift vectors, read at an entry -/
theorem ref_norm (act : Cert.ReferenceIdeal.S150000x64.Idx → EReal) (mean var ga be : Cert.ReferenceIdeal.S64.Idx → EReal)
    (i : Cert.ReferenceIdeal.S150000x64.Idx) :
    (addf (F := Ideal) (φ := .f32) (mulf (F := Ideal) (φ := .f32) (mulf (F := Ideal) (φ := .f32)
        (subf (F := Ideal) (φ := .f32) act
          (broadcastInDim Cert.ReferenceIdeal.S150000x64 ![0, 1] Cert.ReferenceIdeal.Facts₀.bcast_S1x64_S150000x64_0_1
            (broadcastInDim Cert.ReferenceIdeal.S1x64 ![1] Cert.ReferenceIdeal.Facts₀.bcast_S64_S1x64_1 mean)))
        (broadcastInDim Cert.ReferenceIdeal.S150000x64 ![0, 1] Cert.ReferenceIdeal.Facts₀.bcast_S1x64_S150000x64_0_1
          (broadcastInDim Cert.ReferenceIdeal.S1x64 ![1] Cert.ReferenceIdeal.Facts₀.bcast_S64_S1x64_1
            (Host.rsqrt (F := Ideal) (φ := .f32) (addf (F := Ideal) (φ := .f32) var
              (broadcastInDim Cert.ReferenceIdeal.S64 ![] Cert.ReferenceIdeal.Facts₀.bcast_S_S64
                (constant (F := Ideal) Cert.ReferenceIdeal.S_ .f32 0x3727C5AC#32)))))))
        (broadcastInDim Cert.ReferenceIdeal.S150000x64 ![0, 1] Cert.ReferenceIdeal.Facts₀.bcast_S1x64_S150000x64_0_1
          (broadcastInDim Cert.ReferenceIdeal.S1x64 ![1] Cert.ReferenceIdeal.Facts₀.bcast_S64_S1x64_1 ga)))
        (broadcastInDim Cert.ReferenceIdeal.S150000x64 ![0, 1] Cert.ReferenceIdeal.Facts₀.bcast_S1x64_S150000x64_0_1
          (broadcastInDim Cert.ReferenceIdeal.S1x64 ![1] Cert.ReferenceIdeal.Facts₀.bcast_S64_S1x64_1 be))) i
      = ((act i - mean (ValueIdx.ix1 (i 1))) * Ideal.rsqrt (var (ValueIdx.ix1 (i 1)) + Ideal.ofBits .f32 0x3727C5AC#32))
          * ga (ValueIdx.ix1 (i 1)) + be (ValueIdx.ix1 (i 1)) := by
  obtain ⟨p, q, rfl⟩ : ∃ (p : Fin 150000) (q : Fin 64), i = ix2 p q := ⟨i 0, i 1, eq_ix2 i⟩
  simp only [addf_apply, mulf_apply, subf_apply]
  rw [Region2.ref_bcast mean p q, Region2.ref_bcast ga p q, Region2.ref_bcast be p q, Region2.ref_bcast _ p q]
  rfl

end Cert.KernelIdeal.Val

end
-- ==== Proof.KIHost.lean ====
/-
  What the three stretches of host operations and the regions' exits leave in the buffers the regions read, as
  equations on the buffer contents between two items of @main.

  The first stretch is the bounds-checked take of the gathered rows; the second reshapes the products and the
  out-indices, scatter-adds the products from zero and reshapes the bias to a row; the third divides the summed
  squared deviations by the row count and reshapes scale and shift to rows. A buffer no operation of a stretch
  writes keeps its contents through it; a region leaves each window's array at what its write-backs fold to, an
  input window's array as it found it, and every other buffer as it found it. Every equation is between opaque
  terms: no array is ever unfolded.
-/
import proofs.«408267_j28449863368848_3_alg».proof.Proof.KIDefs
import proofs.«408267_j28449863368848_3_alg».proof.Proof.KIChain
import proofs.«408267_j28449863368848_3_alg».proof.Proof.Gen.KernelIdeal.Regions
import Idealize.ShloMosaic.Lib.StableHlo.Run

set_option maxRecDepth 16384

noncomputable section

namespace Cert.KernelIdeal.Val

open Cert.KernelIdeal Cert.KernelIdeal.Fr
-- the generated conditional frame has valuations of its own under the names V0 … V6; the ones meant here are the
-- boundary contents over the regions' proof data
open Cert.KernelIdeal.Gen hiding V0 V1 V2 V3 V4 V5 V6
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The first stretch: the bounds-checked take -/

/-- The kernel's bounds-checked take over the features x0 and the indices i1: gather at the wrapped indices, a NaN
    fill where the wrapped index is out of range. -/
def takeTerm (x0 : FVec F S150000x32 .f32) (i1 : IVec S27x60000 32) : FVec F S27x60000x32 .f32 :=
  select
    (broadcastInDim S27x60000x32 ![0, 1] bcast_S27x60000_S27x60000x32_0_1
      (Host.reduce IntOp.andi
        (andi
          (cmpi .sge
            (broadcastInDim S27x60000x1 ![0, 1] bcast_S27x60000_S27x60000x1_0_1
              (select (cmpi .slt i1 (broadcastInDim S27x60000 ![] bcast_S_S27x60000 (constantI S_ 32 0#32)))
                (addi i1 (broadcastInDim S27x60000 ![] bcast_S_S27x60000 (constantI S_ 32 150000#32))) i1))
            (broadcastInDim S27x60000x1 ![] bcast_S_S27x60000x1 (constantI S_ 32 0#32)))
          (cmpi .sle
            (broadcastInDim S27x60000x1 ![0, 1] bcast_S27x60000_S27x60000x1_0_1
              (select (cmpi .slt i1 (broadcastInDim S27x60000 ![] bcast_S_S27x60000 (constantI S_ 32 0#32)))
                (addi i1 (broadcastInDim S27x60000 ![] bcast_S_S27x60000 (constantI S_ 32 150000#32))) i1))
            (broadcastInDim S27x60000x1 ![0, 1, 2] bcast_S1x1x1_S27x60000x1_0_1_2
              (broadcastInDim S1x1x1 ![2] bcast_S1_S1x1x1_2 (constantI S1 32 149999#32)))))
        (constantI S_ 1 1#1) reducesTo_S27x60000x1_S27x60000_d2 h_S_))
    (Host.gather gather_S150000x32_S27x60000x1_S27x60000x32_2_0_n_n_0_2_132 x0
      (broadcastInDim S27x60000x1 ![0, 1] bcast_S27x60000_S27x60000x1_0_1
        (select (cmpi .slt i1 (broadcastInDim S27x60000 ![] bcast_S_S27x60000 (constantI S_ 32 0#32)))
          (addi i1 (broadcastInDim S27x60000 ![] bcast_S_S27x60000 (constantI S_ 32 150000#32))) i1)))
    (broadcastInDim S27x60000x32 ![] bcast_S_S27x60000x32 (constant (F := F) S_ .f32 0x7FC00000#32))

/-- A buffer the first stretch does not write enters region 0 as launched. -/
theorem V1_keep (c : Dev nD) (r : Ref sig .tc) (h : r ∉ hostOps0_W) : V1 m c r = m ((c : Thread nD τ).loc r) :=
  (StableHlo.after_of_writes_sub hostOps0 _ hostOps0_writes h).trans rfl

/-- Moving contents to a typed reference's buffer type and back changes nothing. -/
theorem ofBuf_toBuf {T : BufTy} (x : StableHlo.TRef sig T) (v : T.Contents (Elt F)) : x.ofBuf (x.toBuf v) = v := by
  obtain ⟨r, rfl, _, _⟩ := x
  rfl

attribute [local irreducible] Host.gather Host.reduce broadcastInDim select cmpi addi andi constant constantI in
set_option maxHeartbeats 1000000 in
/-- Region 0's rows: the take of the features at the in-indices. The operations of the take are written over typed
    references, whose transports to and from a buffer's own type cancel in pairs; what is left agrees with the take
    up to the identity transports at the two arguments and at the result. -/
theorem V1_v0 (c : Dev nD) : V1 m c main_v0 = takeTerm (m ((c : Thread nD τ).loc main_arg0)) (m ((c : Thread nD τ).loc main_arg1)) := by
  show StableHlo.after hostOps0 (W0 m c) (Proc.devRef .tc main_v0) = _
  after_results_simp
  simp only [ofBuf_toBuf]
  unfold takeTerm
  rfl

theorem V1_arg3 (c : Dev nD) : V1 m c main_arg3 = m ((c : Thread nD τ).loc main_arg3) := V1_keep m c main_arg3 (by decide)

/-! ## Region 0's exit -/

/-- The products' array: what region 0's write-backs fold to. -/
theorem V2_v1 (c : Dev nD) : V2 m c main_v1 = (dat0 (V1 m) c).arrAt 2 cfg0.N := W2_arr m c 2

/-- A buffer that is no window's array of region 0 and that the first stretch does not write is still as launched. -/
theorem V2_keep (c : Dev nD) (r : Ref sig .tc) (h0 : ∀ w, Pipeline.arrRef spec0 w ≠ r) (h : r ∉ hostOps0_W) :
    V2 m c r = m ((c : Thread nD τ).loc r) :=
  (W2_of_ne m c r h0).trans (V1_keep m c r h)

theorem V2_arg2 (c : Dev nD) : V2 m c main_arg2 = m ((c : Thread nD τ).loc main_arg2) := V2_keep m c main_arg2 (by decide) (by decide)
theorem V2_arg4 (c : Dev nD) : V2 m c main_arg4 = m ((c : Thread nD τ).loc main_arg4) := V2_keep m c main_arg4 (by decide) (by decide)

/-! ## The second stretch: the scatter-add and the bias row -/

/-- A buffer the second stretch does not write keeps region 0's exit contents. -/
theorem V3_keep (c : Dev nD) (r : Ref sig .tc) (h : r ∉ hostOps1_W) : V3 m c r = V2 m c r :=
  StableHlo.after_of_writes_sub hostOps1 _ hostOps1_writes h

/-- The scatter-add of the reshaped products at the reshaped out-indices, from zero. -/
theorem V3_v6 (c : Dev nD) : V3 m c main_v6 =
    Host.scatterAdd scatter_S150000x64_S1620000x1_S1620000x64_1_0_0_1
      (broadcastInDim S150000x64 ![] bcast_S_S150000x64 (constant (F := F) S_ .f32 0x00000000#32))
      (broadcastInDim S1620000x1 ![0] bcast_S1620000_S1620000x1_0
        (shapeCast S1620000 (m ((c : Thread nD τ).loc main_arg2)) shapeCasts_S27x60000_S1620000))
      (shapeCast S1620000x64 (V2 m c main_v1) shapeCasts_S27x60000x64_S1620000x64) := by
  rw [← V2_arg2 m c]
  show StableHlo.after hostOps1 (W2 m c) (Proc.devRef .tc main_v6) = _
  after_results
  rfl

/-- The bias as a row. -/
theorem V3_v7 (c : Dev nD) : V3 m c main_v7 = shapeCast S1x64 (m ((c : Thread nD τ).loc main_arg4)) shapeCasts_S64_S1x64 := by
  rw [← V2_arg4 m c]
  show StableHlo.after hostOps1 (W2 m c) (Proc.devRef .tc main_v7) = _
  after_results
  rfl

/-! ## Region 1's exit -/

/-- Region 1's input windows' arrays are never written back. -/
theorem V4_v6 (c : Dev nD) : V4 m c main_v6 = V3 m c main_v6 :=
  (W4_arr m c 0).trans (((dat1 (V3 m) c).arrAt_in 0 rfl _).trans (A_eq1 (V3 m) c 0))
theorem V4_v7 (c : Dev nD) : V4 m c main_v7 = V3 m c main_v7 :=
  (W4_arr m c 1).trans (((dat1 (V3 m) c).arrAt_in 1 rfl _).trans (A_eq1 (V3 m) c 1))

/-- The mean row and the row of summed squared deviations: what region 1's write-backs fold to. -/
theorem V4_v8_0 (c : Dev nD) : V4 m c main_v8_0 = (dat1 (V3 m) c).arrAt 2 cfg1.N := W4_arr m c 2
theorem V4_v8_1 (c : Dev nD) : V4 m c main_v8_1 = (dat1 (V3 m) c).arrAt 3 cfg1.N := W4_arr m c 3

/-- A buffer that is no window's array of regions 0 and 1 and that the first two stretches do not write is still as
    launched. -/
theorem V4_keep (c : Dev nD) (r : Ref sig .tc) (h1 : ∀ w, Pipeline.arrRef spec1 w ≠ r) (h1' : r ∉ hostOps1_W)
    (h0 : ∀ w, Pipeline.arrRef spec0 w ≠ r) (h0' : r ∉ hostOps0_W) : V4 m c r = m ((c : Thread nD τ).loc r) :=
  (W4_of_ne m c r h1).trans ((V3_keep m c r h1').trans (V2_keep m c r h0 h0'))

theorem V4_arg5 (c : Dev nD) : V4 m c main_arg5 = m ((c : Thread nD τ).loc main_arg5) :=
  V4_keep m c main_arg5 (by decide) (by decide) (by decide) (by decide)
theorem V4_arg6 (c : Dev nD) : V4 m c main_arg6 = m ((c : Thread nD τ).loc main_arg6) :=
  V4_keep m c main_arg6 (by decide) (by decide) (by decide) (by decide)

/-! ## The third stretch: the variance row, scale and shift as rows -/

/-- A buffer the third stretch does not write keeps region 1's exit contents. -/
theorem V5_keep (c : Dev nD) (r : Ref sig .tc) (h : r ∉ hostOps2_W) : V5 m c r = V4 m c r :=
  StableHlo.after_of_writes_sub hostOps2 _ hostOps2_writes h

theorem V5_v6 (c : Dev nD) : V5 m c main_v6 = V3 m c main_v6 := (V5_keep m c main_v6 (by decide)).trans (V4_v6 m c)
theorem V5_v7 (c : Dev nD) : V5 m c main_v7 = V3 m c main_v7 := (V5_keep m c main_v7 (by decide)).trans (V4_v7 m c)
theorem V5_v8_0 (c : Dev nD) : V5 m c main_v8_0 = (dat1 (V3 m) c).arrAt 2 cfg1.N :=
  (V5_keep m c main_v8_0 (by decide)).trans (V4_v8_0 m c)

/-- The variance row: the summed squared deviations over the row count 150000. -/
theorem V5_v10 (c : Dev nD) : V5 m c main_v10 =
    Host.divf ((dat1 (V3 m) c).arrAt 3 cfg1.N) (broadcastInDim S1x64 ![] bcast_S_S1x64 (constant (F := F) S_ .f32 0x48127C00#32)) := by
  rw [← V4_v8_1 m c]
  show StableHlo.after hostOps2 (W4 m c) (Proc.devRef .tc main_v10) = _
  after_results

/-- Scale and shift as rows. -/
theorem V5_v11 (c : Dev nD) : V5 m c main_v11 = shapeCast S1x64 (m ((c : Thread nD τ).loc main_arg5)) shapeCasts_S64_S1x64 := by
  rw [← V4_arg5 m c]
  show StableHlo.after hostOps2 (W4 m c) (Proc.devRef .tc main_v11) = _
  after_results
  rfl
theorem V5_v12 (c : Dev nD) : V5 m c main_v12 = shapeCast S1x64 (m ((c : Thread nD τ).loc main_arg6)) shapeCasts_S64_S1x64 := by
  rw [← V4_arg6 m c]
  show StableHlo.after hostOps2 (W4 m c) (Proc.devRef .tc main_v12) = _
  after_results
  rfl

end Cert.KernelIdeal.Val

end
-- ==== Proof.KIValue0.lean ====
/-
  What region 0 leaves in its output array, and the reference's batched dot_general as the same function.

  Region 0 runs over a 27 x 2 grid: offset k in 0..26, half h in 0..1 of the 60000 gathered rows. At point (k, h) the
  body reads the 30000 x 32 block of rows (k, 30000·h .. 30000·h + 29999, ·) and the 32 x 64 weight of offset k, and
  stores a 30000 x 64 block. Its arithmetic splits each operand x into a high part (x itself: a change of float format
  is the identity on extended reals) and a low part x − x, and adds three matrix products into zero accumulators:
  high·high + high·low + low·high. For a finite x the low part x − x is 0, and 0 · y = y · 0 = 0 for every extended
  real y, so two of the three products are sums of zeros and the stored entry (p, o) is Σ_{c < 32} rows[p, c] · weight[c, o].

  The blocks of the 54 points tile the 27 x 60000 x 64 array (entry (k, r, o) lies in the block of point 2·k + r / 30000),
  so after the region the array holds, entry by entry, prod3: (k, r, o) ↦ Σ_{c < 32} rows[k, r, c] · weight[k, c, o].
  The reference's dot_general with batch axis 0 and contracted axes 2 and 1 is, at the extended reals, that same sum.
-/
import proofs.«408267_j28449863368848_3_alg».proof.Proof.KIDefs
import proofs.«408267_j28449863368848_3_alg».proof.ReferenceIdeal
import proofs.«408267_j28449863368848_3_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.ShloMosaic.ValueIdx
open Idealize.SL.Sem
open Idealize.ShloMosaic.Pipeline (Dat Cfg Window)

/-- the batched product: entry (k, p, o) is the sum over the 32 channels of row (k,p) times column (k,·,o) -/
def prod3 (g : S27x60000x32.Idx → EReal) (w : S27x32x64.Idx → EReal) : S27x60000x64.Idx → EReal :=
  fun i => ∑ k : Fin 32, g (ix3 (i 0) (i 1) k) * w (ix3 (i 0) k (i 2))

/-! ## One block's product at an entry -/

/-- The left operand's index of the block product: row from the output, column the contraction position. -/
theorem lhs_blk_0 (i : S30000x64.Idx) (q : dot_S30000x32_S32x64_S30000x64_1_0_0_1_n_n.contr.Idx) :
    (dot_S30000x32_S32x64_S30000x64_1_0_0_1_n_n.lhsIdx i q 0).val = (i 0).val := by
  unfold DotDims.lhsIdx
  rw [dif_neg (show ¬(0 : Fin S30000x32.rank) ∈ dot_S30000x32_S32x64_S30000x64_1_0_0_1_n_n.lhsBatch by decide),
    dif_pos (show (0 : Fin S30000x32.rank) ∈ dot_S30000x32_S32x64_S30000x64_1_0_0_1_n_n.lhsNonContracting by decide)]
  rfl
theorem lhs_blk_1 (i : S30000x64.Idx) (q : dot_S30000x32_S32x64_S30000x64_1_0_0_1_n_n.contr.Idx) :
    (dot_S30000x32_S32x64_S30000x64_1_0_0_1_n_n.lhsIdx i q 1).val = (q ⟨0, by decide⟩).val :=
  dot_S30000x32_S32x64_S30000x64_1_0_0_1_n_n.lhsIdx_val_of_single rfl i q
theorem rhs_blk_0 (i : S30000x64.Idx) (q : dot_S30000x32_S32x64_S30000x64_1_0_0_1_n_n.contr.Idx) :
    (dot_S30000x32_S32x64_S30000x64_1_0_0_1_n_n.rhsIdx i q 0).val = (q ⟨0, by decide⟩).val :=
  dot_S30000x32_S32x64_S30000x64_1_0_0_1_n_n.rhsIdx_val_of_single rfl i q
theorem rhs_blk_1 (i : S30000x64.Idx) (q : dot_S30000x32_S32x64_S30000x64_1_0_0_1_n_n.contr.Idx) :
    (dot_S30000x32_S32x64_S30000x64_1_0_0_1_n_n.rhsIdx i q 1).val = (i 1).val := by
  unfold DotDims.rhsIdx
  rw [dif_neg (show ¬(1 : Fin S32x64.rank) ∈ dot_S30000x32_S32x64_S30000x64_1_0_0_1_n_n.rhsBatch by decide),
    dif_pos (show (1 : Fin S32x64.rank) ∈ dot_S30000x32_S32x64_S30000x64_1_0_0_1_n_n.rhsNonContracting by decide)]
  rfl

/-- A block's matrix product into the zero accumulator, at entry (p, o): the sum over the 32 channels. -/
theorem mm_apply {φ₁ φ₂ : FTy} (A : FVec Ideal S30000x32 φ₁) (B : FVec Ideal S32x64 φ₂) (p : Fin 30000) (o : Fin 64) :
    matmul (F := Ideal) dot_S30000x32_S32x64_S30000x64_1_0_0_1_n_n none A B (constant (F := Ideal) S30000x64 .f32 0x00000000#32) (ix2 p o)
      = ∑ k : Fin 32, A (ix2 p k) * B (ix2 k o) := by
  show FloatOps.matmul _ none A B _ (ix2 p o) = _
  rw [Ideal.matmul_constant_zero_apply,
    ← Equiv.sum_comp (contrEquiv1 dot_S30000x32_S32x64_S30000x64_1_0_0_1_n_n 32 rfl rfl).symm]
  refine Finset.sum_congr rfl fun k _ => ?_
  have hk := contrEquiv1_symm_val dot_S30000x32_S32x64_S30000x64_1_0_0_1_n_n 32 rfl rfl k
  have el : dot_S30000x32_S32x64_S30000x64_1_0_0_1_n_n.lhsIdx (ix2 p o)
      ((contrEquiv1 dot_S30000x32_S32x64_S30000x64_1_0_0_1_n_n 32 rfl rfl).symm k) = ix2 p k := funext fun a => Fin.ext (by
    match a with
    | ⟨0, _⟩ => exact lhs_blk_0 _ _
    | ⟨1, _⟩ => exact (lhs_blk_1 _ _).trans hk)
  have er : dot_S30000x32_S32x64_S30000x64_1_0_0_1_n_n.rhsIdx (ix2 p o)
      ((contrEquiv1 dot_S30000x32_S32x64_S30000x64_1_0_0_1_n_n 32 rfl rfl).symm k) = ix2 k o := funext fun a => Fin.ext (by
    match a with
    | ⟨0, _⟩ => exact (rhs_blk_0 _ _).trans hk
    | ⟨1, _⟩ => exact rhs_blk_1 _ _)
  rw [el, er]

/-- A finite extended real less itself is zero. -/
theorem sub_self_of_real {x : EReal} (h : ∃ r : ℝ, x = (r : EReal)) : x - x = 0 := by
  obtain ⟨r, rfl⟩ := h
  rw [← EReal.coe_sub, sub_self, EReal.coe_zero]

/-- The body's stored block at entry (u, p, o), for finite rows and weights: the low parts of the split are
    zero, so two of the three products vanish and the third is the plain sum over the channels. -/
theorem pay_apply (x0 : Vec Ideal S1x30000x32 .f32) (x1 : Vec Ideal S1x32x64 .f32)
    (h0 : ∀ i, ∃ r : ℝ, x0 i = (r : EReal)) (h1 : ∀ i, ∃ r : ℝ, x1 i = (r : EReal))
    (u : Fin 1) (p : Fin 30000) (o : Fin 64) :
    k0_pay1 (F := Ideal) x0 x1 (ix3 u p o) = ∑ k : Fin 32, x0 (ix3 (0 : Fin 1) p k) * x1 (ix3 (0 : Fin 1) k o) := by
  unfold k0_pay1
  refine (shapeCast_ab_1ab_apply _ _ u p o).trans ?_
  refine (addf_apply _ _ _).trans ?_
  refine (congrArg₂ (· + ·) ((addf_apply _ _ _).trans (congrArg₂ (· + ·) (mm_apply _ _ p o) (mm_apply _ _ p o)))
    (mm_apply _ _ p o)).trans ?_
  have eg : ∀ k : Fin 32, shapeCast S30000x32 x0 shapeCasts_S1x30000x32_S30000x32 (ix2 p k) = x0 (ix3 (0 : Fin 1) p k) :=
    fun k => shapeCast_1ab_ab_apply _ _ p k
  have ew : ∀ k : Fin 32, shapeCast S32x64 x1 shapeCasts_S1x32x64_S32x64 (ix2 k o) = x1 (ix3 (0 : Fin 1) k o) :=
    fun k => shapeCast_1ab_ab_apply _ _ k o
  simp only [truncf_apply, subf_apply, eg, ew, sub_self_of_real (h0 _), sub_self_of_real (h1 _), mul_zero, zero_mul,
    Finset.sum_const_zero, add_zero]

/-! ## From the blocks to the array -/

variable (V : (c : Dev nD) → (b : Ref sig .tc) → Buf (Elt Ideal) ((c : Thread nD τ).loc b))

theorem zero3 : (![0, 0, 0] : Fin 3 → Nat) = fun _ => 0 := funext fun a => by fin_cases a <;> rfl

/-- The three windows' block indices at grid point t = 2·k + h (k the offset, h the half of the 60000 rows): rows and
    product move together at block (k, h, 0); the weight sits at block (k, 0, 0). -/
theorem blockIdx0 : ∀ t : Fin cfg0.N,
    win0_2.index t (0 : Fin 3) = t.val / 2 ∧ win0_2.index t (1 : Fin 3) = t.val % 2 ∧ win0_2.index t (2 : Fin 3) = 0
    ∧ win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0 :=
  (by decide +kernel : ∀ t : Fin grid0.N, _)

/-- One stored entry against one entry of the batched product: when the block of rows and the block of weights
    are the arrays' entries that the product's entry i reads, the body's entry j is the product's entry i. -/
theorem entry_eq (x0 : Vec Ideal S1x30000x32 .f32) (x1 : Vec Ideal S1x32x64 .f32)
    (h0 : ∀ i, ∃ r : ℝ, x0 i = (r : EReal)) (h1 : ∀ i, ∃ r : ℝ, x1 i = (r : EReal))
    (G : S27x60000x32.Idx → EReal) (W : S27x32x64.Idx → EReal) (j : S1x30000x64.Idx) (i : S27x60000x64.Idx)
    (hx0 : ∀ k : Fin 32, x0 (ix3 (0 : Fin 1) (j 1) k) = G (ix3 (i 0) (i 1) k))
    (hx1 : ∀ k : Fin 32, x1 (ix3 (0 : Fin 1) k (j 2)) = W (ix3 (i 0) k (i 2))) :
    k0_pay1 (F := Ideal) x0 x1 j = prod3 G W i := by
  rw [eq_ix3 j]
  refine (pay_apply x0 x1 h0 h1 (j 0) (j 1) (j 2)).trans ?_
  show _ = ∑ k : Fin 32, G (ix3 (i 0) (i 1) k) * W (ix3 (i 0) k (i 2))
  exact Finset.sum_congr rfl fun k _ => by rw [hx0 k, hx1 k]

/-- What grid point t writes back is its block of the batched product of the two arrays as the region finds them. -/
theorem flushed0_eq (c : Dev nD) (hg : ∀ i, ∃ r : ℝ, V c main_v0 i = (r : EReal)) (hw : ∀ i, ∃ r : ℝ, V c main_arg3 i = (r : EReal))
    (t : Fin cfg0.N) :
    (dat0 (F := Ideal) V c).flushed 2 t
      = ((cfg0.win 2).blk t).view.read (Elt Ideal) (prod3 (V c main_v0) (V c main_arg3)) := by
  show (cfg0.win 2).cut (grid0.coords t) ((dat0 (F := Ideal) V c).after 2 t) = _
  rw [after0_2]
  unfold out0_2
  rw [View.canon_unit_zero zero3]
  simp only [View.ld_unit_zero (S := S1x30000x32) zero3, View.ld_unit_zero (S := S1x32x64) zero3]
  obtain ⟨e0, e1, e2, e3, e4, e5, e6, e7, e8⟩ := blockIdx0 t
  funext j
  show k0_pay1 (F := Ideal) (iblk0 V c 0 t) (iblk0 V c 1 t) j = prod3 (V c main_v0) (V c main_arg3) (((cfg0.win 2).blk t).view.emb j)
  have hj0 : (j 0).val < 1 := (j 0).isLt
  have hj1 : (j 1).val < 30000 := (j 1).isLt
  have hj2 : (j 2).val < 64 := (j 2).isLt
  refine entry_eq (iblk0 V c 0 t) (iblk0 V c 1 t) (fun y => hg _) (fun y => hw _) (V c main_v0) (V c main_arg3) j _ ?_ ?_
  · intro k
    show V c main_v0 (((cfg0.win 0).blk t).view.emb (ix3 (0 : Fin 1) (j 1) k)) = V c main_v0 _
    refine congrArg (V c main_v0) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 30000 + 1 * (j 1).val = win0_2.index t (1 : Fin 3) * 30000 + 1 * (j 1).val; omega
    | ⟨2, _⟩ => show win0_0.index t (2 : Fin 3) * 32 + 1 * k.val = k.val; omega
  · intro k
    show V c main_arg3 (((cfg0.win 1).blk t).view.emb (ix3 (0 : Fin 1) k (j 2))) = V c main_arg3 _
    refine congrArg (V c main_arg3) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 32 + 1 * k.val = k.val; omega
    | ⟨2, _⟩ => show win0_1.index t (2 : Fin 3) * 64 + 1 * (j 2).val = win0_2.index t (2 : Fin 3) * 64 + 1 * (j 2).val; omega

/-- An index of the product array is in point t's block iff each coordinate is in the block's range on its axis. -/
theorem mem_blk0 (t : Fin cfg0.N) (i : S27x60000x64.Idx) :
    i ∈ ((cfg0.win 2).blk t).view.set ↔ ∀ a : Fin 3, win0_2.index t a * S1x30000x64.size a ≤ (i a).val ∧ (i a).val < win0_2.index t a * S1x30000x64.size a + S1x30000x64.size a := by
  show i ∈ ((View.whole main_v1).slice (win0_2.rect t)).set ↔ _
  rw [View.set_slice_whole, Rect.mem_set_unit]
  exact Iff.rfl

/-- Every entry (k, r, o) of the product array lies in the block of grid point 2·k + r / 30000. -/
theorem cover0 (i : S27x60000x64.Idx) : ∃ t : Fin cfg0.N, (cfg0.win 2).flush t = true ∧ i ∈ ((cfg0.win 2).blk t).view.set := by
  have hi0 : (i 0).val < 27 := (i 0).isLt
  have hi1 : (i 1).val < 60000 := (i 1).isLt
  have hi2 : (i 2).val < 64 := (i 2).isLt
  have hN : cfg0.N = 54 := N_0
  let t : Fin cfg0.N := ⟨2 * (i 0).val + (i 1).val / 30000, by rw [hN]; omega⟩
  have ht : t.val = 2 * (i 0).val + (i 1).val / 30000 := rfl
  obtain ⟨e0, e1, e2, -⟩ := blockIdx0 t
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 30000 ≤ (i 1).val ∧ (i 1).val < win0_2.index t (1 : Fin 3) * 30000 + 30000; omega
  | ⟨2, _⟩ => show win0_2.index t (2 : Fin 3) * 64 ≤ (i 2).val ∧ (i 2).val < win0_2.index t (2 : Fin 3) * 64 + 64; omega

/-- After region 0 the product array holds the batched product of the gathered rows and the weights. -/
theorem final0 (c : Dev nD) (hg : ∀ i, ∃ r : ℝ, V c main_v0 i = (r : EReal)) (hw : ∀ i, ∃ r : ℝ, V c main_arg3 i = (r : EReal)) :
    (dat0 (F := Ideal) V c).arrAt 2 cfg0.N = prod3 (V c main_v0) (V c main_arg3) :=
  (dat0 (F := Ideal) V c).arrAt_eq_of_cover 2 (prod3 (V c main_v0) (V c main_arg3)) (fun t _ => flushed0_eq V c hg hw t) cover0

/-! ## The reference's batched product -/

theorem lhs_ref_0 (i : Cert.ReferenceIdeal.S27x60000x64.Idx) (q : Cert.ReferenceIdeal.dot_S27x60000x32_S27x32x64_S27x60000x64_2_1_1_2_0_0.contr.Idx) :
    (Cert.ReferenceIdeal.dot_S27x60000x32_S27x32x64_S27x60000x64_2_1_1_2_0_0.lhsIdx i q 0).val = (i 0).val := by
  unfold DotDims.lhsIdx
  rw [dif_pos (show (0 : Fin Cert.ReferenceIdeal.S27x60000x32.rank) ∈ Cert.ReferenceIdeal.dot_S27x60000x32_S27x32x64_S27x60000x64_2_1_1_2_0_0.lhsBatch by decide)]
  rfl
theorem lhs_ref_1 (i : Cert.ReferenceIdeal.S27x60000x64.Idx) (q : Cert.ReferenceIdeal.dot_S27x60000x32_S27x32x64_S27x60000x64_2_1_1_2_0_0.contr.Idx) :
    (Cert.ReferenceIdeal.dot_S27x60000x32_S27x32x64_S27x60000x64_2_1_1_2_0_0.lhsIdx i q 1).val = (i 1).val := by
  unfold DotDims.lhsIdx
  rw [dif_neg (show ¬(1 : Fin Cert.ReferenceIdeal.S27x60000x32.rank) ∈ Cert.ReferenceIdeal.dot_S27x60000x32_S27x32x64_S27x60000x64_2_1_1_2_0_0.lhsBatch by decide),
    dif_pos (show (1 : Fin Cert.ReferenceIdeal.S27x60000x32.rank) ∈ Cert.ReferenceIdeal.dot_S27x60000x32_S27x32x64_S27x60000x64_2_1_1_2_0_0.lhsNonContracting by decide)]
  rfl
theorem lhs_ref_2 (i : Cert.ReferenceIdeal.S27x60000x64.Idx) (q : Cert.ReferenceIdeal.dot_S27x60000x32_S27x32x64_S27x60000x64_2_1_1_2_0_0.contr.Idx) :
    (Cert.ReferenceIdeal.dot_S27x60000x32_S27x32x64_S27x60000x64_2_1_1_2_0_0.lhsIdx i q 2).val = (q ⟨0, by decide⟩).val :=
  Cert.ReferenceIdeal.dot_S27x60000x32_S27x32x64_S27x60000x64_2_1_1_2_0_0.lhsIdx_val_of_single rfl i q
theorem rhs_ref_0 (i : Cert.ReferenceIdeal.S27x60000x64.Idx) (q : Cert.ReferenceIdeal.dot_S27x60000x32_S27x32x64_S27x60000x64_2_1_1_2_0_0.contr.Idx) :
    (Cert.ReferenceIdeal.dot_S27x60000x32_S27x32x64_S27x60000x64_2_1_1_2_0_0.rhsIdx i q 0).val = (i 0).val := by
  unfold DotDims.rhsIdx
  rw [dif_pos (show (0 : Fin Cert.ReferenceIdeal.S27x32x64.rank) ∈ Cert.ReferenceIdeal.dot_S27x60000x32_S27x32x64_S27x60000x64_2_1_1_2_0_0.rhsBatch by decide)]
  rfl
theorem rhs_ref_1 (i : Cert.ReferenceIdeal.S27x60000x64.Idx) (q : Cert.ReferenceIdeal.dot_S27x60000x32_S27x32x64_S27x60000x64_2_1_1_2_0_0.contr.Idx) :
    (Cert.ReferenceIdeal.dot_S27x60000x32_S27x32x64_S27x60000x64_2_1_1_2_0_0.rhsIdx i q 1).val = (q ⟨0, by decide⟩).val :=
  Cert.ReferenceIdeal.dot_S27x60000x32_S27x32x64_S27x60000x64_2_1_1_2_0_0.rhsIdx_val_of_single rfl i q
theorem rhs_ref_2 (i : Cert.ReferenceIdeal.S27x60000x64.Idx) (q : Cert.ReferenceIdeal.dot_S27x60000x32_S27x32x64_S27x60000x64_2_1_1_2_0_0.contr.Idx) :
    (Cert.ReferenceIdeal.dot_S27x60000x32_S27x32x64_S27x60000x64_2_1_1_2_0_0.rhsIdx i q 2).val = (i 2).val := by
  unfold DotDims.rhsIdx
  rw [dif_neg (show ¬(2 : Fin Cert.ReferenceIdeal.S27x32x64.rank) ∈ Cert.ReferenceIdeal.dot_S27x60000x32_S27x32x64_S27x60000x64_2_1_1_2_0_0.rhsBatch by decide),
    dif_pos (show (2 : Fin Cert.ReferenceIdeal.S27x32x64.rank) ∈ Cert.ReferenceIdeal.dot_S27x60000x32_S27x32x64_S27x60000x64_2_1_1_2_0_0.rhsNonContracting by decide)]
  rfl

/-- the reference's batched dot_general is the same sum -/
theorem ref_dot (g : S27x60000x32.Idx → EReal) (w : S27x32x64.Idx → EReal) :
    Host.dotGeneral (F := Ideal) (φ₁ := .f32) (φ₂ := .f32) Cert.ReferenceIdeal.dot_S27x60000x32_S27x32x64_S27x60000x64_2_1_1_2_0_0 none g w = prod3 g w := by
  funext i
  show FloatOps.dotGeneral (F := Ideal) (φ₁ := .f32) (φ₂ := .f32) _ none _ g w i = _
  rw [Ideal.dotGeneral_apply,
    ← Equiv.sum_comp (contrEquiv1 Cert.ReferenceIdeal.dot_S27x60000x32_S27x32x64_S27x60000x64_2_1_1_2_0_0 32 rfl rfl).symm]
  refine Finset.sum_congr rfl fun k _ => ?_
  have hk := contrEquiv1_symm_val Cert.ReferenceIdeal.dot_S27x60000x32_S27x32x64_S27x60000x64_2_1_1_2_0_0 32 rfl rfl k
  have el : Cert.ReferenceIdeal.dot_S27x60000x32_S27x32x64_S27x60000x64_2_1_1_2_0_0.lhsIdx i
      ((contrEquiv1 Cert.ReferenceIdeal.dot_S27x60000x32_S27x32x64_S27x60000x64_2_1_1_2_0_0 32 rfl rfl).symm k) = ix3 (i 0) (i 1) k := funext fun a => Fin.ext (by
    match a with
    | ⟨0, _⟩ => exact lhs_ref_0 _ _
    | ⟨1, _⟩ => exact lhs_ref_1 _ _
    | ⟨2, _⟩ => exact (lhs_ref_2 _ _).trans hk)
  have er : Cert.ReferenceIdeal.dot_S27x60000x32_S27x32x64_S27x60000x64_2_1_1_2_0_0.rhsIdx i
      ((contrEquiv1 Cert.ReferenceIdeal.dot_S27x60000x32_S27x32x64_S27x60000x64_2_1_1_2_0_0 32 rfl rfl).symm k) = ix3 (i 0) k (i 2) := funext fun a => Fin.ext (by
    match a with
    | ⟨0, _⟩ => exact rhs_ref_0 _ _
    | ⟨1, _⟩ => exact (rhs_ref_1 _ _).trans hk
    | ⟨2, _⟩ => exact rhs_ref_2 _ _)
  rw [el, er]
  rfl

end Cert.KernelIdeal.Val

end
-- ==== Proof.PreFacts.lean ====
/-
  The printed precondition, read back at the extended reals: every floating input entry is a real number and every
  entry of the first index table lies in [0, 150000). Then the bounds-checked row take, over variables: under that
  range the negative-index wrap is the identity and the validity mask is all ones, so the select returns the gathered rows.
-/
import proofs.«408267_j28449863368848_3_alg».proof.Pre_finite_inputs
import proofs.«408267_j28449863368848_3_alg».proof.Proof.Gen.Pre_finite_inputs
import proofs.«408267_j28449863368848_3_alg».proof.KernelIdeal
import proofs.«408267_j28449863368848_3_alg».proof.Proof.Gen.KernelIdeal
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic

/-- every entry is a real number -/
def Fin' {S : Shape} (x : FVec Ideal S .f32) : Prop := ∀ i, ∃ r : ℝ, x i = (r : EReal)

/-- The pattern 0x7F800000 is +∞. -/
theorem inf_bits : Ideal.ofBits .f32 0x7F800000#32 = (⊤ : EReal) := by simp [Ideal.ofBits, Ideal.ieee]

/-- An extended real whose absolute value max x (−x) is below +∞ is a real number. -/
theorem real_of_abs_lt (x : EReal) (h : Ideal.cmp .olt (max x (-x)) (⊤ : EReal) = 1#1) : ∃ r : ℝ, x = (r : EReal) := by
  simp only [Ideal.cmp, StableHlo.Predicate.ofBool_eq_one_iff, decide_eq_true_eq] at h
  induction x using EReal.rec with
  | bot => simp at h
  | coe r => exact ⟨r, rfl⟩
  | top => simp at h

/-- "|x| < +∞ at every entry", as the precondition prints it over a scalar constant broadcast to the shape. -/
theorem fin_of_all {S : Shape} (x : FVec Ideal S .f32) (hb : (⟨0, ![]⟩ : Shape).BroadcastsInDim S (![] : Fin 0 → Fin S.rank))
    (hall : ∀ i, cmpf .olt (Host.absf x) (broadcastInDim S ![] hb (constant (F := Ideal) (⟨0, ![]⟩ : Shape) .f32 0x7F800000#32)) i = 1#1) : Fin' x := by
  intro i
  have e : Ideal.cmp .olt (max (x i) (-(x i))) (Ideal.ofBits .f32 0x7F800000#32) = 1#1 := hall i
  rw [inf_bits] at e
  exact real_of_abs_lt (x i) e

section Decode
open Cert.Pre_finite_inputs

/-- The scalar shape has one index. -/
instance scalarIdxSubsingleton : Subsingleton S_.Idx := ⟨fun a b => funext fun d => d.elim0⟩

theorem of_pre (x0 : FVec Ideal S150000x32 .f32) (i1 i2 : IVec S27x60000 32) (w : FVec Ideal S27x32x64 .f32) (b g be : FVec Ideal S64 .f32)
    (h : Cert.Pre_finite_inputs.fn (F := Ideal) x0 i1 i2 w b g be = fun _ => 1#1) :
    Fin' x0 ∧ Fin' w ∧ Fin' b ∧ Fin' g ∧ Fin' be ∧ (∀ j : S27x60000.Idx, (0 : Int) ≤ (i1 j).toInt ∧ (i1 j).toInt < 150000) := by
  have e := congrFun h ValueIdx.ix0
  dsimp only [Cert.Pre_finite_inputs.fn, Cert.Pre_finite_inputs.fn_part1, andi] at e
  simp only [IntOp.andi_eq_one] at e
  obtain ⟨⟨⟨⟨⟨⟨h0, h3⟩, h4⟩, h5⟩, h6⟩, hge⟩, hlt⟩ := e
  refine ⟨fin_of_all x0 _ (Host.reduce_andi_all _ _ _ _ _ h0), fin_of_all w _ (Host.reduce_andi_all _ _ _ _ _ h3),
    fin_of_all b _ (Host.reduce_andi_all _ _ _ _ _ h4), fin_of_all g _ (Host.reduce_andi_all _ _ _ _ _ h5),
    fin_of_all be _ (Host.reduce_andi_all _ _ _ _ _ h6), fun j => ⟨?_, ?_⟩⟩
  · have e0 : IntOp.cmpi .sge (i1 j) 0#32 = 1#1 := Host.reduce_andi_all _ _ _ _ _ hge j
    have := IntOp.cmpi_sge.1 e0
    rwa [show (0#32 : BitVec 32).toInt = 0 from by decide] at this
  · have e1 : IntOp.cmpi .slt (i1 j) 150000#32 = 1#1 := Host.reduce_andi_all _ _ _ _ _ hlt j
    have := IntOp.cmpi_slt.1 e1
    rwa [show (150000#32 : BitVec 32).toInt = 150000 from by decide] at this

end Decode

end Cert.PreFacts

namespace Cert.PreFacts.Take

open Idealize.ShloMosaic
open Cert.KernelIdeal Cert.KernelIdeal.Facts₀

/-- A select whose mask is all ones returns its first operand. -/
theorem select_ones {α : Type} {S : Shape} (a b : S.Idx → α) : select (fun _ => 1#1) a b = a := by
  funext i
  exact ValueIdx.select_one (a i) (b i)

/-- A left fold by "and" from 1 over words that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self, show IntOp.andi 1#1 1#1 = (1#1 : BitVec 1) from by decide]
    exact ih (fun n hn => hf n (List.mem_cons_of_mem _ hn))

/-- A reduction by "and", from the constant 1, of an array of ones is 1 at every result index. -/
theorem reduce_andi_ones {s t u : Shape} {axes : List (Fin s.rank)} (x : s.Idx → BitVec 1) (h : s.ReducesTo axes t)
    (hu : 0 < u.numel) (hx : ∀ i, x i = 1#1) (j : t.Idx) : Host.reduce IntOp.andi x (constantI u 1 1#1) h hu j = 1#1 := by
  rw [Host.reduce_eq_foldl]
  exact foldl_andi_ones x _ (fun n _ => hx n)

/-- Under 0 ≤ i the negative-index wrap "i < 0 ? i + 150000 : i" is i. -/
theorem wrap_id (i1 : IVec S27x60000 32) (hr : ∀ j, (0 : Int) ≤ (i1 j).toInt ∧ (i1 j).toInt < 150000) :
    select (cmpi .slt i1 (broadcastInDim S27x60000 ![] bcast_S_S27x60000 (constantI S_ 32 0#32)))
      (addi i1 (broadcastInDim S27x60000 ![] bcast_S_S27x60000 (constantI S_ 32 150000#32))) i1 = i1 := by
  funext j
  have hn : ¬ IntOp.cmpi .slt (i1 j) 0#32 = 1#1 := by
    rw [IntOp.cmpi_slt, show (0#32 : BitVec 32).toInt = 0 from by decide]
    have := (hr j).1
    omega
  show Scalar.select (IntOp.cmpi .slt (i1 j) 0#32) _ (i1 j) = i1 j
  exact if_neg hn

/-- Under 0 ≤ idx ≤ 149999 at every entry, the validity mask of the row take is all ones. -/
theorem take_mask_ones (v5 : IVec S27x60000x1 32) (hr : ∀ j, (0 : Int) ≤ (v5 j).toInt ∧ (v5 j).toInt ≤ 149999) :
    broadcastInDim S27x60000x32 ![0, 1] bcast_S27x60000_S27x60000x32_0_1
      (Host.reduce IntOp.andi
        (andi (cmpi .sge v5 (broadcastInDim S27x60000x1 ![] bcast_S_S27x60000x1 (constantI S_ 32 0#32)))
          (cmpi .sle v5 (broadcastInDim S27x60000x1 ![0, 1, 2] bcast_S1x1x1_S27x60000x1_0_1_2
            (broadcastInDim S1x1x1 ![2] bcast_S1_S1x1x1_2 (constantI S1 32 149999#32)))))
        (constantI S_ 1 1#1) reducesTo_S27x60000x1_S27x60000_d2 h_S_) = fun _ => 1#1 := by
  funext k
  refine reduce_andi_ones _ _ _ (fun i => ?_) _
  have h0 : IntOp.cmpi .sge (v5 i) 0#32 = 1#1 := by
    rw [IntOp.cmpi_sge, show (0#32 : BitVec 32).toInt = 0 from by decide]; exact (hr i).1
  have h1 : IntOp.cmpi .sle (v5 i) 149999#32 = 1#1 := by
    rw [IntOp.cmpi_sle, show (149999#32 : BitVec 32).toInt = 149999 from by decide]; exact (hr i).2
  exact IntOp.andi_eq_one.2 ⟨h0, h1⟩

/-- The bounds-checked row take as a whole, under the index range: the validity select falls away and the wrap is the
    identity, leaving the gathered rows at the indices themselves (with their trailing unit axis). -/
theorem take_eq {F : FTy → Type} [FloatOps F] (x0 : FVec F S150000x32 .f32) (i1 : IVec S27x60000 32)
    (hr : ∀ j, (0 : Int) ≤ (i1 j).toInt ∧ (i1 j).toInt < 150000) :
    select
      (broadcastInDim S27x60000x32 ![0, 1] bcast_S27x60000_S27x60000x32_0_1
        (Host.reduce IntOp.andi
          (andi
            (cmpi .sge
              (broadcastInDim S27x60000x1 ![0, 1] bcast_S27x60000_S27x60000x1_0_1
                (select (cmpi .slt i1 (broadcastInDim S27x60000 ![] bcast_S_S27x60000 (constantI S_ 32 0#32)))
                  (addi i1 (broadcastInDim S27x60000 ![] bcast_S_S27x60000 (constantI S_ 32 150000#32))) i1))
              (broadcastInDim S27x60000x1 ![] bcast_S_S27x60000x1 (constantI S_ 32 0#32)))
            (cmpi .sle
              (broadcastInDim S27x60000x1 ![0, 1] bcast_S27x60000_S27x60000x1_0_1
                (select (cmpi .slt i1 (broadcastInDim S27x60000 ![] bcast_S_S27x60000 (constantI S_ 32 0#32)))
                  (addi i1 (broadcastInDim S27x60000 ![] bcast_S_S27x60000 (constantI S_ 32 150000#32))) i1))
              (broadcastInDim S27x60000x1 ![0, 1, 2] bcast_S1x1x1_S27x60000x1_0_1_2
                (broadcastInDim S1x1x1 ![2] bcast_S1_S1x1x1_2 (constantI S1 32 149999#32)))))
          (constantI S_ 1 1#1) reducesTo_S27x60000x1_S27x60000_d2 h_S_))
      (Host.gather gather_S150000x32_S27x60000x1_S27x60000x32_2_0_n_n_0_2_132 x0
        (broadcastInDim S27x60000x1 ![0, 1] bcast_S27x60000_S27x60000x1_0_1
          (select (cmpi .slt i1 (broadcastInDim S27x60000 ![] bcast_S_S27x60000 (constantI S_ 32 0#32)))
            (addi i1 (broadcastInDim S27x60000 ![] bcast_S_S27x60000 (constantI S_ 32 150000#32))) i1)))
      (broadcastInDim S27x60000x32 ![] bcast_S_S27x60000x32 (constant (F := F) S_ .f32 0x7FC00000#32))
    = Host.gather gather_S150000x32_S27x60000x1_S27x60000x32_2_0_n_n_0_2_132 x0
        (broadcastInDim S27x60000x1 ![0, 1] bcast_S27x60000_S27x60000x1_0_1 i1) := by
  have h5 : ∀ j, (0 : Int) ≤ ((broadcastInDim S27x60000x1 ![0, 1] bcast_S27x60000_S27x60000x1_0_1 i1) j).toInt
      ∧ ((broadcastInDim S27x60000x1 ![0, 1] bcast_S27x60000_S27x60000x1_0_1 i1) j).toInt ≤ 149999 := by
    intro j
    obtain ⟨a, b⟩ : (0 : Int) ≤ ((broadcastInDim S27x60000x1 ![0, 1] bcast_S27x60000_S27x60000x1_0_1 i1) j).toInt
      ∧ ((broadcastInDim S27x60000x1 ![0, 1] bcast_S27x60000_S27x60000x1_0_1 i1) j).toInt < 150000 := hr _
    exact ⟨a, by omega⟩
  rw [wrap_id i1 hr, take_mask_ones _ h5, select_ones]

end Cert.PreFacts.Take

/-! ## What the theorems rest on: the three standard principles, nothing else -/

/-- info: 'Cert.PreFacts.of_pre' depends on axioms: [propext, Classical.choice, Quot.sound] -/
#guard_msgs (whitespace := lax) in #print axioms Cert.PreFacts.of_pre

/-- info: 'Cert.PreFacts.Take.wrap_id' depends on axioms: [propext, Classical.choice, Quot.sound] -/
#guard_msgs (whitespace := lax) in #print axioms Cert.PreFacts.Take.wrap_id

/-- info: 'Cert.PreFacts.Take.take_mask_ones' depends on axioms: [propext, Classical.choice, Quot.sound] -/
#guard_msgs (whitespace := lax) in #print axioms Cert.PreFacts.Take.take_mask_ones

/-- info: 'Cert.PreFacts.Take.take_eq' depends on axioms: [propext, Classical.choice, Quot.sound] -/
#guard_msgs (whitespace := lax) in #print axioms Cert.PreFacts.Take.take_eq

end
-- ==== Proof.Finite.lean ====
/-
  Being a real number is kept by the operations the two programs apply: a finite sum, a product, a sum, a
  difference of reals, and the larger of a real and zero, are reals again.
-/
import Mathlib.Data.EReal.Operations
import Mathlib.Algebra.BigOperators.Group.Finset.Basic

namespace Cert.Finite

open scoped BigOperators

/-- an extended real that is a real number -/
def IsReal (x : EReal) : Prop := ∃ r : ℝ, x = (r : EReal)

theorem isReal_coe (r : ℝ) : IsReal (r : EReal) := ⟨r, rfl⟩
theorem isReal_zero : IsReal (0 : EReal) := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_max_zero {x : EReal} (hx : IsReal x) : IsReal (max x 0) := by
  obtain ⟨a, rfl⟩ := hx
  rcases le_total ((a : ℝ) : EReal) 0 with h | h
  · rw [max_eq_right h]; exact isReal_zero
  · rw [max_eq_left h]; exact ⟨a, rfl⟩

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

end Cert.Finite
-- ==== Proof.StatsSpec.lean ====
/-
  The batch statistics both programs compute, as plain functions on the extended reals over explicit coordinates:
  the activation (the larger of sum plus bias and zero), a column's mean over the 150000 rows, and a column's sum of
  squared deviations from that mean. Also the cut of the 150000 rows into 25 tiles of 6000 consecutive rows.
-/
import Idealize.ShloMosaic.PureOps.Ideal

noncomputable section

namespace Cert.Stats

open Idealize.ShloMosaic
open scoped BigOperators

/-- The activation at row i, column j: the larger of the sum plus the column's bias and zero. -/
def actAt (s : Fin 150000 → Fin 64 → EReal) (b : Fin 64 → EReal) (i : Fin 150000) (j : Fin 64) : EReal :=
  max (s i j + b j) 0

/-- A column's mean over the rows: the column's sum divided by the number of rows. -/
def meanAt (a : Fin 150000 → Fin 64 → EReal) (j : Fin 64) : EReal :=
  Ideal.div (∑ i : Fin 150000, a i j) ((150000 : ℝ) : EReal)

/-- A column's sum of squared deviations from its mean. -/
def m2At (a : Fin 150000 → Fin 64 → EReal) (j : Fin 64) : EReal :=
  ∑ i : Fin 150000, (a i j - meanAt a j) * (a i j - meanAt a j)

/-- Tile k of a column of 150000 entries: its entries 6000 k … 6000 k + 5999 (zero past the column's end). -/
def tiles (f : Fin 150000 → EReal) : ℕ → Fin 6000 → EReal :=
  fun k r => if h : 6000 * k + r.val < 150000 then f ⟨6000 * k + r.val, h⟩ else 0

end Cert.Stats

end
-- ==== Proof.RefStats.lean ====
/-
  The reference's statistics stages, read at an index on the extended reals: the activation (sum plus broadcast bias, then
  the maximum with zero), the column means (column sums from zero divided by 150000), and the variance routine (its own
  mean as a one-row matrix, the deviations, their squares, the column sums, the quotient by 150000 − 0, and the select on
  that divisor being positive), each equal to the closed form over explicit coordinates. Last, the accumulating scatter
  from a zero array of real updates has only real entries.
-/
import proofs.«408267_j28449863368848_3_alg».proof.ReferenceIdeal
import proofs.«408267_j28449863368848_3_alg».proof.Proof.Gen.ReferenceIdeal
import proofs.«408267_j28449863368848_3_alg».proof.Proof.StatsSpec
import proofs.«408267_j28449863368848_3_alg».proof.Proof.RefRun
import Idealize.ShloMosaic.PureOps.Ideal.Laws
import Idealize.ShloMosaic.Lib.ValueIdx
import Idealize.ShloMosaic.Lib.IdealHost
import Idealize.ShloMosaic.Lib.Pipeline.Value

noncomputable section

namespace Cert.RefStats

open Idealize.ShloMosaic
open Cert.ReferenceIdeal Cert.ReferenceIdeal.Facts₀
open scoped BigOperators

/-! ## Constants and broadcasts at an index -/

/-- The pattern 0x48127C00 is the real number 150000. -/
theorem ofBits_150000 : Ideal.ofBits .f32 0x48127C00#32 = ((150000 : ℝ) : EReal) := by
  simp [Ideal.ofBits, Ideal.ieee, -EReal.coe_mul]; norm_num

/-- A one-row matrix broadcast down the 150000 rows reads, at (i, j), the row at (0, j). -/
theorem bcast_of_row {α : Type} (h₂ : S1x64.BroadcastsInDim S150000x64 ![0, 1]) (v : S1x64.Idx → α) (i : Fin 150000) (j : Fin 64) :
    broadcastInDim S150000x64 ![0, 1] h₂ v (ValueIdx.ix2 i j) = v (ValueIdx.ix2 (0 : Fin 1) j) :=
  broadcastInDim_apply ![0, 1] h₂ v _ (ValueIdx.ix2 (0 : Fin 1) j) (fun a => match a with | ⟨0, _⟩ => rfl | ⟨1, _⟩ => rfl)

/-- A vector of 64 entries as a one-row matrix reads, at (0, j), the vector at j. -/
theorem bcast_to_row {α : Type} (h₁ : S64.BroadcastsInDim S1x64 ![1]) (v : S64.Idx → α) (j : Fin 64) :
    broadcastInDim S1x64 ![1] h₁ v (ValueIdx.ix2 (0 : Fin 1) j) = v (ValueIdx.ix1 j) :=
  broadcastInDim_apply ![1] h₁ v _ (ValueIdx.ix1 j) (fun a => match a with | ⟨0, _⟩ => rfl)

/-- The two together: a vector laid along the columns of the rectangle reads, at (i, j), the vector at j. -/
theorem bcast_row_pair {α : Type} (h₁ : S64.BroadcastsInDim S1x64 ![1]) (h₂ : S1x64.BroadcastsInDim S150000x64 ![0, 1])
    (v : S64.Idx → α) (i : Fin 150000) (j : Fin 64) :
    broadcastInDim S150000x64 ![0, 1] h₂ (broadcastInDim S1x64 ![1] h₁ v) (ValueIdx.ix2 i j) = v (ValueIdx.ix1 j) :=
  (bcast_of_row h₂ _ i j).trans (bcast_to_row h₁ v j)

/-! ## The activation -/

/-- The sum plus the broadcast bias, then the maximum with a zero broadcast, at an entry. -/
theorem act_of (summed : FVec Ideal S150000x64 .f32) (bias : FVec Ideal S64 .f32) (i : Fin 150000) (j : Fin 64) :
    maximumf
      (addf summed (broadcastInDim S150000x64 ![0, 1] bcast_S1x64_S150000x64_0_1 (broadcastInDim S1x64 ![1] bcast_S64_S1x64_1 bias)))
      (broadcastInDim S150000x64 ![] bcast_S_S150000x64 (constant (F := Ideal) S_ .f32 0x00000000#32)) (ValueIdx.ix2 i j)
    = Cert.Stats.actAt (fun i j => summed (ValueIdx.ix2 i j)) (fun j => bias (ValueIdx.ix1 j)) i j := by
  show max (summed (ValueIdx.ix2 i j)
      + broadcastInDim S150000x64 ![0, 1] bcast_S1x64_S150000x64_0_1 (broadcastInDim S1x64 ![1] bcast_S64_S1x64_1 bias) (ValueIdx.ix2 i j))
    (Ideal.ofBits .f32 0x00000000#32) = _
  rw [bcast_row_pair, Ideal.ofBits_zero_f32]
  rfl

/-! ## Column sums and the mean -/

/-- The column sum over the 150000 rows, from zero, at column j. -/
theorem colsum (a : FVec Ideal S150000x64 .f32) (j : Fin 64) :
    Host.reduceAdd a (constant (F := Ideal) S_ .f32 0x00000000#32) reducesTo_S150000x64_S64_d0 h_S_ (ValueIdx.ix1 j)
      = ∑ i : Fin 150000, a (ValueIdx.ix2 i j) := by
  have hR : S150000x64.Reduces [0] S64 := by decide
  show Ideal.hostReduceAdd reducesTo_S150000x64_S64_d0 a (Ideal.ofBits .f32 0x00000000#32) (ValueIdx.ix1 j) = _
  rw [Ideal.hostReduceAdd_single reducesTo_S150000x64_S64_d0 hR, Ideal.ofBits_zero_f32, zero_add]
  refine Finset.sum_congr rfl (fun k _ => congrArg a ?_)
  funext b
  match b with
  | ⟨0, _⟩ => exact Fin.ext rfl
  | ⟨1, _⟩ => exact Fin.ext rfl

/-- The column sums divided by the broadcast 150000. -/
theorem mean_of (a : FVec Ideal S150000x64 .f32) (j : Fin 64) :
    Host.divf (Host.reduceAdd a (constant (F := Ideal) S_ .f32 0x00000000#32) reducesTo_S150000x64_S64_d0 h_S_)
      (broadcastInDim S64 ![] bcast_S_S64 (constant (F := Ideal) S_ .f32 0x48127C00#32)) (ValueIdx.ix1 j)
    = Cert.Stats.meanAt (fun i j => a (ValueIdx.ix2 i j)) j := by
  show Ideal.div (Host.reduceAdd a (constant (F := Ideal) S_ .f32 0x00000000#32) reducesTo_S150000x64_S64_d0 h_S_ (ValueIdx.ix1 j))
    (Ideal.ofBits .f32 0x48127C00#32) = _
  rw [colsum, ofBits_150000]
  rfl

/-! ## The variance routine -/

/-- Its mean, kept as a one-row matrix, at (0, j). -/
theorem mean_row (a : FVec Ideal S150000x64 .f32) (j : Fin 64) :
    (Host.divf (broadcastInDim S1x64 ![1] bcast_S64_S1x64_1 (Host.reduceAdd a (constant (F := Ideal) S_ .f32 0x00000000#32) reducesTo_S150000x64_S64_d0 h_S_))
                (broadcastInDim S1x64 ![] bcast_S_S1x64 (constant (F := Ideal) S_ .f32 0x48127C00#32))) (ValueIdx.ix2 (0 : Fin 1) j)
    = Cert.Stats.meanAt (fun i j => a (ValueIdx.ix2 i j)) j := by
  show Ideal.div (broadcastInDim S1x64 ![1] bcast_S64_S1x64_1
      (Host.reduceAdd a (constant (F := Ideal) S_ .f32 0x00000000#32) reducesTo_S150000x64_S64_d0 h_S_) (ValueIdx.ix2 (0 : Fin 1) j))
    (Ideal.ofBits .f32 0x48127C00#32) = _
  rw [bcast_to_row, colsum, ofBits_150000]
  rfl

/-- The deviation from that mean at (i, j). -/
theorem dev_at (a : FVec Ideal S150000x64 .f32) (i : Fin 150000) (j : Fin 64) :
    (subf a (broadcastInDim S150000x64 ![0, 1] bcast_S1x64_S150000x64_0_1
              (Host.divf (broadcastInDim S1x64 ![1] bcast_S64_S1x64_1 (Host.reduceAdd a (constant (F := Ideal) S_ .f32 0x00000000#32) reducesTo_S150000x64_S64_d0 h_S_))
                (broadcastInDim S1x64 ![] bcast_S_S1x64 (constant (F := Ideal) S_ .f32 0x48127C00#32))))) (ValueIdx.ix2 i j)
    = a (ValueIdx.ix2 i j) - Cert.Stats.meanAt (fun i j => a (ValueIdx.ix2 i j)) j := by
  show a (ValueIdx.ix2 i j) - broadcastInDim S150000x64 ![0, 1] bcast_S1x64_S150000x64_0_1
      (Host.divf (broadcastInDim S1x64 ![1] bcast_S64_S1x64_1 (Host.reduceAdd a (constant (F := Ideal) S_ .f32 0x00000000#32) reducesTo_S150000x64_S64_d0 h_S_))
                (broadcastInDim S1x64 ![] bcast_S_S1x64 (constant (F := Ideal) S_ .f32 0x48127C00#32))) (ValueIdx.ix2 i j) = _
  rw [bcast_of_row, mean_row]

/-- The divisor 150000 − (the integer 0 as a real) is 150000. -/
theorem denom (k : S_.Idx) : (subf (constant (F := Ideal) S_ .f32 0x48127C00#32) (sitofp (F := Ideal) .f32 (constantI S_ 32 0#32))) k = ((150000 : ℝ) : EReal) := by
  show Ideal.ofBits .f32 0x48127C00#32 - (((0#32 : BitVec 32).toInt : ℝ) : EReal) = _
  rw [ofBits_150000]
  simp

/-- That divisor is positive: the comparison against zero gives 1. -/
theorem pos_mask (k : S_.Idx) : cmpf .ogt (subf (constant (F := Ideal) S_ .f32 0x48127C00#32) (sitofp (F := Ideal) .f32 (constantI S_ 32 0#32))) (constant (F := Ideal) S_ .f32 0x00000000#32) k = 1#1 := by
  show Ideal.cmp .ogt ((subf (constant (F := Ideal) S_ .f32 0x48127C00#32) (sitofp (F := Ideal) .f32 (constantI S_ 32 0#32))) k) (Ideal.ofBits .f32 0x00000000#32) = 1#1
  rw [denom, Ideal.ofBits_zero_f32]
  have h : (0 : EReal) < ((150000 : ℝ) : EReal) := EReal.coe_pos.2 (by norm_num)
  simp only [Ideal.cmp, h, decide_true]
  rfl

/-- The variance routine's result at column j: the sum of squared deviations divided by 150000. -/
theorem var_of (a : FVec Ideal S150000x64 .f32) (j : Fin 64) :
    select
      (broadcastInDim S64 ![] bcast_S_S64
        (cmpf .ogt (subf (constant (F := Ideal) S_ .f32 0x48127C00#32) (sitofp (F := Ideal) .f32 (constantI S_ 32 0#32))) (constant (F := Ideal) S_ .f32 0x00000000#32)))
      (Host.divf
        (Host.reduceAdd
          (mulf
            (subf a (broadcastInDim S150000x64 ![0, 1] bcast_S1x64_S150000x64_0_1
              (Host.divf (broadcastInDim S1x64 ![1] bcast_S64_S1x64_1 (Host.reduceAdd a (constant (F := Ideal) S_ .f32 0x00000000#32) reducesTo_S150000x64_S64_d0 h_S_))
                (broadcastInDim S1x64 ![] bcast_S_S1x64 (constant (F := Ideal) S_ .f32 0x48127C00#32)))))
            (subf a (broadcastInDim S150000x64 ![0, 1] bcast_S1x64_S150000x64_0_1
              (Host.divf (broadcastInDim S1x64 ![1] bcast_S64_S1x64_1 (Host.reduceAdd a (constant (F := Ideal) S_ .f32 0x00000000#32) reducesTo_S150000x64_S64_d0 h_S_))
                (broadcastInDim S1x64 ![] bcast_S_S1x64 (constant (F := Ideal) S_ .f32 0x48127C00#32))))))
          (constant (F := Ideal) S_ .f32 0x00000000#32) reducesTo_S150000x64_S64_d0 h_S_)
        (broadcastInDim S64 ![] bcast_S_S64 (subf (constant (F := Ideal) S_ .f32 0x48127C00#32) (sitofp (F := Ideal) .f32 (constantI S_ 32 0#32)))))
      (broadcastInDim S64 ![] bcast_S_S64 (id (constant (F := Ideal) S_ .f32 0x7FC00000#32)))
      (ValueIdx.ix1 j)
    = Ideal.div (Cert.Stats.m2At (fun i j => a (ValueIdx.ix2 i j)) j) ((150000 : ℝ) : EReal) := by
  rw [ValueIdx.select_apply, ValueIdx.broadcastInDim_scalar_apply, pos_mask, ValueIdx.select_one, ValueIdx.hostDivf_apply,
    ValueIdx.broadcastInDim_scalar_apply, denom, colsum]
  refine congrArg (fun t => Ideal.div t ((150000 : ℝ) : EReal)) ?_
  unfold Cert.Stats.m2At
  refine Finset.sum_congr rfl (fun i _ => ?_)
  show (subf a (broadcastInDim S150000x64 ![0, 1] bcast_S1x64_S150000x64_0_1
              (Host.divf (broadcastInDim S1x64 ![1] bcast_S64_S1x64_1 (Host.reduceAdd a (constant (F := Ideal) S_ .f32 0x00000000#32) reducesTo_S150000x64_S64_d0 h_S_))
                (broadcastInDim S1x64 ![] bcast_S_S1x64 (constant (F := Ideal) S_ .f32 0x48127C00#32))))) (ValueIdx.ix2 i j) * (subf a (broadcastInDim S150000x64 ![0, 1] bcast_S1x64_S150000x64_0_1
              (Host.divf (broadcastInDim S1x64 ![1] bcast_S64_S1x64_1 (Host.reduceAdd a (constant (F := Ideal) S_ .f32 0x00000000#32) reducesTo_S150000x64_S64_d0 h_S_))
                (broadcastInDim S1x64 ![] bcast_S_S1x64 (constant (F := Ideal) S_ .f32 0x48127C00#32))))) (ValueIdx.ix2 i j) = _
  rw [dev_at]

/-! ## The accumulating scatter keeps real entries real -/

/-- A finite sum of real numbers, in the extended reals, is a real number. -/
theorem sum_real {ι : Type} (s : Finset ι) (f : ι → EReal) (hf : ∀ j, ∃ r : ℝ, f j = (r : EReal)) :
    ∃ R : ℝ, ∑ j ∈ s, f j = (R : EReal) := by
  induction s using Finset.cons_induction with
  | empty => exact ⟨0, by simp⟩
  | cons c s hc ih =>
    obtain ⟨R, hR⟩ := ih
    obtain ⟨r, hr⟩ := hf c
    exact ⟨r + R, by rw [Finset.sum_cons, hR, hr, EReal.coe_add]⟩

/-- The accumulating scatter into an array of reals, of real updates, has real entries: each entry is the array's plus a
    finite sum of updates. -/
theorem scatterAdd_real {s si su : Shape} (d : ScatterDims s si su) {w : Nat} (x : FVec Ideal s .f32) (idx : IVec si w)
    (upd : FVec Ideal su .f32) (hx : ∀ i, ∃ r : ℝ, x i = (r : EReal)) (hupd : ∀ i, ∃ r : ℝ, upd i = (r : EReal)) (i : s.Idx) :
    ∃ r : ℝ, Host.scatterAdd d x idx upd i = (r : EReal) := by
  obtain ⟨r, hr⟩ := hx i
  obtain ⟨R, hR⟩ := sum_real (Finset.univ.filter (fun j => d.resultIdx? j idx = some i)) upd hupd
  refine ⟨r + R, ?_⟩
  show x i + ∑ j ∈ Finset.univ.filter (fun j => d.resultIdx? j idx = some i), upd j = _
  rw [hr, hR, EReal.coe_add]

/-- From the zero array: every entry of the scatter of real updates is a real number. -/
theorem scatterAdd_fin {s si su : Shape} (d : ScatterDims s si su) {w : Nat} (hb : (⟨0, ![]⟩ : Shape).BroadcastsInDim s (![] : Fin 0 → Fin s.rank))
    (idx : IVec si w) (upd : FVec Ideal su .f32) (hupd : ∀ i, ∃ r : ℝ, upd i = (r : EReal)) (i : s.Idx) :
    ∃ r : ℝ, Host.scatterAdd d (broadcastInDim s ![] hb (constant (F := Ideal) (⟨0, ![]⟩ : Shape) .f32 0x00000000#32)) idx upd i = (r : EReal) :=
  scatterAdd_real d _ idx upd (fun _ => ⟨0, Ideal.ofBits_zero_f32⟩) hupd i

/-! ## The same three, over the reference's named stages -/

section Stages
open Cert.ReferenceIdeal.Hand

variable (x0 : FVec Ideal S150000x32 .f32) (i1 i2 : IVec S27x60000 32) (w : FVec Ideal S27x32x64 .f32) (b : FVec Ideal S64 .f32)

/-- The rectified activation at (i, j): the larger of the segment sum plus the bias and zero. -/
theorem ref_act (i : Fin 150000) (j : Fin 64) :
    Cert.ReferenceIdeal.Hand.act (F := Ideal) x0 i1 i2 w b (ValueIdx.ix2 i j)
    = Cert.Stats.actAt (fun i j => Cert.ReferenceIdeal.Hand.summed (F := Ideal) x0 i1 i2 w (ValueIdx.ix2 i j)) (fun j => b (ValueIdx.ix1 j)) i j :=
  act_of (Cert.ReferenceIdeal.Hand.summed (F := Ideal) x0 i1 i2 w) b i j

/-- The column mean of the activation at j. -/
theorem ref_mean (j : Fin 64) :
    Cert.ReferenceIdeal.Hand.mean (F := Ideal) x0 i1 i2 w b (ValueIdx.ix1 j)
    = Cert.Stats.meanAt (fun i j => Cert.ReferenceIdeal.Hand.act (F := Ideal) x0 i1 i2 w b (ValueIdx.ix2 i j)) j :=
  mean_of (Cert.ReferenceIdeal.Hand.act (F := Ideal) x0 i1 i2 w b) j

/-- The column variance of the activation at j: the sum of squared deviations from the column mean, over 150000. -/
theorem ref_var (j : Fin 64) :
    Cert.ReferenceIdeal.Hand.var (F := Ideal) x0 i1 i2 w b (ValueIdx.ix1 j)
    = Ideal.div (Cert.Stats.m2At (fun i j => Cert.ReferenceIdeal.Hand.act (F := Ideal) x0 i1 i2 w b (ValueIdx.ix2 i j)) j) ((150000 : ℝ) : EReal) :=
  var_of (Cert.ReferenceIdeal.Hand.act (F := Ideal) x0 i1 i2 w b) j

/-- The segment sum has real entries when every per-offset product is real. -/
theorem summed_fin (hc : ∀ k, ∃ r : ℝ, Cert.ReferenceIdeal.Hand.contrib (F := Ideal) x0 i1 w k = (r : EReal)) (i : S150000x64.Idx) :
    ∃ r : ℝ, Cert.ReferenceIdeal.Hand.summed (F := Ideal) x0 i1 i2 w i = (r : EReal) :=
  scatterAdd_fin scatter_S150000x64_S1620000x1_S1620000x64_1_0_0_1 bcast_S_S150000x64 _ _ (fun k => hc _) i

end Stages

end Cert.RefStats

/-! ## What the theorems rest on: the three standard principles, nothing else -/

/-- info: 'Cert.RefStats.ref_act' depends on axioms: [propext, Classical.choice, Quot.sound] -/
#guard_msgs (whitespace := lax) in #print axioms Cert.RefStats.ref_act

/-- info: 'Cert.RefStats.ref_mean' depends on axioms: [propext, Classical.choice, Quot.sound] -/
#guard_msgs (whitespace := lax) in #print axioms Cert.RefStats.ref_mean

/-- info: 'Cert.RefStats.ref_var' depends on axioms: [propext, Classical.choice, Quot.sound] -/
#guard_msgs (whitespace := lax) in #print axioms Cert.RefStats.ref_var

/-- info: 'Cert.RefStats.summed_fin' depends on axioms: [propext, Classical.choice, Quot.sound] -/
#guard_msgs (whitespace := lax) in #print axioms Cert.RefStats.summed_fin

end
-- ==== Proof.BridgeA.lean ====
/-
  The first half of the bridge between the kernel's run and the reference's stage functions, at the extended reals.
  Under the precondition (every floating input entry a real number, every entry of the first index table in
  [0, 150000)): the rows the kernel's bounds-checked take leaves are the reference's gathered rows, so what the product
  region leaves is the reference's per-offset products, and what the accumulating scatter then leaves is the
  reference's segment sum; each of these arrays, and the bias read as a row, has only real entries.
-/
import proofs.«408267_j28449863368848_3_alg».proof.Proof.KIChain
import proofs.«408267_j28449863368848_3_alg».proof.Proof.KIHost
import proofs.«408267_j28449863368848_3_alg».proof.Proof.KIValue0
import proofs.«408267_j28449863368848_3_alg».proof.Proof.PreFacts
import proofs.«408267_j28449863368848_3_alg».proof.Proof.RefRun
import proofs.«408267_j28449863368848_3_alg».proof.Proof.Finite
import proofs.«408267_j28449863368848_3_alg».proof.Proof.RefStats
import Idealize.ShloMosaic.Lib.Pipeline.Value
import Idealize.ShloMosaic.Lib.ValueIdx
import Idealize.ShloMosaic.Lib.ValueLayout

set_option maxRecDepth 16384

noncomputable section

namespace Cert.Bridge

open Cert.KernelIdeal Cert.KernelIdeal.Fr Cert.KernelIdeal.Val
open Idealize.ShloMosaic Idealize.ShloMosaic.TcCoe Idealize.ShloMosaic.ValueIdx
open Idealize.SL.Sem
open Cert.PreFacts (Fin')

variable (m : (ℓ : Loc nD τ sig) → Buf (Elt Ideal) ℓ) (c : Dev nD)

/-! ## The arguments' launch contents -/

/-- the features -/
abbrev kx0 : FVec Ideal S150000x32 .f32 := m ((c.tc : Thread nD τ).loc main_arg0)
/-- the table of input rows -/
abbrev ki1 : IVec S27x60000 32 := m ((c.tc : Thread nD τ).loc main_arg1)
/-- the table of output rows -/
abbrev ki2 : IVec S27x60000 32 := m ((c.tc : Thread nD τ).loc main_arg2)
/-- the weights -/
abbrev kw : FVec Ideal S27x32x64 .f32 := m ((c.tc : Thread nD τ).loc main_arg3)
/-- the bias -/
abbrev kb : FVec Ideal S64 .f32 := m ((c.tc : Thread nD τ).loc main_arg4)
/-- the scale -/
abbrev kg : FVec Ideal S64 .f32 := m ((c.tc : Thread nD τ).loc main_arg5)
/-- the shift -/
abbrev kbe : FVec Ideal S64 .f32 := m ((c.tc : Thread nD τ).loc main_arg6)

/-! ## The gathered rows -/

/-- A gather reads an entry of its operand: the gathered rows of real features are real. -/
theorem gathered_fin (hx0 : Fin' (kx0 m c)) (i : S27x60000x32.Idx) :
    ∃ r : ℝ, Cert.ReferenceIdeal.Hand.gathered (F := Ideal) (kx0 m c) (ki1 m c) i = (r : EReal) := by
  unfold Cert.ReferenceIdeal.Hand.gathered Host.gather
  exact hx0 _

/-- Under the index range the kernel's bounds-checked take leaves the rows gathered at the indices themselves: the
    validity select falls away and the negative-index wrap is the identity. -/
theorem take_v0 (hr : ∀ j, (0 : Int) ≤ (ki1 m c j).toInt ∧ (ki1 m c j).toInt < 150000) :
    V1 m c main_v0 = Host.gather Cert.KernelIdeal.gather_S150000x32_S27x60000x1_S27x60000x32_2_0_n_n_0_2_132 (kx0 m c)
        (broadcastInDim S27x60000x1 ![0, 1] Cert.KernelIdeal.Facts₀.bcast_S27x60000_S27x60000x1_0_1 (ki1 m c)) := by
  rw [V1_v0 (F := Ideal) m c]
  unfold takeTerm
  exact Cert.PreFacts.Take.take_eq (F := Ideal) (kx0 m c) (ki1 m c) hr

/-- Under the index range the reference's wrapped start indices are the indices themselves, with their unit axis. -/
theorem wrapIdx_eq (hr : ∀ j, (0 : Int) ≤ (ki1 m c j).toInt ∧ (ki1 m c j).toInt < 150000) :
    Cert.ReferenceIdeal.Hand.wrapIdx (ki1 m c)
      = broadcastInDim S27x60000x1 ![0, 1] Cert.KernelIdeal.Facts₀.bcast_S27x60000_S27x60000x1_0_1 (ki1 m c) := by
  unfold Cert.ReferenceIdeal.Hand.wrapIdx
  exact congrArg _ (Cert.PreFacts.Take.wrap_id (ki1 m c) hr)

/-- The reference's gathered rows are the gather, under the kernel's spelling of the same dimension numbers, at the
    wrapped start indices. -/
theorem gathered_def : Cert.ReferenceIdeal.Hand.gathered (F := Ideal) (kx0 m c) (ki1 m c)
    = Host.gather Cert.KernelIdeal.gather_S150000x32_S27x60000x1_S27x60000x32_2_0_n_n_0_2_132 (kx0 m c)
        (Cert.ReferenceIdeal.Hand.wrapIdx (ki1 m c)) := by
  unfold Cert.ReferenceIdeal.Hand.gathered
  rfl

/-- Under the index range the rows the kernel's take leaves are the reference's gathered rows. -/
theorem take_gathered (hr : ∀ j, (0 : Int) ≤ (ki1 m c j).toInt ∧ (ki1 m c j).toInt < 150000) :
    V1 m c main_v0 = Cert.ReferenceIdeal.Hand.gathered (F := Ideal) (kx0 m c) (ki1 m c) := by
  rw [take_v0 m c hr, gathered_def m c, wrapIdx_eq m c hr]

/-! ## The per-offset products -/

/-- What the product region leaves is the reference's per-offset products: both are the batched product of the same
    gathered rows and the same weights. -/
theorem contrib_eq (hx0 : Fin' (kx0 m c)) (hw : Fin' (kw m c))
    (hr : ∀ j, (0 : Int) ≤ (ki1 m c j).toInt ∧ (ki1 m c j).toInt < 150000) :
    V2 m c main_v1 = Cert.ReferenceIdeal.Hand.contrib (F := Ideal) (kx0 m c) (ki1 m c) (kw m c) := by
  have hg : ∀ i, ∃ r : ℝ, V1 m c main_v0 i = (r : EReal) := fun i => by
    rw [take_gathered m c hr]; exact gathered_fin m c hx0 i
  have hw' : ∀ i, ∃ r : ℝ, V1 m c main_arg3 i = (r : EReal) := fun i => by
    rw [V1_arg3 (F := Ideal) m c]; exact hw i
  rw [V2_v1 (F := Ideal) m c, final0 (V1 m) c hg hw', take_gathered m c hr, V1_arg3 (F := Ideal) m c]
  unfold Cert.ReferenceIdeal.Hand.contrib
  exact (ref_dot _ _).symm

/-- A batched product of real rows and real weights is real: each entry is a sum over the 32 channels of products. -/
theorem contrib_fin (hx0 : Fin' (kx0 m c)) (hw : Fin' (kw m c))
    (hr : ∀ j, (0 : Int) ≤ (ki1 m c j).toInt ∧ (ki1 m c j).toInt < 150000) (i : S27x60000x64.Idx) :
    ∃ r : ℝ, Cert.ReferenceIdeal.Hand.contrib (F := Ideal) (kx0 m c) (ki1 m c) (kw m c) i = (r : EReal) := by
  unfold Cert.ReferenceIdeal.Hand.contrib
  rw [ref_dot]
  exact Cert.Finite.isReal_sum Finset.univ
    (fun k : Fin 32 => Cert.ReferenceIdeal.Hand.gathered (F := Ideal) (kx0 m c) (ki1 m c) (ix3 (i 0) (i 1) k) * kw m c (ix3 (i 0) k (i 2)))
    (fun k _ => Cert.Finite.isReal_mul (gathered_fin m c hx0 _) (hw _))

/-! ## The segment sum -/

/-- What the accumulating scatter leaves is the reference's segment sum: the same scatter, from the same zero array,
    at the same reshaped indices, of the same reshaped products. -/
theorem summed_eq (hx0 : Fin' (kx0 m c)) (hw : Fin' (kw m c))
    (hr : ∀ j, (0 : Int) ≤ (ki1 m c j).toInt ∧ (ki1 m c j).toInt < 150000) :
    V3 m c main_v6 = Cert.ReferenceIdeal.Hand.summed (F := Ideal) (kx0 m c) (ki1 m c) (ki2 m c) (kw m c) := by
  rw [V3_v6 (F := Ideal) m c, contrib_eq m c hx0 hw hr]
  rfl

/-- The segment sum of real products, from zero, is real. -/
theorem summed_fin (hx0 : Fin' (kx0 m c)) (hw : Fin' (kw m c))
    (hr : ∀ j, (0 : Int) ≤ (ki1 m c j).toInt ∧ (ki1 m c j).toInt < 150000) (i : S150000x64.Idx) :
    ∃ r : ℝ, V3 m c main_v6 i = (r : EReal) := by
  rw [summed_eq m c hx0 hw hr]
  exact Cert.RefStats.summed_fin _ _ _ _ (contrib_fin m c hx0 hw hr) i

/-! ## The one-row reshapes -/

/-- A vector of 64 entries reshaped to one row reads, at (0, j), the vector at j. -/
theorem row_apply (v : FVec Ideal S64 .f32) (h : S64.ShapeCasts S1x64) (j : Fin 64) :
    shapeCast S1x64 v h (ValueIdx.ix2 0 j) = v (ValueIdx.ix1 j) :=
  (shapeCast_addUnit_apply ![64] v h (ix2 (0 : Fin 1) j)).trans (congrArg v (funext fun a => by fin_cases a; rfl))

/-- The bias as region 1 is entered with it reads, at (0, j), the bias at j. -/
theorem bias_row (j : Fin 64) : V3 m c main_v7 (ValueIdx.ix2 0 j) = kb m c (ValueIdx.ix1 j) := by
  rw [V3_v7 (F := Ideal) m c]; exact row_apply _ _ j

/-- A reshape reads an entry of its operand: the row of a real bias is real. -/
theorem bias_fin (hb : Fin' (kb m c)) (i : S1x64.Idx) : ∃ r : ℝ, V3 m c main_v7 i = (r : EReal) := by
  rw [V3_v7 (F := Ideal) m c]
  unfold shapeCast
  exact hb _

/-! ## The same arrays as the normalisation region is entered with them -/

theorem summed5 (hx0 : Fin' (kx0 m c)) (hw : Fin' (kw m c))
    (hr : ∀ j, (0 : Int) ≤ (ki1 m c j).toInt ∧ (ki1 m c j).toInt < 150000) :
    V5 m c main_v6 = Cert.ReferenceIdeal.Hand.summed (F := Ideal) (kx0 m c) (ki1 m c) (ki2 m c) (kw m c) :=
  (V5_v6 (F := Ideal) m c).trans (summed_eq m c hx0 hw hr)

theorem bias_row5 (j : Fin 64) : V5 m c main_v7 (ValueIdx.ix2 0 j) = kb m c (ValueIdx.ix1 j) := by
  rw [V5_v7 (F := Ideal) m c]; exact bias_row m c j

theorem scale_row (j : Fin 64) : V5 m c main_v11 (ValueIdx.ix2 0 j) = kg m c (ValueIdx.ix1 j) := by
  rw [V5_v11 (F := Ideal) m c]; exact row_apply _ _ j

theorem shift_row (j : Fin 64) : V5 m c main_v12 (ValueIdx.ix2 0 j) = kbe m c (ValueIdx.ix1 j) := by
  rw [V5_v12 (F := Ideal) m c]; exact row_apply _ _ j

end Cert.Bridge

/-! ## What the theorems rest on: the three standard principles, nothing else -/

/-- info: 'Cert.Bridge.contrib_eq' depends on axioms: [propext, Classical.choice, Quot.sound] -/
#guard_msgs (whitespace := lax) in #print axioms Cert.Bridge.contrib_eq

/-- info: 'Cert.Bridge.summed_eq' depends on axioms: [propext, Classical.choice, Quot.sound] -/
#guard_msgs (whitespace := lax) in #print axioms Cert.Bridge.summed_eq

/-- info: 'Cert.Bridge.summed_fin' depends on axioms: [propext, Classical.choice, Quot.sound] -/
#guard_msgs (whitespace := lax) in #print axioms Cert.Bridge.summed_fin

/-- info: 'Cert.Bridge.bias_fin' depends on axioms: [propext, Classical.choice, Quot.sound] -/
#guard_msgs (whitespace := lax) in #print axioms Cert.Bridge.bias_fin

end
-- ==== Proof.Spec.lean ====
import Mathlib.Algebra.BigOperators.Group.Finset.Basic
import Mathlib.Algebra.BigOperators.Ring.Finset
import Mathlib.Algebra.BigOperators.Fin
import Mathlib.Data.Fintype.Card
import Mathlib.Data.Real.Basic
import Mathlib.Tactic.Ring
import Mathlib.Tactic.FieldSimp
import Mathlib.Tactic.Linarith
import Mathlib.Tactic.NormNum

/-!
# The parallel-variance merge over the reals

A running triple (mean, sum of squared deviations, count) is updated tile by tile.  This file proves that
after k tiles of B entries the triple is the mean, the sum of squared deviations about that mean, and
the count of all k * B entries seen so far.
-/

noncomputable section
namespace Cert.Spec
open scoped BigOperators

/-- The running (mean, sum of squared deviations, count) after merging tiles 0 … k-1, each of B entries, in order: the
    count grows by B; the mean moves by the tile mean's distance times B / new count; the squared deviations add the tile's own
    about its own mean and the squared distance times old count · B / new count. -/
def merge (B : ℕ) (x : ℕ → Fin B → ℝ) : ℕ → ℝ × ℝ × ℝ
  | 0 => (0, 0, 0)
  | k + 1 =>
    let s := merge B x k
    let tm : ℝ := (∑ j, x k j) / (B : ℝ)
    let tM : ℝ := ∑ j, (x k j - tm) * (x k j - tm)
    let n' : ℝ := s.2.2 + (B : ℝ)
    (s.1 + (tm - s.1) * ((B : ℝ) / n'), (s.2.1 + tM) + ((tm - s.1) * (tm - s.1)) * ((s.2.2 * (B : ℝ)) / n'), n')

theorem merge_zero (B : ℕ) (x : ℕ → Fin B → ℝ) : merge B x 0 = (0, 0, 0) := rfl

theorem merge_succ (B : ℕ) (x : ℕ → Fin B → ℝ) (k : ℕ) :
    merge B x (k + 1) =
      ((merge B x k).1 +
          ((∑ j, x k j) / (B : ℝ) - (merge B x k).1) * ((B : ℝ) / ((merge B x k).2.2 + (B : ℝ))),
        ((merge B x k).2.1 +
            ∑ j, (x k j - (∑ j, x k j) / (B : ℝ)) * (x k j - (∑ j, x k j) / (B : ℝ))) +
          (((∑ j, x k j) / (B : ℝ) - (merge B x k).1) * ((∑ j, x k j) / (B : ℝ) - (merge B x k).1)) *
            (((merge B x k).2.2 * (B : ℝ)) / ((merge B x k).2.2 + (B : ℝ))),
        (merge B x k).2.2 + (B : ℝ)) := rfl

/-- the new mean: first component of the step -/
theorem merge_succ_mean (B : ℕ) (x : ℕ → Fin B → ℝ) (k : ℕ) :
    (merge B x (k + 1)).1 =
      (merge B x k).1 +
        ((∑ j, x k j) / (B : ℝ) - (merge B x k).1) * ((B : ℝ) / ((merge B x k).2.2 + (B : ℝ))) := rfl

/-- the new sum of squared deviations: second component of the step -/
theorem merge_succ_m2 (B : ℕ) (x : ℕ → Fin B → ℝ) (k : ℕ) :
    (merge B x (k + 1)).2.1 =
      ((merge B x k).2.1 +
          ∑ j, (x k j - (∑ j, x k j) / (B : ℝ)) * (x k j - (∑ j, x k j) / (B : ℝ))) +
        (((∑ j, x k j) / (B : ℝ) - (merge B x k).1) * ((∑ j, x k j) / (B : ℝ) - (merge B x k).1)) *
          (((merge B x k).2.2 * (B : ℝ)) / ((merge B x k).2.2 + (B : ℝ))) := rfl

/-- the new count: third component of the step -/
theorem merge_succ_count (B : ℕ) (x : ℕ → Fin B → ℝ) (k : ℕ) :
    (merge B x (k + 1)).2.2 = (merge B x k).2.2 + (B : ℝ) := rfl

theorem merge_count (B : ℕ) (x : ℕ → Fin B → ℝ) (k : ℕ) : (merge B x k).2.2 = (k : ℝ) * (B : ℝ) := by
  induction k with
  | zero => simp [merge_zero]
  | succ k ih =>
    rw [merge_succ_count, ih]
    push_cast
    ring

/-- Squared distances from a, summed: Σ (y − a)·(y − a) = Σ y·y − 2·a·Σ y + n·(a·a). -/
theorem sum_sq_sub {ι : Type*} (s : Finset ι) (y : ι → ℝ) (a : ℝ) :
    ∑ i ∈ s, (y i - a) * (y i - a) =
      ∑ i ∈ s, y i * y i - 2 * a * ∑ i ∈ s, y i + (s.card : ℝ) * (a * a) := by
  have h : ∀ i ∈ s, (y i - a) * (y i - a) = y i * y i - 2 * a * y i + a * a := fun i _ => by ring
  rw [Finset.sum_congr rfl h, Finset.sum_add_distrib, Finset.sum_sub_distrib, ← Finset.mul_sum,
    Finset.sum_const, nsmul_eq_mul]

/-- The same expansion over the first k tiles of B entries. -/
theorem sum_sum_sq_sub (B : ℕ) (x : ℕ → Fin B → ℝ) (k : ℕ) (a : ℝ) :
    ∑ i ∈ Finset.range k, ∑ j, (x i j - a) * (x i j - a) =
      ∑ i ∈ Finset.range k, ∑ j, x i j * x i j - 2 * a * ∑ i ∈ Finset.range k, ∑ j, x i j +
        ((k : ℝ) * (B : ℝ)) * (a * a) := by
  induction k with
  | zero => simp
  | succ k ih =>
    simp only [Finset.sum_range_succ]
    rw [ih, sum_sq_sub, Finset.card_univ, Fintype.card_fin]
    push_cast
    ring

/-- The invariant of the merge: with n = k·B entries seen, n·mean is their sum, and the running squared
    deviations are Σ x·x − n·mean·mean.  It holds from k = 0 on (all three are 0 there). -/
theorem merge_inv (B : ℕ) (hB : 0 < B) (x : ℕ → Fin B → ℝ) (k : ℕ) :
    ((k : ℝ) * (B : ℝ)) * (merge B x k).1 = ∑ i ∈ Finset.range k, ∑ j, x i j ∧
      (merge B x k).2.1 =
        ∑ i ∈ Finset.range k, ∑ j, x i j * x i j -
          ((k : ℝ) * (B : ℝ)) * ((merge B x k).1 * (merge B x k).1) := by
  have hBpos : (0 : ℝ) < (B : ℝ) := Nat.cast_pos.mpr hB
  have hB0 : (B : ℝ) ≠ 0 := hBpos.ne'
  induction k with
  | zero => simp [merge_zero]
  | succ k ih =>
    obtain ⟨hmu, hM⟩ := ih
    have hk0 : (0 : ℝ) ≤ (k : ℝ) := Nat.cast_nonneg k
    have hn' : (k : ℝ) * (B : ℝ) + (B : ℝ) ≠ 0 := by
      have := mul_nonneg hk0 hBpos.le
      exact (by linarith : (0 : ℝ) < (k : ℝ) * (B : ℝ) + (B : ℝ)).ne'
    -- the tile's own squared deviations about its own mean
    have htile : ∑ j, (x k j - (∑ j, x k j) / (B : ℝ)) * (x k j - (∑ j, x k j) / (B : ℝ)) =
        ∑ j, x k j * x k j - (B : ℝ) * (((∑ j, x k j) / (B : ℝ)) * ((∑ j, x k j) / (B : ℝ))) := by
      rw [sum_sq_sub, Finset.card_univ, Fintype.card_fin]
      field_simp
      ring
    rw [merge_succ_mean, merge_succ_m2, htile, merge_count, hM]
    simp only [Finset.sum_range_succ]
    rw [← hmu]
    generalize (merge B x k).1 = μ
    generalize ∑ j, x k j = T
    generalize ∑ j, x k j * x k j = q
    generalize ∑ i ∈ Finset.range k, ∑ j, x i j * x i j = Q
    push_cast
    constructor
    · field_simp
      ring
    · field_simp
      ring

/-- the merged mean is the mean of all entries so far -/
theorem merge_mean (B : ℕ) (hB : 0 < B) (x : ℕ → Fin B → ℝ) (k : ℕ) (hk : 0 < k) :
    (merge B x k).1 = (∑ i ∈ Finset.range k, ∑ j, x i j) / ((k : ℝ) * (B : ℝ)) := by
  have hB' : (0 : ℝ) < (B : ℝ) := Nat.cast_pos.mpr hB
  have hk' : (0 : ℝ) < (k : ℝ) := Nat.cast_pos.mpr hk
  have hne : (k : ℝ) * (B : ℝ) ≠ 0 := (mul_pos hk' hB').ne'
  rw [eq_div_iff hne, mul_comm]
  exact (merge_inv B hB x k).1

/-- the merged sum of squared deviations is that of all entries so far about their common mean -/
theorem merge_m2 (B : ℕ) (hB : 0 < B) (x : ℕ → Fin B → ℝ) (k : ℕ) (hk : 0 < k) :
    (merge B x k).2.1 =
      ∑ i ∈ Finset.range k, ∑ j, (x i j - (merge B x k).1) * (x i j - (merge B x k).1) := by
  obtain ⟨hmu, hM⟩ := merge_inv B hB x k
  rw [sum_sum_sq_sub, ← hmu, hM]
  ring

/-- the whole array at the sizes used: 25 tiles of 6000 entries -/
theorem merge_mean_all (x : ℕ → Fin 6000 → ℝ) :
    (merge 6000 x 25).1 = (∑ i ∈ Finset.range 25, ∑ j, x i j) / 150000 := by
  have h := merge_mean 6000 (by norm_num) x 25 (by norm_num)
  have hc : ((25 : ℕ) : ℝ) * ((6000 : ℕ) : ℝ) = 150000 := by norm_num
  rw [h, hc]

theorem merge_m2_all (x : ℕ → Fin 6000 → ℝ) :
    (merge 6000 x 25).2.1 =
      ∑ i ∈ Finset.range 25, ∑ j, (x i j - (merge 6000 x 25).1) * (x i j - (merge 6000 x 25).1) :=
  merge_m2 6000 (by norm_num) x 25 (by norm_num)

theorem merge_count_all (x : ℕ → Fin 6000 → ℝ) : (merge 6000 x 25).2.2 = 150000 := by
  rw [merge_count]
  norm_num

end Cert.Spec
end
-- ==== Proof.SpecE.lean ====
import proofs.«408267_j28449863368848_3_alg».proof.Proof.Spec
import proofs.«408267_j28449863368848_3_alg».proof.Proof.StatsSpec
import Idealize.ShloMosaic.PureOps.Ideal

/-!
# The parallel-variance merge over the extended reals

The same tile-by-tile update of (mean, sum of squared deviations, count), written with the extended reals'
operations.  On real entries it is the coercion of the real merge, so after the 25 tiles of a real column of
150000 entries it holds the column's mean and its sum of squared deviations about that mean.
-/

noncomputable section
namespace Cert.Spec
open Idealize.ShloMosaic
open scoped BigOperators

/-- The running (mean, sum of squared deviations, count) after merging tiles 0 … k-1 of B entries each, over the
    extended reals: the count grows by B; the mean moves by the tile mean's distance times B / new count; the squared
    deviations add the tile's own about its own mean and the squared distance times old count · B / new count. -/
def mergeE (B : ℕ) (a : ℕ → Fin B → EReal) : ℕ → EReal × EReal × EReal
  | 0 => (0, 0, 0)
  | k + 1 =>
    let s := mergeE B a k
    let tm : EReal := Ideal.div (∑ j, a k j) ((B : ℝ) : EReal)
    let tM : EReal := ∑ j, (a k j - tm) * (a k j - tm)
    let n' : EReal := s.2.2 + ((B : ℝ) : EReal)
    (s.1 + (tm - s.1) * Ideal.div ((B : ℝ) : EReal) n', (s.2.1 + tM) + ((tm - s.1) * (tm - s.1)) * Ideal.div (s.2.2 * ((B : ℝ) : EReal)) n', n')

theorem mergeE_zero (B : ℕ) (a : ℕ → Fin B → EReal) : mergeE B a 0 = (0, 0, 0) := rfl

theorem mergeE_succ (B : ℕ) (a : ℕ → Fin B → EReal) (k : ℕ) :
    mergeE B a (k + 1) =
      ((mergeE B a k).1 +
          (Ideal.div (∑ j, a k j) ((B : ℝ) : EReal) - (mergeE B a k).1) *
            Ideal.div ((B : ℝ) : EReal) ((mergeE B a k).2.2 + ((B : ℝ) : EReal)),
        ((mergeE B a k).2.1 +
            ∑ j, (a k j - Ideal.div (∑ j, a k j) ((B : ℝ) : EReal)) *
              (a k j - Ideal.div (∑ j, a k j) ((B : ℝ) : EReal))) +
          ((Ideal.div (∑ j, a k j) ((B : ℝ) : EReal) - (mergeE B a k).1) *
              (Ideal.div (∑ j, a k j) ((B : ℝ) : EReal) - (mergeE B a k).1)) *
            Ideal.div ((mergeE B a k).2.2 * ((B : ℝ) : EReal)) ((mergeE B a k).2.2 + ((B : ℝ) : EReal)),
        (mergeE B a k).2.2 + ((B : ℝ) : EReal)) := rfl

/-- the new mean: first component of the step -/
theorem mergeE_succ_mean (B : ℕ) (a : ℕ → Fin B → EReal) (k : ℕ) :
    (mergeE B a (k + 1)).1 =
      (mergeE B a k).1 +
        (Ideal.div (∑ j, a k j) ((B : ℝ) : EReal) - (mergeE B a k).1) *
          Ideal.div ((B : ℝ) : EReal) ((mergeE B a k).2.2 + ((B : ℝ) : EReal)) := rfl

/-- the new sum of squared deviations: second component of the step -/
theorem mergeE_succ_m2 (B : ℕ) (a : ℕ → Fin B → EReal) (k : ℕ) :
    (mergeE B a (k + 1)).2.1 =
      ((mergeE B a k).2.1 +
          ∑ j, (a k j - Ideal.div (∑ j, a k j) ((B : ℝ) : EReal)) *
            (a k j - Ideal.div (∑ j, a k j) ((B : ℝ) : EReal))) +
        ((Ideal.div (∑ j, a k j) ((B : ℝ) : EReal) - (mergeE B a k).1) *
            (Ideal.div (∑ j, a k j) ((B : ℝ) : EReal) - (mergeE B a k).1)) *
          Ideal.div ((mergeE B a k).2.2 * ((B : ℝ) : EReal)) ((mergeE B a k).2.2 + ((B : ℝ) : EReal)) := rfl

/-- the new count: third component of the step -/
theorem mergeE_succ_count (B : ℕ) (a : ℕ → Fin B → EReal) (k : ℕ) :
    (mergeE B a (k + 1)).2.2 = (mergeE B a k).2.2 + ((B : ℝ) : EReal) := rfl

/-- A finite sum of coerced reals is the coercion of the real sum. -/
theorem coe_sum {ι : Type*} (s : Finset ι) (y : ι → ℝ) :
    ∑ i ∈ s, ((y i : ℝ) : EReal) = ((∑ i ∈ s, y i : ℝ) : EReal) := by
  classical
  refine Finset.induction_on s (by simp) ?_
  intro i s hi ih
  rw [Finset.sum_insert hi, Finset.sum_insert hi, ih, EReal.coe_add]

/-- Division of a real by a nonzero real, on the extended reals, is the coerced real quotient. -/
theorem div_coe_coe {y : ℝ} (h : y ≠ 0) (x : ℝ) :
    Ideal.div ((x : ℝ) : EReal) ((y : ℝ) : EReal) = ((x / y : ℝ) : EReal) := by
  rw [Ideal.div_coe h, ← EReal.coe_mul, mul_one_div]

/-- On real entries the extended-real merge is the real merge, coerced componentwise. -/
theorem mergeE_coe (B : ℕ) (hB : 0 < B) (x : ℕ → Fin B → ℝ) (k : ℕ) :
    mergeE B (fun i j => ((x i j : ℝ) : EReal)) k =
      ((((merge B x k).1 : ℝ) : EReal), (((merge B x k).2.1 : ℝ) : EReal), (((merge B x k).2.2 : ℝ) : EReal)) := by
  have hBpos : (0 : ℝ) < (B : ℝ) := Nat.cast_pos.mpr hB
  have hB0 : (B : ℝ) ≠ 0 := hBpos.ne'
  induction k with
  | zero => simp [mergeE_zero, merge_zero]
  | succ k ih =>
    have hn' : (merge B x k).2.2 + (B : ℝ) ≠ 0 := by
      rw [merge_count]
      have := mul_nonneg (Nat.cast_nonneg k : (0 : ℝ) ≤ (k : ℝ)) hBpos.le
      exact (by linarith : (0 : ℝ) < (k : ℝ) * (B : ℝ) + (B : ℝ)).ne'
    rw [mergeE_succ, ih, merge_succ]
    dsimp only
    rw [coe_sum, div_coe_coe hB0]
    have htM : ∑ j, (((x k j : ℝ) : EReal) - (((∑ j, x k j) / (B : ℝ) : ℝ) : EReal)) *
          (((x k j : ℝ) : EReal) - (((∑ j, x k j) / (B : ℝ) : ℝ) : EReal)) =
        ((∑ j, (x k j - (∑ j, x k j) / (B : ℝ)) * (x k j - (∑ j, x k j) / (B : ℝ)) : ℝ) : EReal) := by
      rw [← coe_sum]
      refine Finset.sum_congr rfl ?_
      intro j _
      rw [← EReal.coe_sub, ← EReal.coe_mul]
    rw [htM, ← EReal.coe_add (merge B x k).2.2 (B : ℝ), div_coe_coe hn',
      ← EReal.coe_mul (merge B x k).2.2 (B : ℝ), div_coe_coe hn']
    simp only [← EReal.coe_add, ← EReal.coe_mul, ← EReal.coe_sub]

/-- Within the first 25 tiles, a tile entry is the column's entry at row 6000 k + r. -/
theorem tiles_eq (f : Fin 150000 → EReal) (k : ℕ) (hk : k < 25) (r : Fin 6000) :
    Cert.Stats.tiles f k r = f ⟨6000 * k + r.val, by have := r.isLt; omega⟩ := by
  have h : 6000 * k + r.val < 150000 := by have := r.isLt; omega
  simp only [Cert.Stats.tiles, dif_pos h]

/-- The 25 tiles of 6000 rows together are the 150000 rows, each once. -/
theorem sum_tiles (f : Fin 150000 → EReal) :
    ∑ k ∈ Finset.range 25, ∑ r : Fin 6000, Cert.Stats.tiles f k r = ∑ i : Fin 150000, f i := by
  rw [Finset.sum_range, ← Fintype.sum_prod_type']
  refine Fintype.sum_equiv (finProdFinEquiv.trans (finCongr (by norm_num))) _ _ ?_
  rintro ⟨k, r⟩
  rw [tiles_eq f k k.isLt r]
  congr 1
  apply Fin.ext
  simp [finProdFinEquiv]
  omega

/-- A column of real entries, cut into tiles, is the coercion of a real tiling. -/
theorem tiles_coe (f : Fin 150000 → EReal) (hf : ∀ i, ∃ r : ℝ, f i = (r : EReal)) :
    ∃ xr : ℕ → Fin 6000 → ℝ, Cert.Stats.tiles f = fun k r => ((xr k r : ℝ) : EReal) := by
  refine ⟨fun k r => (Cert.Stats.tiles f k r).toReal, ?_⟩
  funext k r
  simp only [Cert.Stats.tiles]
  split_ifs with h
  · obtain ⟨t, ht⟩ := hf ⟨6000 * k + r.val, h⟩
    rw [ht, EReal.toReal_coe]
  · simp

/-- after the 25 tiles of a column of real entries the merged mean is the column's sum over 150000 -/
theorem mergeE_mean_tiles (f : Fin 150000 → EReal) (hf : ∀ i, ∃ r : ℝ, f i = (r : EReal)) :
    (mergeE 6000 (Cert.Stats.tiles f) 25).1 = Ideal.div (∑ i : Fin 150000, f i) ((150000 : ℝ) : EReal) := by
  obtain ⟨xr, hx⟩ := tiles_coe f hf
  rw [← sum_tiles f, hx, mergeE_coe 6000 (by norm_num) xr 25]
  dsimp only
  rw [merge_mean_all]
  simp only [coe_sum]
  rw [div_coe_coe (by norm_num)]

/-- and the merged squared deviations are the column's about that mean -/
theorem mergeE_m2_tiles (f : Fin 150000 → EReal) (hf : ∀ i, ∃ r : ℝ, f i = (r : EReal)) :
    (mergeE 6000 (Cert.Stats.tiles f) 25).2.1 =
      ∑ i : Fin 150000, (f i - Ideal.div (∑ i : Fin 150000, f i) ((150000 : ℝ) : EReal)) *
        (f i - Ideal.div (∑ i : Fin 150000, f i) ((150000 : ℝ) : EReal)) := by
  rw [← mergeE_mean_tiles f hf]
  obtain ⟨xr, hx⟩ := tiles_coe f hf
  have hmu : (mergeE 6000 (Cert.Stats.tiles f) 25).1 = (((merge 6000 xr 25).1 : ℝ) : EReal) := by
    rw [hx, mergeE_coe 6000 (by norm_num) xr 25]
  have hM : (mergeE 6000 (Cert.Stats.tiles f) 25).2.1 = (((merge 6000 xr 25).2.1 : ℝ) : EReal) := by
    rw [hx, mergeE_coe 6000 (by norm_num) xr 25]
  rw [hM, hmu, merge_m2_all,
    ← sum_tiles (fun i => (f i - (((merge 6000 xr 25).1 : ℝ) : EReal)) * (f i - (((merge 6000 xr 25).1 : ℝ) : EReal))),
    ← coe_sum]
  refine Finset.sum_congr rfl ?_
  intro k hk
  have hk' : k < 25 := Finset.mem_range.mp hk
  rw [← coe_sum]
  refine Finset.sum_congr rfl ?_
  intro r _
  have hfr : f ⟨6000 * k + r.val, by have := r.isLt; omega⟩ = ((xr k r : ℝ) : EReal) := by
    rw [← tiles_eq f k hk' r, hx]
  rw [tiles_eq _ k hk' r, hfr, EReal.coe_mul, EReal.coe_sub]

end Cert.Spec
end
-- ==== Proof.KIValue1.lean ====
/-
  What the batch-statistics region leaves in its two output rows, at the extended reals.

  The region walks the 150000 x 64 array of sums in 25 tiles of 6000 rows. At each point the body forms the tile's
  activations (the larger of sum plus bias and zero), the tile's column means and its column sums of squared
  deviations about those means, and merges them into a carried triple of 1 x 64 rows: a running mean, a running sum
  of squared deviations and a running count. The first point starts from three zero rows; the last point stores the
  carried mean row and squared-deviation row into the two output rows, whose one block is the whole row.

  Read at a column j, one point's merge is one step of the tile-by-tile merge of the specification on that column's
  activations: every operation of the body is pointwise in the column except the two sums over the tile's 6000 rows,
  and a tile's row r at point n is row 6000 n + r of the array. So, by induction on the point, column j of the carried
  triple after point n is the merge of the first n + 1 tiles of column j; after the last point, for real sums and a
  real bias, the merge of all 25 tiles is the column's mean and its sum of squared deviations from that mean.
-/
import proofs.«408267_j28449863368848_3_alg».proof.Proof.KIDefs
import proofs.«408267_j28449863368848_3_alg».proof.Proof.StatsSpec
import proofs.«408267_j28449863368848_3_alg».proof.Proof.SpecE
import proofs.«408267_j28449863368848_3_alg».proof.Proof.Finite
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

namespace Stats1

/-! ## The body's arithmetic at an index -/

/-- The word 0x45BB8000 denotes the real 6000. -/
theorem ofBits_6000 : Ideal.ofBits .f32 0x45BB8000#32 = ((6000 : ℝ) : EReal) := by
  simp [Ideal.ofBits, Ideal.ieee, -EReal.coe_mul]; norm_num

/-- The activation of the tile at row r, column j: the larger of the entry plus the column's bias and zero. -/
theorem pay7_at (x : Vec Ideal S6000x64 .f32) (b : Vec Ideal S1x64 .f32) (r : Fin 6000) (j : Fin 64) :
    k1_pay7 x b (ix2 r j) = max (x (ix2 r j) + b (ix2 0 j)) 0 := by
  unfold k1_pay7
  rw [shapeCast_self, shapeCast_self]
  show max (x (ix2 r j) + broadcastTo S6000x64 b broadcasts_S1x64_S6000x64 (ix2 r j)) (Ideal.ofBits .f32 0x00000000#32) = _
  rw [broadcastTo_1b_ab_apply, Ideal.ofBits_zero_f32]

/-- The index over (j) of the column sum with row k put back is (k, j). -/
theorem lift_ix (j : Fin 64) (k : Fin 6000) :
    (reduces_S6000x64_S64.lift (ix1 j) k : S6000x64.Idx) = ix2 k j := by
  funext c
  apply Fin.ext
  match c with
  | ⟨0, _⟩ => rfl
  | ⟨1, _⟩ => rfl

/-- A column sum over the 6000 rows of a tile. -/
theorem colsum_at (y : FVec Ideal S6000x64 .f32) (hacc : (0x00000000#32 : BitVec 32) = 0x00000000#32) (u : Fin 1) (j : Fin 64) :
    shapeCast S1x64 (multiReduction (F := Ideal) .add [0] S64 y 0x00000000#32 reduces_S6000x64_S64 (.inl rfl) hacc) shapeCasts_S64_S1x64 (ix2 u j)
      = ∑ r : Fin 6000, y (ix2 r j) := by
  refine (shapeCast_a_1a_apply _ shapeCasts_S64_S1x64 u j).trans ?_
  refine (Ideal.multiReduction_add_single y 0x00000000#32 reduces_S6000x64_S64 (.inl rfl) hacc (ix1 j)).trans ?_
  exact Finset.sum_congr rfl fun k _ => congrArg y (lift_ix j k)

/-- The tile mean of column j: the column sum of the activations over the 6000 rows, divided by 6000. -/
theorem pay8_at (x : Vec Ideal S6000x64 .f32) (b : Vec Ideal S1x64 .f32) (u : Fin 1) (j : Fin 64) :
    k1_pay8 x b (ix2 u j)
      = Ideal.div (∑ r : Fin 6000, max (x (ix2 r j) + b (ix2 0 j)) 0) ((6000 : ℝ) : EReal) := by
  unfold k1_pay8
  show Ideal.div (shapeCast S1x64 (multiReduction (F := Ideal) .add [0] S64 (k1_pay7 x b) 0x00000000#32 reduces_S6000x64_S64 (.inl rfl) rfl) shapeCasts_S64_S1x64 (ix2 u j))
      (Ideal.ofBits .f32 0x45BB8000#32) = _
  rw [ofBits_6000]
  refine congrArg (fun z => Ideal.div z ((6000 : ℝ) : EReal)) ?_
  refine (colsum_at (k1_pay7 x b) rfl u j).trans ?_
  exact Finset.sum_congr rfl fun r _ => pay7_at x b r j

/-- The splat of 6000 at any index. -/
theorem pay9_at (i : S1x64.Idx) : (k1_pay9 (F := Ideal)) i = ((6000 : ℝ) : EReal) := by
  unfold k1_pay9
  show Ideal.ofBits .f32 0x45BB8000#32 = _
  exact ofBits_6000

/-- The new count: the carried count plus 6000. -/
theorem pay10_at (n : Vec Ideal S1x64 .f32) (i : S1x64.Idx) :
    k1_pay10 n i = n i + ((6000 : ℝ) : EReal) := by
  unfold k1_pay10
  show n i + (k1_pay9 (F := Ideal)) i = _
  rw [pay9_at]

/-- The distance of the tile mean from the carried mean. -/
theorem pay11_at (x : Vec Ideal S6000x64 .f32) (b m : Vec Ideal S1x64 .f32) (u : Fin 1) (j : Fin 64) :
    k1_pay11 x b m (ix2 u j)
      = Ideal.div (∑ r : Fin 6000, max (x (ix2 r j) + b (ix2 0 j)) 0) ((6000 : ℝ) : EReal) - m (ix2 u j) := by
  unfold k1_pay11
  show k1_pay8 x b (ix2 u j) - m (ix2 u j) = _
  rw [pay8_at]

/-- The new mean: the carried mean plus the distance times 6000 over the new count. -/
theorem pay12_at (x : Vec Ideal S6000x64 .f32) (b n m m' : Vec Ideal S1x64 .f32) (u : Fin 1) (j : Fin 64) :
    k1_pay12 x b n m m' (ix2 u j)
      = m' (ix2 u j) + (Ideal.div (∑ r : Fin 6000, max (x (ix2 r j) + b (ix2 0 j)) 0) ((6000 : ℝ) : EReal) - m (ix2 u j))
          * Ideal.div ((6000 : ℝ) : EReal) (n (ix2 u j) + ((6000 : ℝ) : EReal)) := by
  unfold k1_pay12
  show m' (ix2 u j) + k1_pay11 x b m (ix2 u j) * Ideal.div ((k1_pay9 (F := Ideal)) (ix2 u j)) (k1_pay10 n (ix2 u j)) = _
  rw [pay11_at, pay9_at, pay10_at]

/-- The new sum of squared deviations: the carried one plus the tile's own about the tile mean, plus the squared
    distance of the means times carried count times 6000 over the new count. -/
theorem pay13_at (x : Vec Ideal S6000x64 .f32) (b n m q : Vec Ideal S1x64 .f32) (u : Fin 1) (j : Fin 64) :
    k1_pay13 x b n m q (ix2 u j)
      = (q (ix2 u j) + ∑ r : Fin 6000,
            (max (x (ix2 r j) + b (ix2 0 j)) 0 - Ideal.div (∑ r : Fin 6000, max (x (ix2 r j) + b (ix2 0 j)) 0) ((6000 : ℝ) : EReal))
              * (max (x (ix2 r j) + b (ix2 0 j)) 0 - Ideal.div (∑ r : Fin 6000, max (x (ix2 r j) + b (ix2 0 j)) 0) ((6000 : ℝ) : EReal)))
        + ((Ideal.div (∑ r : Fin 6000, max (x (ix2 r j) + b (ix2 0 j)) 0) ((6000 : ℝ) : EReal) - m (ix2 u j))
            * (Ideal.div (∑ r : Fin 6000, max (x (ix2 r j) + b (ix2 0 j)) 0) ((6000 : ℝ) : EReal) - m (ix2 u j)))
          * Ideal.div (n (ix2 u j) * ((6000 : ℝ) : EReal)) (n (ix2 u j) + ((6000 : ℝ) : EReal)) := by
  unfold k1_pay13
  show (q (ix2 u j) + shapeCast S1x64 (multiReduction (F := Ideal) .add [0] S64
            (mulf (subf (k1_pay7 x b) (broadcastTo S6000x64 (k1_pay8 x b) broadcasts_S1x64_S6000x64))
                  (subf (k1_pay7 x b) (broadcastTo S6000x64 (k1_pay8 x b) broadcasts_S1x64_S6000x64)))
            0x00000000#32 reduces_S6000x64_S64 (.inl rfl) rfl) shapeCasts_S64_S1x64 (ix2 u j))
        + (k1_pay11 x b m (ix2 u j) * k1_pay11 x b m (ix2 u j))
          * Ideal.div (n (ix2 u j) * (k1_pay9 (F := Ideal)) (ix2 u j)) (k1_pay10 n (ix2 u j)) = _
  rw [pay11_at, pay9_at, pay10_at]
  refine congrArg (fun z => (q (ix2 u j) + z) + _) ?_
  refine (colsum_at _ rfl u j).trans ?_
  refine Finset.sum_congr rfl fun r _ => ?_
  show (k1_pay7 x b (ix2 r j) - broadcastTo S6000x64 (k1_pay8 x b) broadcasts_S1x64_S6000x64 (ix2 r j))
      * (k1_pay7 x b (ix2 r j) - broadcastTo S6000x64 (k1_pay8 x b) broadcasts_S1x64_S6000x64 (ix2 r j)) = _
  rw [broadcastTo_1b_ab_apply, pay7_at, pay8_at]

/-! ## The blocks read off the arrays -/

/-- The printed index maps, decided over the 25 points: the tile window's block index is (t, 0); the bias row's and the
    two output rows' block index is (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- The tile of sums and the bias block at point t, at their literal types. -/
abbrev xblk (c : Dev nD) (t : Fin cfg1.N) : Vec Ideal S6000x64 .f32 := iblk1 V c 0 t
abbrev bblk (c : Dev nD) (t : Fin cfg1.N) : Vec Ideal S1x64 .f32 := iblk1 V c 1 t

/-- Row r, column j of the tile at point t is row 6000 t + r, column j of the array of sums. -/
theorem tile_at (c : Dev nD) (t : Fin cfg1.N) (r : Fin 6000) (j : Fin 64) (h : 6000 * t.val + r.val < 150000) :
    xblk V c t (ix2 r j) = V c main_v6 (ix2 ⟨6000 * t.val + r.val, h⟩ j) := by
  obtain ⟨e0, e1, -⟩ := idx_facts1 t
  unfold xblk iblk1
  rw [View.read_apply]
  show V c main_v6 (((cfg1.win 0).blk t).view.emb (ix2 r j)) = V c main_v6 _
  congr 1
  funext a; apply Fin.ext
  match a with
  | ⟨0, _⟩ => show win1_0.index t (0 : Fin 2) * 6000 + 1 * r.val = 6000 * t.val + r.val; rw [e0]; omega
  | ⟨1, _⟩ => show win1_0.index t (1 : Fin 2) * 64 + 1 * j.val = j.val; rw [e1]; omega

/-- The bias block at any point is the bias row. -/
theorem bias_at (c : Dev nD) (t : Fin cfg1.N) (u : Fin 1) (j : Fin 64) :
    bblk V c t (ix2 u j) = V c main_v7 (ix2 0 j) := by
  obtain ⟨-, -, e2, e3, -⟩ := idx_facts1 t
  unfold bblk iblk1
  rw [View.read_apply]
  show V c main_v7 (((cfg1.win 1).blk t).view.emb (ix2 u j)) = V c main_v7 _
  congr 1
  funext a; apply Fin.ext
  match a with
  | ⟨0, _⟩ => show win1_1.index t (0 : Fin 2) * 1 + 1 * u.val = 0; rw [e2]; omega
  | ⟨1, _⟩ => show win1_1.index t (1 : Fin 2) * 64 + 1 * j.val = j.val; rw [e3]; omega

/-! ## One merge at a column, and the carried triple point by point -/

/-- The array of sums and the bias row over explicit coordinates. -/
abbrev sK (c : Dev nD) : Fin 150000 → Fin 64 → EReal := fun i j => V c main_v6 (ix2 i j)
abbrev bK (c : Dev nD) : Fin 64 → EReal := fun j => V c main_v7 (ix2 0 j)

/-- One merge, on the extended reals, of a carried (mean, squared deviations, count) with a tile of 6000 entries. -/
def stepE (s : EReal × EReal × EReal) (a : Fin 6000 → EReal) : EReal × EReal × EReal :=
  (s.1 + (Ideal.div (∑ r, a r) ((6000 : ℝ) : EReal) - s.1) * Ideal.div ((6000 : ℝ) : EReal) (s.2.2 + ((6000 : ℝ) : EReal)),
   (s.2.1 + ∑ r, (a r - Ideal.div (∑ r, a r) ((6000 : ℝ) : EReal)) * (a r - Ideal.div (∑ r, a r) ((6000 : ℝ) : EReal)))
     + ((Ideal.div (∑ r, a r) ((6000 : ℝ) : EReal) - s.1) * (Ideal.div (∑ r, a r) ((6000 : ℝ) : EReal) - s.1))
       * Ideal.div (s.2.2 * ((6000 : ℝ) : EReal)) (s.2.2 + ((6000 : ℝ) : EReal)),
   s.2.2 + ((6000 : ℝ) : EReal))

/-- The specification's merge of one more tile of 6000 is that step. -/
theorem mergeE_succ_stepE (a : ℕ → Fin 6000 → EReal) (k : ℕ) :
    Cert.Spec.mergeE 6000 a (k + 1) = stepE (Cert.Spec.mergeE 6000 a k) (a k) := by
  rw [Cert.Spec.mergeE_succ]
  unfold stepE
  simp only [Nat.cast_ofNat]

/-- The three rows the first point resets the carried triple to are zero. -/
theorem pay4_at (i : S1x64.Idx) : (k1_pay4 (F := Ideal)) i = 0 := by
  unfold k1_pay4; rw [shapeCast_self]; exact Ideal.ofBits_zero_f32
theorem pay5_at (i : S1x64.Idx) : (k1_pay5 (F := Ideal)) i = 0 := by
  unfold k1_pay5; rw [shapeCast_self]; exact Ideal.ofBits_zero_f32
theorem pay6_at (i : S1x64.Idx) : (k1_pay6 (F := Ideal)) i = 0 := by
  unfold k1_pay6; rw [shapeCast_self]; exact Ideal.ofBits_zero_f32

/-- Column j of one point's merge is the step on column j of the carried triple and column j of the tile's activations. -/
theorem step1_col (s : Vec Ideal S1x64 .f32 × Vec Ideal S1x64 .f32 × Vec Ideal S1x64 .f32)
    (x : Vec Ideal S6000x64 .f32) (b : Vec Ideal S1x64 .f32) (j : Fin 64) :
    ((step1 s x b).1 (ix2 0 j), (step1 s x b).2.1 (ix2 0 j), (step1 s x b).2.2 (ix2 0 j))
      = stepE (s.1 (ix2 0 j), s.2.1 (ix2 0 j), s.2.2 (ix2 0 j)) (fun r => max (x (ix2 r j) + b (ix2 0 j)) 0) := by
  unfold step1 stepE
  refine Prod.ext ?_ (Prod.ext ?_ ?_)
  · show k1_pay1 (k1_pay12 x b s.2.2 s.1 s.1) (ix2 0 j) = _
    unfold k1_pay1
    rw [shapeCast_self, pay12_at]
  · show k1_pay2 (k1_pay13 x b s.2.2 s.1 s.2.1) (ix2 0 j) = _
    unfold k1_pay2
    rw [shapeCast_self, pay13_at]
  · show k1_pay3 (k1_pay10 s.2.2) (ix2 0 j) = _
    unfold k1_pay3
    rw [shapeCast_self, pay10_at]

/-- Column j of the activations of the tile at point n is tile n of column j of the activations of the whole array. -/
theorem tile_act (c : Dev nD) (n : ℕ) (hn : n < cfg1.N) (r : Fin 6000) (j : Fin 64) :
    max (xblk V c ⟨n, hn⟩ (ix2 r j) + bblk V c ⟨n, hn⟩ (ix2 0 j)) 0
      = Cert.Stats.tiles (fun i => Cert.Stats.actAt (sK V c) (bK V c) i j) n r := by
  have hN : cfg1.N = 25 := N_1
  have hr := r.isLt
  have h : 6000 * n + r.val < 150000 := by omega
  rw [Cert.Spec.tiles_eq _ n (by omega) r, tile_at V c ⟨n, hn⟩ r j h, bias_at V c ⟨n, hn⟩ 0 j]
  rfl

end Stats1

open Stats1

/-! ## The carried triple point by point -/

/-- Column j of the carried triple after point n is the merge of the first n + 1 tiles of that column's activations. -/
theorem acc_col (c : Dev nD) (n : ℕ) (hn : n < cfg1.N) (j : Fin 64) :
    ((accAt1 V c n hn).1 (ix2 0 j), (accAt1 V c n hn).2.1 (ix2 0 j), (accAt1 V c n hn).2.2 (ix2 0 j))
      = Cert.Spec.mergeE 6000 (Cert.Stats.tiles fun i => Cert.Stats.actAt (sK V c) (bK V c) i j) (n + 1) := by
  induction n with
  | zero =>
    rw [accAt1_zero V c hn,
      step1_col (k1_pay4 (F := Ideal), k1_pay5 (F := Ideal), k1_pay6 (F := Ideal)) (xblk V c ⟨0, hn⟩) (bblk V c ⟨0, hn⟩) j,
      mergeE_succ_stepE, Cert.Spec.mergeE_zero]
    show stepE ((k1_pay4 (F := Ideal)) (ix2 0 j), (k1_pay5 (F := Ideal)) (ix2 0 j), (k1_pay6 (F := Ideal)) (ix2 0 j)) _ = _
    rw [pay4_at, pay5_at, pay6_at]
    exact congrArg (stepE (0, 0, 0)) (funext fun r => tile_act V c 0 hn r j)
  | succ n ih =>
    rw [accAt1_succ V c n hn,
      step1_col (accAt1 V c n (Nat.lt_of_succ_lt hn)) (xblk V c ⟨n + 1, hn⟩) (bblk V c ⟨n + 1, hn⟩) j,
      ih (Nat.lt_of_succ_lt hn), mergeE_succ_stepE _ (n + 1)]
    exact congrArg (stepE _) (funext fun r => tile_act V c (n + 1) hn r j)

namespace Stats1

/-! ## What the region leaves in its two output rows -/

/-- The last point: the one that stores the carried mean and squared deviations and writes them back. -/
abbrev tLast : Fin cfg1.N := ⟨24, by rw [show cfg1.N = 25 from N_1]; decide⟩

/-- The activation of real sums and a real bias is real. -/
theorem act_real (c : Dev nD) (hs : ∀ i, ∃ r : ℝ, V c main_v6 i = (r : EReal)) (hb : ∀ i, ∃ r : ℝ, V c main_v7 i = (r : EReal))
    (j : Fin 64) (i : Fin 150000) : ∃ r : ℝ, Cert.Stats.actAt (sK V c) (bK V c) i j = (r : EReal) :=
  Cert.Finite.isReal_max_zero (Cert.Finite.isReal_add (hs (ix2 i j)) (hb (ix2 0 j)))

/-- The carried mean row after the last point is the column means of the activations. -/
theorem acc_mean (c : Dev nD) (hs : ∀ i, ∃ r : ℝ, V c main_v6 i = (r : EReal)) (hb : ∀ i, ∃ r : ℝ, V c main_v7 i = (r : EReal))
    (h24 : 24 < cfg1.N) :
    (accAt1 V c 24 h24).1 = fun y : S1x64.Idx => Cert.Stats.meanAt (Cert.Stats.actAt (sK V c) (bK V c)) (y 1) := by
  funext y
  obtain ⟨u, j, rfl⟩ : ∃ (u : Fin 1) (j : Fin 64), y = ix2 u j := ⟨y 0, y 1, eq_ix2 y⟩
  obtain rfl : u = 0 := Subsingleton.elim _ _
  refine (congrArg Prod.fst (acc_col V c 24 h24 j)).trans ?_
  exact Cert.Spec.mergeE_mean_tiles _ (act_real V c hs hb j)

/-- The carried squared-deviation row after the last point is the column sums of squared deviations from the column means. -/
theorem acc_m2 (c : Dev nD) (hs : ∀ i, ∃ r : ℝ, V c main_v6 i = (r : EReal)) (hb : ∀ i, ∃ r : ℝ, V c main_v7 i = (r : EReal))
    (h24 : 24 < cfg1.N) :
    (accAt1 V c 24 h24).2.1 = fun y : S1x64.Idx => Cert.Stats.m2At (Cert.Stats.actAt (sK V c) (bK V c)) (y 1) := by
  funext y
  obtain ⟨u, j, rfl⟩ : ∃ (u : Fin 1) (j : Fin 64), y = ix2 u j := ⟨y 0, y 1, eq_ix2 y⟩
  obtain rfl : u = 0 := Subsingleton.elim _ _
  refine (congrArg (fun p => p.2.1) (acc_col V c 24 h24 j)).trans ?_
  exact Cert.Spec.mergeE_m2_tiles _ (act_real V c hs hb j)

/-- The one write-back of the mean row, at the last point: its block is the whole row, so it writes the carried mean row. -/
theorem flushed2_eq (c : Dev nD) (G : S1x64.Idx → EReal) (hG : (accAt1 V c 24 tLast.isLt).1 = G)
    (t : Fin cfg1.N) (hf : (cfg1.win 2).flush t = true) :
    (dat1 (F := Ideal) V c).flushed 2 t = ((cfg1.win 2).blk t).view.read (Elt Ideal) G := by
  have hN : cfg1.N = 25 := N_1
  have h24 : t.val = 24 := by have := (flush1_2 t).mp hf; have := t.isLt; omega
  obtain rfl : t = tLast := Fin.ext h24
  obtain ⟨-, -, -, -, e4, e5, -⟩ := idx_facts1 tLast
  have hz' : (fun a => win1_2.index tLast a * main_v8_0.ty.shape.size a) = fun _ => 0 := funext fun a => by
    match a with
    | ⟨0, _⟩ => show win1_2.index tLast (0 : Fin 2) * 1 = 0; rw [e4]
    | ⟨1, _⟩ => show win1_2.index tLast (1 : Fin 2) * 64 = 0; rw [e5]
  show (cfg1.win 2).cut (grid1.coords tLast) ((dat1 (F := Ideal) V c).after 2 tLast) = _
  rw [after1_2]
  refine Eq.trans ?_ (Memref.read_access_unit_zero (Elt Ideal) main_v8_0 hz' (fun a => by rw [congrFun hz' a]; simp) G).symm
  exact hG

/-- The same for the squared-deviation row. -/
theorem flushed3_eq (c : Dev nD) (G : S1x64.Idx → EReal) (hG : (accAt1 V c 24 tLast.isLt).2.1 = G)
    (t : Fin cfg1.N) (hf : (cfg1.win 3).flush t = true) :
    (dat1 (F := Ideal) V c).flushed 3 t = ((cfg1.win 3).blk t).view.read (Elt Ideal) G := by
  have hN : cfg1.N = 25 := N_1
  have h24 : t.val = 24 := by have := (flush1_3 t).mp hf; have := t.isLt; omega
  obtain rfl : t = tLast := Fin.ext h24
  obtain ⟨-, -, -, -, -, -, e6, e7⟩ := idx_facts1 tLast
  have hz' : (fun a => win1_3.index tLast a * main_v8_1.ty.shape.size a) = fun _ => 0 := funext fun a => by
    match a with
    | ⟨0, _⟩ => show win1_3.index tLast (0 : Fin 2) * 1 = 0; rw [e6]
    | ⟨1, _⟩ => show win1_3.index tLast (1 : Fin 2) * 64 = 0; rw [e7]
  show (cfg1.win 3).cut (grid1.coords tLast) ((dat1 (F := Ideal) V c).after 3 tLast) = _
  rw [after1_3]
  refine Eq.trans ?_ (Memref.read_access_unit_zero (Elt Ideal) main_v8_1 hz' (fun a => by rw [congrFun hz' a]; simp) G).symm
  exact hG

/-- The last point's block of the mean row is the whole row. -/
theorem cover2 (i : S1x64.Idx) : ∃ t : Fin cfg1.N, (cfg1.win 2).flush t = true ∧ i ∈ ((cfg1.win 2).blk t).view.set := by
  obtain ⟨-, -, -, -, e4, e5, -⟩ := idx_facts1 tLast
  refine ⟨tLast, (flush1_2 tLast).mpr rfl, ?_⟩
  show i ∈ ((View.whole main_v8_0).slice (win1_2.rect tLast)).set
  rw [View.set_slice_whole, Rect.mem_set_unit]
  intro a
  have h0 : (i 0 : Nat) < 1 := (i 0).isLt
  have h1 : (i 1 : Nat) < 64 := (i 1).isLt
  match a with
  | ⟨0, _⟩ =>
    show win1_2.index tLast (0 : Fin 2) * 1 ≤ (i 0 : Nat) ∧ (i 0 : Nat) < win1_2.index tLast (0 : Fin 2) * 1 + 1
    rw [e4]; omega
  | ⟨1, _⟩ =>
    show win1_2.index tLast (1 : Fin 2) * 64 ≤ (i 1 : Nat) ∧ (i 1 : Nat) < win1_2.index tLast (1 : Fin 2) * 64 + 64
    rw [e5]; omega

/-- The last point's block of the squared-deviation row is the whole row. -/
theorem cover3 (i : S1x64.Idx) : ∃ t : Fin cfg1.N, (cfg1.win 3).flush t = true ∧ i ∈ ((cfg1.win 3).blk t).view.set := by
  obtain ⟨-, -, -, -, -, -, e6, e7⟩ := idx_facts1 tLast
  refine ⟨tLast, (flush1_3 tLast).mpr rfl, ?_⟩
  show i ∈ ((View.whole main_v8_1).slice (win1_3.rect tLast)).set
  rw [View.set_slice_whole, Rect.mem_set_unit]
  intro a
  have h0 : (i 0 : Nat) < 1 := (i 0).isLt
  have h1 : (i 1 : Nat) < 64 := (i 1).isLt
  match a with
  | ⟨0, _⟩ =>
    show win1_3.index tLast (0 : Fin 2) * 1 ≤ (i 0 : Nat) ∧ (i 0 : Nat) < win1_3.index tLast (0 : Fin 2) * 1 + 1
    rw [e6]; omega
  | ⟨1, _⟩ =>
    show win1_3.index tLast (1 : Fin 2) * 64 ≤ (i 1 : Nat) ∧ (i 1 : Nat) < win1_3.index tLast (1 : Fin 2) * 64 + 64
    rw [e7]; omega

end Stats1

/-- The mean row the region leaves: each column's mean of the activations over the 150000 rows. -/
theorem final1_mean (c : Dev nD) (hs : ∀ i, ∃ r : ℝ, V c main_v6 i = (r : EReal)) (hb : ∀ i, ∃ r : ℝ, V c main_v7 i = (r : EReal)) :
    (dat1 (F := Ideal) V c).arrAt 2 cfg1.N
      = fun y : S1x64.Idx => Cert.Stats.meanAt (Cert.Stats.actAt (sK V c) (bK V c)) (y 1) :=
  (dat1 (F := Ideal) V c).arrAt_eq_of_cover 2 _
    (flushed2_eq V c _ (acc_mean V c hs hb tLast.isLt)) cover2

/-- The squared-deviation row the region leaves: each column's sum of squared deviations from its mean. -/
theorem final1_m2 (c : Dev nD) (hs : ∀ i, ∃ r : ℝ, V c main_v6 i = (r : EReal)) (hb : ∀ i, ∃ r : ℝ, V c main_v7 i = (r : EReal)) :
    (dat1 (F := Ideal) V c).arrAt 3 cfg1.N
      = fun y : S1x64.Idx => Cert.Stats.m2At (Cert.Stats.actAt (sK V c) (bK V c)) (y 1) :=
  (dat1 (F := Ideal) V c).arrAt_eq_of_cover 3 _
    (flushed3_eq V c _ (acc_m2 V c hs hb tLast.isLt)) cover3

end Cert.KernelIdeal.Val

end
-- ==== Proof.BridgeB.lean ====
/-
  The statistics half of the bridge: the mean row and the variance row the normalising region receives from the kernel's
  statistics region are the reference's column mean and column variance of the same arguments. Both sides are the closed
  forms over the rectified segment sum plus bias: the kernel's by its running-statistics region's final arrays, the
  reference's by its stages read at an index.
-/
import proofs.«408267_j28449863368848_3_alg».proof.Proof.KIDefs
import proofs.«408267_j28449863368848_3_alg».proof.Proof.KIChain
import proofs.«408267_j28449863368848_3_alg».proof.Proof.RefRun
import proofs.«408267_j28449863368848_3_alg».proof.Proof.RefStats
import proofs.«408267_j28449863368848_3_alg».proof.Proof.StatsSpec
import proofs.«408267_j28449863368848_3_alg».proof.Proof.PreFacts
import Idealize.ShloMosaic.Lib.ValueIdx
import Idealize.ShloMosaic.Lib.IdealHost
import proofs.«408267_j28449863368848_3_alg».proof.Proof.KIValue1
import proofs.«408267_j28449863368848_3_alg».proof.Proof.KIHost
import proofs.«408267_j28449863368848_3_alg».proof.Proof.BridgeA

noncomputable section

namespace Cert.Bridge

open Cert.KernelIdeal Cert.KernelIdeal.Fr
open Idealize.ShloMosaic Idealize.ShloMosaic.TcCoe Idealize.SL.Sem

section Stats

variable (m : (ℓ : Loc nD τ sig) → Buf (Elt Ideal) ℓ) (c : Dev nD)

/-- The segment sum the statistics region reads, entry by entry, is the reference's. -/
theorem sK_eq (hx0 : Cert.PreFacts.Fin' (kx0 m c)) (hw : Cert.PreFacts.Fin' (kw m c))
    (hr : ∀ j, (0 : Int) ≤ (ki1 m c j).toInt ∧ (ki1 m c j).toInt < 150000) :
    Cert.KernelIdeal.Val.Stats1.sK (V3 m) c
      = fun i j => Cert.ReferenceIdeal.Hand.summed (F := Ideal) (kx0 m c) (ki1 m c) (ki2 m c) (kw m c) (ValueIdx.ix2 i j) := by
  funext i j
  exact congrFun (summed_eq m c hx0 hw hr) (ValueIdx.ix2 i j)

/-- The bias row the statistics region reads is the bias vector. -/
theorem bK_eq : Cert.KernelIdeal.Val.Stats1.bK (V3 m) c = fun j => kb m c (ValueIdx.ix1 j) := by
  funext j
  exact bias_row m c j

/-- The reference's activation, entry by entry, is the closed form over its segment sum and the bias. -/
theorem act_eq :
    (fun i j => Cert.ReferenceIdeal.Hand.act (F := Ideal) (kx0 m c) (ki1 m c) (ki2 m c) (kw m c) (kb m c) (ValueIdx.ix2 i j))
      = Cert.Stats.actAt (fun i j => Cert.ReferenceIdeal.Hand.summed (F := Ideal) (kx0 m c) (ki1 m c) (ki2 m c) (kw m c) (ValueIdx.ix2 i j))
          (fun j => kb m c (ValueIdx.ix1 j)) := by
  funext i j
  exact Cert.RefStats.ref_act (kx0 m c) (ki1 m c) (ki2 m c) (kw m c) (kb m c) i j

/-- The mean row entering the normalising region is the reference's column mean. -/
theorem mean_row (hx0 : Cert.PreFacts.Fin' (kx0 m c)) (hw : Cert.PreFacts.Fin' (kw m c)) (hb : Cert.PreFacts.Fin' (kb m c))
    (hr : ∀ j, (0 : Int) ≤ (ki1 m c j).toInt ∧ (ki1 m c j).toInt < 150000) (j : Fin 64) :
    V5 m c main_v8_0 (ValueIdx.ix2 0 j)
      = Cert.ReferenceIdeal.Hand.mean (F := Ideal) (kx0 m c) (ki1 m c) (ki2 m c) (kw m c) (kb m c) (ValueIdx.ix1 j) := by
  have e1 := congrFun ((Cert.KernelIdeal.Val.V5_v8_0 m c).trans
    (Cert.KernelIdeal.Val.final1_mean (V3 m) c (summed_fin m c hx0 hw hr) (bias_fin m c hb))) (ValueIdx.ix2 0 j)
  rw [Cert.RefStats.ref_mean, act_eq m c, ← sK_eq m c hx0 hw hr, ← bK_eq m c]
  exact e1

/-- The variance row entering the normalising region is the reference's column variance. -/
theorem var_row (hx0 : Cert.PreFacts.Fin' (kx0 m c)) (hw : Cert.PreFacts.Fin' (kw m c)) (hb : Cert.PreFacts.Fin' (kb m c))
    (hr : ∀ j, (0 : Int) ≤ (ki1 m c j).toInt ∧ (ki1 m c j).toInt < 150000) (j : Fin 64) :
    V5 m c main_v10 (ValueIdx.ix2 0 j)
      = Cert.ReferenceIdeal.Hand.var (F := Ideal) (kx0 m c) (ki1 m c) (ki2 m c) (kw m c) (kb m c) (ValueIdx.ix1 j) := by
  have e0 := congrFun (Cert.KernelIdeal.Val.V5_v10 m c) (ValueIdx.ix2 0 j)
  have e2 := congrFun (Cert.KernelIdeal.Val.final1_m2 (V3 m) c (summed_fin m c hx0 hw hr) (bias_fin m c hb)) (ValueIdx.ix2 0 j)
  rw [Cert.RefStats.ref_var, act_eq m c, ← sK_eq m c hx0 hw hr, ← bK_eq m c]
  exact e0.trans (congrArg₂ Ideal.div e2 Cert.RefStats.ofBits_150000)

end Stats

end Cert.Bridge

/-! ## What the theorems rest on: the three standard principles, nothing else -/

/-- info: 'Cert.Bridge.mean_row' depends on axioms: [propext, Classical.choice, Quot.sound] -/
#guard_msgs (whitespace := lax) in #print axioms Cert.Bridge.mean_row

/-- info: 'Cert.Bridge.var_row' depends on axioms: [propext, Classical.choice, Quot.sound] -/
#guard_msgs (whitespace := lax) in #print axioms Cert.Bridge.var_row

end
-- ==== Proof.Bridge.lean ====
/-
  The two programs' results are one function of the arguments.

  Region 2 leaves, at row i and column j, ((max (s + b) 0 − μ) · rsqrt (v + ε)) · γ + β with s the scatter-added
  sum at (i, j) and b, μ, v, γ, β the bias, mean, variance, scale and shift of column j. The sum is the reference's,
  the mean and variance rows are the reference's column mean and variance, and the reference's last stage is the same
  expression with max (s + b) 0 read off its activation. Under the precondition every float argument is a real
  number and every gather index is in range, which is what those identifications need.
-/
import proofs.«408267_j28449863368848_3_alg».proof.Defs
import proofs.«408267_j28449863368848_3_alg».proof.Proof.Gen.KernelIdeal
import proofs.«408267_j28449863368848_3_alg».proof.Proof.Gen.ReferenceIdeal
import proofs.«408267_j28449863368848_3_alg».proof.Proof.Gen.Pre_finite_inputs
import proofs.«408267_j28449863368848_3_alg».proof.Proof.KIRun
import proofs.«408267_j28449863368848_3_alg».proof.Proof.KIValue2
import proofs.«408267_j28449863368848_3_alg».proof.Proof.BridgeA
import proofs.«408267_j28449863368848_3_alg».proof.Proof.BridgeB
import proofs.«408267_j28449863368848_3_alg».proof.Proof.RefRun
import proofs.«408267_j28449863368848_3_alg».proof.Proof.RefStats
import proofs.«408267_j28449863368848_3_alg».proof.Proof.PreFacts
import Idealize.ShloMosaic.Lib.ValueIdx

set_option maxRecDepth 16384

noncomputable section

namespace Cert.Bridge

open Cert.KernelIdeal Cert.KernelIdeal.Fr Cert.KernelIdeal.Val
open Cert.KernelIdeal.Gen hiding V0 V1 V2 V3 V4 V5 V6
open Idealize.ShloMosaic Idealize.ShloMosaic.TcCoe Idealize.SL.Sem

variable (m : (ℓ : Loc nD τ sig) → Buf (Elt Ideal) ℓ) (c : Dev nD)

/-- The reference's activation at row p, column q: the larger of the sum plus the column's bias and zero. -/
theorem act_at (p : Fin 150000) (q : Fin 64) :
    Cert.ReferenceIdeal.Hand.act (F := Ideal) (kx0 m c) (ki1 m c) (ki2 m c) (kw m c) (kb m c) (ValueIdx.ix2 p q)
      = max (Cert.ReferenceIdeal.Hand.summed (F := Ideal) (kx0 m c) (ki1 m c) (ki2 m c) (kw m c) (ValueIdx.ix2 p q) + kb m c (ValueIdx.ix1 q)) 0 :=
  Cert.RefStats.ref_act (kx0 m c) (ki1 m c) (ki2 m c) (kw m c) (kb m c) p q

/-- Entry by entry, what region 2 leaves is the reference's result. -/
theorem out_eq (hx0 : Cert.PreFacts.Fin' (kx0 m c)) (hw : Cert.PreFacts.Fin' (kw m c)) (hb : Cert.PreFacts.Fin' (kb m c))
    (hr : ∀ j, (0 : Int) ≤ (ki1 m c j).toInt ∧ (ki1 m c j).toInt < 150000) :
    (dat2 (F := Ideal) (V5 m) c).arrAt 6 cfg2.N
      = Cert.ReferenceIdeal.Hand.refOut (F := Ideal) (kx0 m c) (ki1 m c) (ki2 m c) (kw m c) (kb m c) (kg m c) (kbe m c) := by
  rw [Cert.KernelIdeal.Val.final2 (V5 m) c]
  funext i
  obtain ⟨p, q, rfl⟩ : ∃ (p : Fin 150000) (q : Fin 64), i = ValueIdx.ix2 p q := ⟨i 0, i 1, ValueIdx.eq_ix2 i⟩
  show normAt (V5 m c main_v6 (ValueIdx.ix2 p q)) (V5 m c main_v7 (ValueIdx.ix2 0 q)) (V5 m c main_v8_0 (ValueIdx.ix2 0 q))
      (V5 m c main_v10 (ValueIdx.ix2 0 q)) (V5 m c main_v11 (ValueIdx.ix2 0 q)) (V5 m c main_v12 (ValueIdx.ix2 0 q)) = _
  rw [summed5 m c hx0 hw hr, bias_row5 m c q, mean_row m c hx0 hw hb hr q, var_row m c hx0 hw hb hr q,
    scale_row m c q, shift_row m c q]
  unfold Cert.ReferenceIdeal.Hand.refOut
  refine ((Cert.KernelIdeal.Val.ref_norm _ _ _ _ _ (ValueIdx.ix2 p q)).trans ?_).symm
  rw [act_at m c p q]
  rfl

/-- Both programs run, from memories agreeing on the arguments, to equal results, the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => (dat2 (F := Ideal) (V5 m) c).arrAt 6 cfg2.N, Cert.KernelIdeal.Fr.run_out m g, ?_⟩
  refine (θ_run Cert.ReferenceIdeal.defs _ _).mono (fun _ h c => ⟨(h c).1.trans ?_, (h c).2⟩)
    (Cert.ReferenceIdeal.Hand.run (F := Ideal) m' g')
  obtain ⟨h0, h1, h2, h3, h4, h5, h6⟩ := hagree c
  rw [h0, h1, h2, h3, h4, h5, h6]
  obtain ⟨hx0, hw, hb, -, -, hr⟩ := Cert.PreFacts.of_pre _ _ _ _ _ _ _ (hpre c)
  exact (out_eq m c hx0 hw hb hr).symm

end Cert.Bridge

end
-- ==== Proof.lean ====
/-
  The certificate's claim, assembled.

  The kernel computes a sparse convolution followed by a rectifier and a batch normalisation in three kernel
  regions among host operations: a bounds-checked gather of feature rows; per offset, the product of the gathered
  rows with that offset's weight (region 0, the product split into a leading part and a remainder that vanish
  exactly over the reals); a scatter-add of the products into the output rows; the column mean and sum of squared
  deviations of the rectified sums, merged tile by tile (region 1: the parallel-variance merge, exact over the
  reals); and the normalisation (region 2). The reference computes the same with one gather, one batched product,
  the same scatter-add, and whole-column mean and variance.

  Under the precondition every float input is a real number and every gather index lies in 0 … 149999, so the
  bounds check never fills, the gathered rows are the reference's, every intermediate is a real number, and the
  merged statistics are the whole-column ones; the two results are then the same function of the arguments, entry
  by entry.

  The three frames: each program runs to its end, faults nowhere and leaves its arguments as launched. For the two
  kernel programs this is the several-regions launch over the three regions' records and the host stretches
  between them; for the reference it is its run with the result dropped.
-/
import proofs.«408267_j28449863368848_3_alg».proof.Defs
import proofs.«408267_j28449863368848_3_alg».proof.Proof.Gen.Kernel
import proofs.«408267_j28449863368848_3_alg».proof.Proof.Gen.KernelIdeal
import proofs.«408267_j28449863368848_3_alg».proof.Proof.Gen.ReferenceIdeal
import proofs.«408267_j28449863368848_3_alg».proof.Proof.Gen.Pre_finite_inputs
import proofs.«408267_j28449863368848_3_alg».proof.Proof.KRun
import proofs.«408267_j28449863368848_3_alg».proof.Proof.KIRun
import proofs.«408267_j28449863368848_3_alg».proof.Proof.RefRun
import proofs.«408267_j28449863368848_3_alg».proof.Proof.Bridge

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m g _ => Cert.Kernel.Fr.frame m g

/-- The idealized kernel runs and keeps its arguments. -/
theorem frame_ki : Cert.frame_KernelIdeal (hKernelIdeal := Cert.KernelIdeal.Gen.facts) (hPre_finite_inputs := Cert.Pre_finite_inputs.Gen.facts) :=
  fun m g _ => Cert.KernelIdeal.Fr.frame m g

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Hand.run (F := Ideal) m g)

/-- The two format round-trips the idealized kernel drops are the identity over the extended reals, and the word-level
    rounding at the words. -/
theorem preserves : Cert.preserves_Kernel_KernelIdeal :=
  ⟨IdealRules.truncf_extf.statement Cert.KernelIdeal.S30000x32 .f32 .bf16, IdealRules.truncf_extf.statement Cert.KernelIdeal.S32x64 .f32 .bf16⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Bridge.algebraic⟩

end Cert.Proof

end
